-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v11)) (v1 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_v23) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_v75) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S400000x64 : Shape := ⟨2, ![400000, 64]⟩
abbrev S600000x128 : Shape := ⟨2, ![600000, 128]⟩
abbrev S64x256 : Shape := ⟨2, ![64, 256]⟩
abbrev S256 : Shape := ⟨1, ![256]⟩
abbrev S128x256 : Shape := ⟨2, ![128, 256]⟩
abbrev S256x128 : Shape := ⟨2, ![256, 128]⟩
abbrev S128 : Shape := ⟨1, ![128]⟩
abbrev S_ : Shape := ⟨0, ![]⟩

class Facts : Prop where
  bcast_S_S400000x64 : S_.BroadcastsInDim S400000x64 (![] : Fin 0 → Fin S400000x64.rank)
  reducesTo_S400000x64_S_d0_1 : S400000x64.ReducesTo [0, 1] S_
  h_S_ : 0 < S_.numel
  bcast_S_S600000x128 : S_.BroadcastsInDim S600000x128 (![] : Fin 0 → Fin S600000x128.rank)
  reducesTo_S600000x128_S_d0_1 : S600000x128.ReducesTo [0, 1] S_
  bcast_S_S64x256 : S_.BroadcastsInDim S64x256 (![] : Fin 0 → Fin S64x256.rank)
  reducesTo_S64x256_S_d0_1 : S64x256.ReducesTo [0, 1] S_
  bcast_S_S256 : S_.BroadcastsInDim S256 (![] : Fin 0 → Fin S256.rank)
  reducesTo_S256_S_d0 : S256.ReducesTo [0] S_
  bcast_S_S128x256 : S_.BroadcastsInDim S128x256 (![] : Fin 0 → Fin S128x256.rank)
  reducesTo_S128x256_S_d0_1 : S128x256.ReducesTo [0, 1] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg11 : FVec F S128 .f32) (main_arg12 : FVec F S128 .f32) (main_arg13 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128 .f32 := Host.absf main_arg11
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128 .f32 := Host.absf main_arg12
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128 .f32 := Host.absf main_arg13
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_v63 main_v67

def fn_part2 {F : FTy → Type} [FloatOps F] (main_arg7 : FVec F S128 .f32) (main_arg8 : FVec F S256x128 .f32) (main_arg9 : FVec F S128 .f32) (main_arg10 : FVec F S128 .f32) (main_arg11 : FVec F S128 .f32) (main_arg12 : FVec F S128 .f32) (main_arg13 : FVec F S128 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S256x128 .f32 := Host.absf main_arg8
  let main_cst_14 : FVec F S_ .f32 := constant S_ .f32 0x7F800000#32
  let main_v40 : FVec F S256x128 .f32 := broadcastInDim S256x128 ![] bcast_S_S256x128 main_cst_14
  let main_v41 : IVec S256x128 1 := cmpf .olt main_v39 main_v40
  let main_c_15 : IVec S_ 1 := constantI S_ 1 1#1
  let main_v42 : IVec S_ 1 := (fun x v => Host.reduce IntOp.andi x v reducesTo_S256x128_S_d0_1 h_S_) main_v41 main_c_15
  let main_v43 : IVec S_ 1 := andi main_v38 main_v42
  let main_v44 : FVec F S128 .f32 := Host.absf main_arg9
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128 .f32 := Host.absf main_arg10
  let main_cst_18 : FVec F S_ .f32 := constant S_ .f32 0x7F800000#32
  let main_v50 : FVec F S128 .f32 := broadcastInDim S128 ![] bcast_S_S128 main_cst_18
  fn_part3 (F := F) main_arg11 main_arg12 main_arg13 main_v48 main_v49 main_v50

def fn_part1 {F : FTy → Type} [FloatOps F] (main_arg4 : FVec F S128x256 .f32) (main_arg5 : FVec F S256 .f32) (main_arg6 : FVec F S256x128 .f32) (main_arg7 : FVec F S128 .f32) (main_arg8 : FVec F S256x128 .f32) (main_arg9 : FVec F S128 .f32) (main_arg10 : FVec F S128 .f32) (main_arg11 : FVec F S128 .f32) (main_arg12 : FVec F S128 .f32) (main_arg13 : FVec F S128 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S128x256 .f32 := Host.absf main_arg4
  let main_cst_6 : FVec F S_ .f32 := constant S_ .f32 0x7F800000#32
  let main_v20 : FVec F S128x256 .f32 := broadcastInDim S128x256 ![] bcast_S_S128x256 main_cst_6
  let main_v21 : IVec S128x256 1 := cmpf .olt main_v19 main_v20
  let main_c_7 : IVec S_ 1 := constantI S_ 1 1#1
  let main_v22 : IVec S_ 1 := (fun x v => Host.reduce IntOp.andi x v reducesTo_S128x256_S_d0_1 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x128 .f32 := Host.absf main_arg6
  let main_cst_10 : FVec F S_ .f32 := constant S_ .f32 0x7F800000#32
  let main_v30 : FVec F S256x128 .f32 := broadcastInDim S256x128 ![] bcast_S_S256x128 main_cst_10
  let main_v31 : IVec S256x128 1 := cmpf .olt main_v29 main_v30
  let main_c_11 : IVec S_ 1 := constantI S_ 1 1#1
  let main_v32 : IVec S_ 1 := (fun x v => Host.reduce IntOp.andi x v reducesTo_S256x128_S_d0_1 h_S_) main_v31 main_c_11
  let main_v33 : IVec S_ 1 := andi main_v28 main_v32
  fn_part2 (F := F) main_arg7 main_arg8 main_arg9 main_arg10 main_arg11 main_arg12 main_arg13 main_v33

def fn {F : FTy → Type} [FloatOps F] (main_arg0 : FVec F S400000x64 .f32) (main_arg1 : FVec F S600000x128 .f32) (main_arg2 : FVec F S64x256 .f32) (main_arg3 : FVec F S256 .f32) (main_arg4 : FVec F S128x256 .f32) (main_arg5 : FVec F S256 .f32) (main_arg6 : FVec F S256x128 .f32) (main_arg7 : FVec F S128 .f32) (main_arg8 : FVec F S256x128 .f32) (main_arg9 : FVec F S128 .f32) (main_arg10 : FVec F S128 .f32) (main_arg11 : FVec F S128 .f32) (main_arg12 : FVec F S128 .f32) (main_arg13 : FVec F S128 .f32) : IVec S_ 1 :=
  let main_v0 : FVec F S400000x64 .f32 := Host.absf main_arg0
  let main_cst : FVec F S_ .f32 := constant S_ .f32 0x7F800000#32
  let main_v1 : FVec F S400000x64 .f32 := broadcastInDim S400000x64 ![] bcast_S_S400000x64 main_cst
  let main_v2 : IVec S400000x64 1 := cmpf .olt main_v0 main_v1
  let main_c : IVec S_ 1 := constantI S_ 1 1#1
  let main_v3 : IVec S_ 1 := (fun x v => Host.reduce IntOp.andi x v reducesTo_S400000x64_S_d0_1 h_S_) main_v2 main_c
  let main_v4 : FVec F S600000x128 .f32 := Host.absf main_arg1
  let main_cst_0 : FVec F S_ .f32 := constant S_ .f32 0x7F800000#32
  let main_v5 : FVec F S600000x128 .f32 := broadcastInDim S600000x128 ![] bcast_S_S600000x128 main_cst_0
  let main_v6 : IVec S600000x128 1 := cmpf .olt main_v4 main_v5
  let main_c_1 : IVec S_ 1 := constantI S_ 1 1#1
  let main_v7 : IVec S_ 1 := (fun x v => Host.reduce IntOp.andi x v reducesTo_S600000x128_S_d0_1 h_S_) main_v6 main_c_1
  let main_v8 : IVec S_ 1 := andi main_v3 main_v7
  let main_v9 : FVec F S64x256 .f32 := Host.absf main_arg2
  let main_cst_2 : FVec F S_ .f32 := constant S_ .f32 0x7F800000#32
  let main_v10 : FVec F S64x256 .f32 := broadcastInDim S64x256 ![] bcast_S_S64x256 main_cst_2
  let main_v11 : IVec S64x256 1 := cmpf .olt main_v9 main_v10
  let main_c_3 : IVec S_ 1 := constantI S_ 1 1#1
  let main_v12 : IVec S_ 1 := (fun x v => Host.reduce IntOp.andi x v reducesTo_S64x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_arg6 main_arg7 main_arg8 main_arg9 main_arg10 main_arg11 main_arg12 main_arg13 main_v13 main_v16
-- ==== Kernel.lean ====
abbrev S400000x64 : Shape := ⟨2, ![400000, 64]⟩
abbrev S600000x128 : Shape := ⟨2, ![600000, 128]⟩
abbrev S64x256 : Shape := ⟨2, ![64, 256]⟩
abbrev S256 : Shape := ⟨1, ![256]⟩
abbrev S128x256 : Shape := ⟨2, ![128, 256]⟩
abbrev S256x128 : Shape := ⟨2, ![256, 128]⟩
abbrev S128 : Shape := ⟨1, ![128]⟩
abbrev S1x256 : Shape := ⟨2, ![1, 256]⟩
abbrev S1x128 : Shape := ⟨2, ![1, 128]⟩
abbrev S400000x128 : Shape := ⟨2, ![400000, 128]⟩
abbrev S4000x64 : Shape := ⟨2, ![4000, 64]⟩
abbrev S4000x128 : Shape := ⟨2, ![4000, 128]⟩
abbrev S4000x256 : Shape := ⟨2, ![4000, 256]⟩
abbrev S_ : Shape := ⟨0, ![]⟩
abbrev S5000x128 : Shape := ⟨2, ![5000, 128]⟩
abbrev S5000x256 : Shape := ⟨2, ![5000, 256]⟩

abbrev nBuf : Space → Nat
  | .hbm => 46
  | .vmem => 36
  | .smem => 0
  | _ => 0

abbrev bufTy : (tb : Table) → Fin (tcTables nBuf tb) → BufTy
  | .hbm, ⟨0, _⟩ => ⟨S400000x64, .f32⟩
  | .hbm, ⟨1, _⟩ => ⟨S600000x128, .f32⟩
  | .hbm, ⟨2, _⟩ => ⟨S64x256, .f32⟩
  | .hbm, ⟨3, _⟩ => ⟨S256, .f32⟩
  | .hbm, ⟨4, _⟩ => ⟨S128x256, .f32⟩
  | .hbm, ⟨5, _⟩ => ⟨S256, .f32⟩
  | .hbm, ⟨6, _⟩ => ⟨S256x128, .f32⟩
  | .hbm, ⟨7, _⟩ => ⟨S128, .f32⟩
  | .hbm, ⟨8, _⟩ => ⟨S256x128, .f32⟩
  | .hbm, ⟨9, _⟩ => ⟨S128, .f32⟩
  | .hbm, ⟨10, _⟩ => ⟨S128, .f32⟩
  | .hbm, ⟨11, _⟩ => ⟨S128, .f32⟩
  | .hbm, ⟨12, _⟩ => ⟨S128, .f32⟩
  | .hbm, ⟨13, _⟩ => ⟨S128, .f32⟩
  | .hbm, ⟨14, _⟩ => ⟨S1x256, .f32⟩
  | .hbm, ⟨15, _⟩ => ⟨S1x128, .f32⟩
  | .hbm, ⟨16, _⟩ => ⟨S400000x128, .f32⟩
  | .hbm, ⟨17, _⟩ => ⟨S1x128, .f32⟩
  | .hbm, ⟨18, _⟩ => ⟨S1x128, .f32⟩
  | .hbm, ⟨19, _⟩ => ⟨S_, .f32⟩
  | .hbm, ⟨20, _⟩ => ⟨S1x128, .f32⟩
  | .hbm, ⟨21, _⟩ => ⟨S1x128, .f32⟩
  | .hbm, ⟨22, _⟩ => ⟨S_, .f32⟩
  | .hbm, ⟨23, _⟩ => ⟨S1x128, .f32⟩
  | .hbm, ⟨24, _⟩ => ⟨S1x128, .f32⟩
  | .hbm, ⟨25, _⟩ => ⟨S1x128, .f32⟩
  | .hbm, ⟨26, _⟩ => ⟨S1x128, .f32⟩
  | .hbm, ⟨27, _⟩ => ⟨S1x128, .f32⟩
  | .hbm, ⟨28, _⟩ => ⟨S1x128, .f32⟩
  | .hbm, ⟨29, _⟩ => ⟨S400000x128, .f32⟩
  | .hbm, ⟨30, _⟩ => ⟨S1x256, .f32⟩
  | .hbm, ⟨31, _⟩ => ⟨S1x128, .f32⟩
  | .hbm, ⟨32, _⟩ => ⟨S600000x128, .f32⟩
  | .hbm, ⟨33, _⟩ => ⟨S1x128, .f32⟩
  | .hbm, ⟨34, _⟩ => ⟨S1x128, .f32⟩
  | .hbm, ⟨35, _⟩ => ⟨S_, .f32⟩
  | .hbm, ⟨36, _⟩ => ⟨S1x128, .f32⟩
  | .hbm, ⟨37, _⟩ => ⟨S1x128, .f32⟩
  | .hbm, ⟨38, _⟩ => ⟨S_, .f32⟩
  | .hbm, ⟨39, _⟩ => ⟨S1x128, .f32⟩
  | .hbm, ⟨40, _⟩ => ⟨S1x128, .f32⟩
  | .hbm, ⟨41, _⟩ => ⟨S1x128, .f32⟩
  | .hbm, ⟨42, _⟩ => ⟨S1x128, .f32⟩
  | .hbm, ⟨43, _⟩ => ⟨S1x128, .f32⟩
  | .hbm, ⟨44, _⟩ => ⟨S1x128, .f32⟩
  | .hbm, ⟨45, _⟩ => ⟨S600000x128, .f32⟩
  | .local _ .vmem, ⟨0, _⟩ => ⟨S4000x64, .f32⟩
  | .local _ .vmem, ⟨1, _⟩ => ⟨S4000x64, .f32⟩
  | .local _ .vmem, ⟨2, _⟩ => ⟨S64x256, .f32⟩
  | .local _ .vmem, ⟨3, _⟩ => ⟨S1x256, .f32⟩
  | .local _ .vmem, ⟨4, _⟩ => ⟨S256x128, .f32⟩
  | .local _ .vmem, ⟨5, _⟩ => ⟨S1x128, .f32⟩
  | .local _ .vmem, ⟨6, _⟩ => ⟨S4000x128, .f32⟩
  | .local _ .vmem, ⟨7, _⟩ => ⟨S4000x128, .f32⟩
  | .local _ .vmem, ⟨8, _⟩ => ⟨S1x128, .f32⟩
  | .local _ .vmem, ⟨9, _⟩ => ⟨S1x128, .f32⟩
  | .local _ .vmem, ⟨10, _⟩ => ⟨S4000x128, .f32⟩
  | .local _ .vmem, ⟨11, _⟩ => ⟨S4000x128, .f32⟩
  | .local _ .vmem, ⟨12, _⟩ => ⟨S1x128, .f32⟩
  | .local _ .vmem, ⟨13, _⟩ => ⟨S1x128, .f32⟩
  | .local _ .vmem, ⟨14, _⟩ => ⟨S1x128, .f32⟩
  | .local _ .vmem, ⟨15, _⟩ => ⟨S1x128, .f32⟩
  | .local _ .vmem, ⟨16, _⟩ => ⟨S4000x128, .f32⟩
  | .local _ .vmem, ⟨17, _⟩ => ⟨S4000x128, .f32⟩
  | .local _ .vmem, ⟨18, _⟩ => ⟨S5000x128, .f32⟩
  | .local _ .vmem, ⟨19, _⟩ => ⟨S5000x128, .f32⟩
  | .local _ .vmem, ⟨20, _⟩ => ⟨S128x256, .f32⟩
  | .local _ .vmem, ⟨21, _⟩ => ⟨S1x256, .f32⟩
  | .local _ .vmem, ⟨22, _⟩ => ⟨S256x128, .f32⟩
  | .local _ .vmem, ⟨23, _⟩ => ⟨S1x128, .f32⟩
  | .local _ .vmem, ⟨24, _⟩ => ⟨S5000x128, .f32⟩
  | .local _ .vmem, ⟨25, _⟩ => ⟨S5000x128, .f32⟩
  | .local _ .vmem, ⟨26, _⟩ => ⟨S1x128, .f32⟩
  | .local _ .vmem, ⟨27, _⟩ => ⟨S1x128, .f32⟩
  | .local _ .vmem, ⟨28, _⟩ => ⟨S5000x128, .f32⟩
  | .local _ .vmem, ⟨29, _⟩ => ⟨S5000x128, .f32⟩
  | .local _ .vmem, ⟨30, _⟩ => ⟨S1x128, .f32⟩
  | .local _ .vmem, ⟨31, _⟩ => ⟨S1x128, .f32⟩
  | .local _ .vmem, ⟨32, _⟩ => ⟨S1x128, .f32⟩
  | .local _ .vmem, ⟨33, _⟩ => ⟨S1x128, .f32⟩
  | .local _ .vmem, ⟨34, _⟩ => ⟨S5000x128, .f32⟩
  | .local _ .vmem, ⟨35, _⟩ => ⟨S5000x128, .f32⟩
  | _, _ => ⟨S400000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2_0 : Ref sig .tc := ⟨.hbm, 16, rfl⟩
abbrev main_v2_1 : Ref sig .tc := ⟨.hbm, 17, rfl⟩
abbrev main_v2_2 : Ref sig .tc := ⟨.hbm, 18, rfl⟩
abbrev main_cst : Ref sig .tc := ⟨.hbm, 19, rfl⟩
abbrev main_v3 : Ref sig .tc := ⟨.hbm, 20, rfl⟩
abbrev main_v4 : Ref sig .tc := ⟨.hbm, 21, rfl⟩
abbrev main_cst_0 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14_0 : Ref sig .tc := ⟨.hbm, 32, rfl⟩
abbrev main_v14_1 : Ref sig .tc := ⟨.hbm, 33, rfl⟩
abbrev main_v14_2 : Ref sig .tc := ⟨.hbm, 34, rfl⟩
abbrev main_cst_1 : Ref sig .tc := ⟨.hbm, 35, rfl⟩
abbrev main_v15 : Ref sig .tc := ⟨.hbm, 36, rfl⟩
abbrev main_v16 : Ref sig .tc := ⟨.hbm, 37, rfl⟩
abbrev main_cst_2 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg7_0 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg4_0 : Ref sig .tc := ⟨.vmem, 23, rfl⟩
abbrev cc2_stg5_0 : Ref sig .tc := ⟨.vmem, 24, rfl⟩
abbrev cc2_stg5_1 : Ref sig .tc := ⟨.vmem, 25, rfl⟩
abbrev cc2_stg6_0 : Ref sig .tc := ⟨.vmem, 26, rfl⟩
abbrev cc2_stg7_0 : Ref sig .tc := ⟨.vmem, 27, rfl⟩
abbrev cc3_stg0_0 : Ref sig .tc := ⟨.vmem, 28, rfl⟩
abbrev cc3_stg0_1 : Ref sig .tc := ⟨.vmem, 29, rfl⟩
abbrev cc3_stg1_0 : Ref sig .tc := ⟨.vmem, 30, rfl⟩
abbrev cc3_stg2_0 : Ref sig .tc := ⟨.vmem, 31, rfl⟩
abbrev cc3_stg3_0 : Ref sig .tc := ⟨.vmem, 32, rfl⟩
abbrev cc3_stg4_0 : Ref sig .tc := ⟨.vmem, 33, rfl⟩
abbrev cc3_stg5_0 : Ref sig .tc := ⟨.vmem, 34, rfl⟩
abbrev cc3_stg5_1 : Ref sig .tc := ⟨.vmem, 35, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem7_0 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem2_0 : DmaSem sig := 21
abbrev cc2_sem3_0 : DmaSem sig := 22
abbrev cc2_sem4_0 : DmaSem sig := 23
abbrev cc2_sem5_0 : DmaSem sig := 24
abbrev cc2_sem5_1 : DmaSem sig := 25
abbrev cc2_sem6_0 : DmaSem sig := 26
abbrev cc2_sem7_0 : DmaSem sig := 27
abbrev cc3_sem0_0 : DmaSem sig := 28
abbrev cc3_sem0_1 : DmaSem sig := 29
abbrev cc3_sem1_0 : DmaSem sig := 30
abbrev cc3_sem2_0 : DmaSem sig := 31
abbrev cc3_sem3_0 : DmaSem sig := 32
abbrev cc3_sem4_0 : DmaSem sig := 33
abbrev cc3_sem5_0 : DmaSem sig := 34
abbrev cc3_sem5_1 : DmaSem sig := 35

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S4000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![120], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S256x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev grid3 : Pipeline.Grid := ⟨1, ![120], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

class Facts₀ : Prop where
  shapeCasts_S256_S1x256 : S256.ShapeCasts S1x256
  shapeCasts_S128_S1x128 : S128.ShapeCasts S1x128
  inb_S4000x64_S4000x64_0_0 : ∀ a, (![0, 0] : Fin 2 → Nat) a + S4000x64.size a ≤ S4000x64.size a
  h_S4000x64 : 0 < S4000x64.numel
  bitsLt_bf16_f32 : FTy.bits .bf16 < FTy.bits .f32
  inb_S64x256_S64x256_0_0 : ∀ a, (![0, 0] : Fin 2 → Nat) a + S64x256.size a ≤ S64x256.size a
  h_S64x256 : 0 < S64x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S4000x256 : S1x256.Broadcasts S4000x256
  inb_S256x128_S256x128_0_0 : ∀ a, (![0, 0] : Fin 2 → Nat) a + S256x128.size a ≤ S256x128.size a
  h_S256x128 : 0 < S256x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  inb_S4000x128_S4000x128_0_0 : ∀ a, (![0, 0] : Fin 2 → Nat) a + S4000x128.size a ≤ S4000x128.size a
  h_S4000x128 : 0 < S4000x128.numel
  reduces_S4000x128_S128 : S4000x128.Reduces [0] S128
  bcast_S_S1x128 : S_.BroadcastsInDim S1x128 (![] : Fin 0 → Fin S1x128.rank)
  shapeCasts_S4000x128_S4000x128 : S4000x128.ShapeCasts S4000x128
  inb_S5000x128_S5000x128_0_0 : ∀ a, (![0, 0] : Fin 2 → Nat) a + S5000x128.size a ≤ S5000x128.size a
  h_S5000x128 : 0 < S5000x128.numel
  inb_S128x256_S128x256_0_0 : ∀ a, (![0, 0] : Fin 2 → Nat) a + S128x256.size a ≤ S128x256.size a
  h_S128x256 : 0 < S128x256.numel
  broadcasts_S1x256_S5000x256 : S1x256.Broadcasts S5000x256
  broadcasts_S1x128_S5000x128 : S1x128.Broadcasts S5000x128
  reduces_S5000x128_S128 : S5000x128.Reduces [0] S128
  shapeCasts_S5000x128_S5000x128 : S5000x128.ShapeCasts S5000x128
  dot_S4000x64_S64x256_S4000x256_1_0_0_1_n_n_wf : DotDims.WF S4000x64 S64x256 S4000x256 [1] [0] [0] [1] [] []
  dot_S4000x256_S256x128_S4000x128_1_0_0_1_n_n_wf : DotDims.WF S4000x256 S256x128 S4000x128 [1] [0] [0] [1] [] []
  dot_S5000x128_S128x256_S5000x256_1_0_0_1_n_n_wf : DotDims.WF S5000x128 S128x256 S5000x256 [1] [0] [0] [1] [] []
  dot_S5000x256_S256x128_S5000x128_1_0_0_1_n_n_wf : DotDims.WF S5000x256 S256x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x64.size a ≤ S400000x64.size a
  hwx0_0 : ∀ i : grid0.Coords, EltTy.bits .f32 = 32 ∨ (Rect.block (s := S400000x64) S4000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x256.size a ≤ S64x256.size a
  hwx0_1 : ∀ i : grid0.Coords, EltTy.bits .f32 = 32 ∨ (Rect.block (s := S64x256) S64x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x128.size a ≤ S256x128.size a
  hwx0_3 : ∀ i : grid0.Coords, EltTy.bits .f32 = 32 ∨ (Rect.block (s := S256x128) S256x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4000x128.size a ≤ S400000x128.size a
  hwx0_5 : ∀ i : grid0.Coords, EltTy.bits .f32 = 32 ∨ (Rect.block (s := S400000x128) S4000x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S400000x128.size a
  hwx1_0 : ∀ i : grid1.Coords, EltTy.bits .f32 = 32 ∨ (Rect.block (s := S400000x128) S4000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S4000x128.size a ≤ S400000x128.size a
  hwx1_5 : ∀ i : grid1.Coords, EltTy.bits .f32 = 32 ∨ (Rect.block (s := S400000x128) S4000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S600000x128.size a
  hwx2_0 : ∀ i : grid2.Coords, EltTy.bits .f32 = 32 ∨ (Rect.block (s := S600000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x256.size a ≤ S128x256.size a
  hwx2_1 : ∀ i : grid2.Coords, EltTy.bits .f32 = 32 ∨ (Rect.block (s := S128x256) S128x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x256.size a ≤ S1x256.size a
  hwx2_2 : ∀ i : grid2.Coords, EltTy.bits .f32 = 32 ∨ (Rect.block (s := S1x256) S1x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S256x128.size a ≤ S256x128.size a
  hwx2_3 : ∀ i : grid2.Coords, EltTy.bits .f32 = 32 ∨ (Rect.block (s := S256x128) S256x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S600000x128.size a
  hwx2_5 : ∀ i : grid2.Coords, EltTy.bits .f32 = 32 ∨ (Rect.block (s := S600000x128) S5000x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x128.size a ≤ S1x128.size a
  hwx2_7 : ∀ i : grid2.Coords, EltTy.bits .f32 = 32 ∨ (Rect.block (s := S1x128) S1x128.size (cc2_transform_7 i) (hinb2_7 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S600000x128.size a
  hwx3_0 : ∀ i : grid3.Coords, EltTy.bits .f32 = 32 ∨ (Rect.block (s := S600000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x128.size a ≤ S600000x128.size a
  hwx3_5 : ∀ i : grid3.Coords, EltTy.bits .f32 = 32 ∨ (Rect.block (s := S600000x128) S5000x128.size (cc3_transform_5 i) (hinb3_5 i)).WholeWords (EltTy.packing .f32)

variable [Facts₀]

def dot_S4000x64_S64x256_S4000x256_1_0_0_1_n_n : DotDims S4000x64 S64x256 S4000x256 where
  lhsContracting := [1]
  rhsContracting := [0]
  lhsNonContracting := [0]
  rhsNonContracting := [1]
  lhsBatch := []
  rhsBatch := []
  wf := dot_S4000x64_S64x256_S4000x256_1_0_0_1_n_n_wf
def dot_S4000x256_S256x128_S4000x128_1_0_0_1_n_n : DotDims S4000x256 S256x128 S4000x128 where
  lhsContracting := [1]
  rhsContracting := [0]
  lhsNonContracting := [0]
  rhsNonContracting := [1]
  lhsBatch := []
  rhsBatch := []
  wf := dot_S4000x256_S256x128_S4000x128_1_0_0_1_n_n_wf
def dot_S5000x128_S128x256_S5000x256_1_0_0_1_n_n : DotDims S5000x128 S128x256 S5000x256 where
  lhsContracting := [1]
  rhsContracting := [0]
  lhsNonContracting := [0]
  rhsNonContracting := [1]
  lhsBatch := []
  rhsBatch := []
  wf := dot_S5000x128_S128x256_S5000x256_1_0_0_1_n_n_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf

abbrev win0_0 : Pipeline.Window sig grid0 :=
  Pipeline.Window.ofSpec (Memref.whole main_arg0) S4000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg6) S256x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2_0) S4000x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v2_1) S1x128.size cc0_transform_6 reads0_6 true true 1 stage0_6 sem0_6
    hrank0 hreads0_6 hinb0_6 nbuf0_6 (Memref.isWhole_whole _) hwx0_6 hstage0_6

abbrev win0_7 : Pipeline.Window sig grid0 :=
  Pipeline.Window.ofSpec (Memref.whole main_v2_2) S1x128.size cc0_transform_7 reads0_7 true true 1 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v2_0) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v8) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v9) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v10) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v11) S4000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_arg1) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v12) S1x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg8) S256x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v13) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v14_0) S5000x128.size cc2_transform_5 reads2_5 true false 2 stage2_5 sem2_5
    hrank2 hreads2_5 hinb2_5 nbuf2_5 (Memref.isWhole_whole _) hwx2_5 hstage2_5

abbrev win2_6 : Pipeline.Window sig grid2 :=
  Pipeline.Window.ofSpec (Memref.whole main_v14_1) S1x128.size cc2_transform_6 reads2_6 true true 1 stage2_6 sem2_6
    hrank2 hreads2_6 hinb2_6 nbuf2_6 (Memref.isWhole_whole _) hwx2_6 hstage2_6

abbrev win2_7 : Pipeline.Window sig grid2 :=
  Pipeline.Window.ofSpec (Memref.whole main_v14_2) S1x128.size cc2_transform_7 reads2_7 true true 1 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev win3_0 : Pipeline.Window sig grid3 :=
  Pipeline.Window.ofSpec (Memref.whole main_v14_0) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v16) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v20) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v21) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v22) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v23) S5000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S400000x64 : Shape := ⟨2, ![400000, 64]⟩
abbrev S600000x128 : Shape := ⟨2, ![600000, 128]⟩
abbrev S64x256 : Shape := ⟨2, ![64, 256]⟩
abbrev S256 : Shape := ⟨1, ![256]⟩
abbrev S128x256 : Shape := ⟨2, ![128, 256]⟩
abbrev S256x128 : Shape := ⟨2, ![256, 128]⟩
abbrev S128 : Shape := ⟨1, ![128]⟩
abbrev S400000x256 : Shape := ⟨2, ![400000, 256]⟩
abbrev S1x256 : Shape := ⟨2, ![1, 256]⟩
abbrev S400000x128 : Shape := ⟨2, ![400000, 128]⟩
abbrev S1x128 : Shape := ⟨2, ![1, 128]⟩
abbrev S_ : Shape := ⟨0, ![]⟩
abbrev S600000x256 : Shape := ⟨2, ![600000, 256]⟩

abbrev nBuf : Space → Nat
  | .hbm => 104
  | .vmem => 0
  | .smem => 0
  | _ => 0

abbrev bufTy : (tb : Table) → Fin (tcTables nBuf tb) → BufTy
  | .hbm, ⟨0, _⟩ => ⟨S400000x64, .f32⟩
  | .hbm, ⟨1, _⟩ => ⟨S600000x128, .f32⟩
  | .hbm, ⟨2, _⟩ => ⟨S64x256, .f32⟩
  | .hbm, ⟨3, _⟩ => ⟨S256, .f32⟩
  | .hbm, ⟨4, _⟩ => ⟨S128x256, .f32⟩
  | .hbm, ⟨5, _⟩ => ⟨S256, .f32⟩
  | .hbm, ⟨6, _⟩ => ⟨S256x128, .f32⟩
  | .hbm, ⟨7, _⟩ => ⟨S128, .f32⟩
  | .hbm, ⟨8, _⟩ => ⟨S256x128, .f32⟩
  | .hbm, ⟨9, _⟩ => ⟨S128, .f32⟩
  | .hbm, ⟨10, _⟩ => ⟨S128, .f32⟩
  | .hbm, ⟨11, _⟩ => ⟨S128, .f32⟩
  | .hbm, ⟨12, _⟩ => ⟨S128, .f32⟩
  | .hbm, ⟨13, _⟩ => ⟨S128, .f32⟩
  | .hbm, ⟨14, _⟩ => ⟨S400000x256, .f32⟩
  | .hbm, ⟨15, _⟩ => ⟨S1x256, .f32⟩
  | .hbm, ⟨16, _⟩ => ⟨S400000x256, .f32⟩
  | .hbm, ⟨17, _⟩ => ⟨S400000x256, .f32⟩
  | .hbm, ⟨18, _⟩ => ⟨S400000x128, .f32⟩
  | .hbm, ⟨19, _⟩ => ⟨S1x128, .f32⟩
  | .hbm, ⟨20, _⟩ => ⟨S400000x128, .f32⟩
  | .hbm, ⟨21, _⟩ => ⟨S400000x128, .f32⟩
  | .hbm, ⟨22, _⟩ => ⟨S_, .f32⟩
  | .hbm, ⟨23, _⟩ => ⟨S128, .f32⟩
  | .hbm, ⟨24, _⟩ => ⟨S_, .f32⟩
  | .hbm, ⟨25, _⟩ => ⟨S128, .f32⟩
  | .hbm, ⟨26, _⟩ => ⟨S128, .f32⟩
  | .hbm, ⟨27, _⟩ => ⟨S1x128, .f32⟩
  | .hbm, ⟨28, _⟩ => ⟨S400000x128, .f32⟩
  | .hbm, ⟨29, _⟩ => ⟨S400000x128, .f32⟩
  | .hbm, ⟨30, _⟩ => ⟨S400000x128, .f32⟩
  | .hbm, ⟨31, _⟩ => ⟨S_, .f32⟩
  | .hbm, ⟨32, _⟩ => ⟨S128, .f32⟩
  | .hbm, ⟨33, _⟩ => ⟨S_, .f32⟩
  | .hbm, ⟨34, _⟩ => ⟨S128, .f32⟩
  | .hbm, ⟨35, _⟩ => ⟨S128, .f32⟩
  | .hbm, ⟨36, _⟩ => ⟨S1x128, .f32⟩
  | .hbm, ⟨37, _⟩ => ⟨S400000x128, .f32⟩
  | .hbm, ⟨38, _⟩ => ⟨S400000x128, .f32⟩
  | .hbm, ⟨39, _⟩ => ⟨S_, .f32⟩
  | .hbm, ⟨40, _⟩ => ⟨S128, .f32⟩
  | .hbm, ⟨41, _⟩ => ⟨S128, .f32⟩
  | .hbm, ⟨42, _⟩ => ⟨S128, .f32⟩
  | .hbm, ⟨43, _⟩ => ⟨S1x128, .f32⟩
  | .hbm, ⟨44, _⟩ => ⟨S400000x128, .f32⟩
  | .hbm, ⟨45, _⟩ => ⟨S400000x128, .f32⟩
  | .hbm, ⟨46, _⟩ => ⟨S1x128, .f32⟩
  | .hbm, ⟨47, _⟩ => ⟨S400000x128, .f32⟩
  | .hbm, ⟨48, _⟩ => ⟨S400000x128, .f32⟩
  | .hbm, ⟨49, _⟩ => ⟨S1x128, .f32⟩
  | .hbm, ⟨50, _⟩ => ⟨S400000x128, .f32⟩
  | .hbm, ⟨51, _⟩ => ⟨S400000x128, .f32⟩
  | .hbm, ⟨52, _⟩ => ⟨S_, .f32⟩
  | .hbm, ⟨53, _⟩ => ⟨S400000x128, .f32⟩
  | .hbm, ⟨54, _⟩ => ⟨S400000x128, .i1⟩
  | .hbm, ⟨55, _⟩ => ⟨S_, .f32⟩
  | .hbm, ⟨56, _⟩ => ⟨S400000x128, .f32⟩
  | .hbm, ⟨57, _⟩ => ⟨S400000x128, .f32⟩
  | .hbm, ⟨58, _⟩ => ⟨S400000x128, .f32⟩
  | .hbm, ⟨59, _⟩ => ⟨S600000x256, .f32⟩
  | .hbm, ⟨60, _⟩ => ⟨S1x256, .f32⟩
  | .hbm, ⟨61, _⟩ => ⟨S600000x256, .f32⟩
  | .hbm, ⟨62, _⟩ => ⟨S600000x256, .f32⟩
  | .hbm, ⟨63, _⟩ => ⟨S600000x128, .f32⟩
  | .hbm, ⟨64, _⟩ => ⟨S1x128, .f32⟩
  | .hbm, ⟨65, _⟩ => ⟨S600000x128, .f32⟩
  | .hbm, ⟨66, _⟩ => ⟨S600000x128, .f32⟩
  | .hbm, ⟨67, _⟩ => ⟨S_, .f32⟩
  | .hbm, ⟨68, _⟩ => ⟨S128, .f32⟩
  | .hbm, ⟨69, _⟩ => ⟨S_, .f32⟩
  | .hbm, ⟨70, _⟩ => ⟨S128, .f32⟩
  | .hbm, ⟨71, _⟩ => ⟨S128, .f32⟩
  | .hbm, ⟨72, _⟩ => ⟨S1x128, .f32⟩
  | .hbm, ⟨73, _⟩ => ⟨S600000x128, .f32⟩
  | .hbm, ⟨74, _⟩ => ⟨S600000x128, .f32⟩
  | .hbm, ⟨75, _⟩ => ⟨S600000x128, .f32⟩
  | .hbm, ⟨76, _⟩ => ⟨S_, .f32⟩
  | .hbm, ⟨77, _⟩ => ⟨S128, .f32⟩
  | .hbm, ⟨78, _⟩ => ⟨S_, .f32⟩
  | .hbm, ⟨79, _⟩ => ⟨S128, .f32⟩
  | .hbm, ⟨80, _⟩ => ⟨S128, .f32⟩
  | .hbm, ⟨81, _⟩ => ⟨S1x128, .f32⟩
  | .hbm, ⟨82, _⟩ => ⟨S600000x128, .f32⟩
  | .hbm, ⟨83, _⟩ => ⟨S600000x128, .f32⟩
  | .hbm, ⟨84, _⟩ => ⟨S_, .f32⟩
  | .hbm, ⟨85, _⟩ => ⟨S128, .f32⟩
  | .hbm, ⟨86, _⟩ => ⟨S128, .f32⟩
  | .hbm, ⟨87, _⟩ => ⟨S128, .f32⟩
  | .hbm, ⟨88, _⟩ => ⟨S1x128, .f32⟩
  | .hbm, ⟨89, _⟩ => ⟨S600000x128, .f32⟩
  | .hbm, ⟨90, _⟩ => ⟨S600000x128, .f32⟩
  | .hbm, ⟨91, _⟩ => ⟨S1x128, .f32⟩
  | .hbm, ⟨92, _⟩ => ⟨S600000x128, .f32⟩
  | .hbm, ⟨93, _⟩ => ⟨S600000x128, .f32⟩
  | .hbm, ⟨94, _⟩ => ⟨S1x128, .f32⟩
  | .hbm, ⟨95, _⟩ => ⟨S600000x128, .f32⟩
  | .hbm, ⟨96, _⟩ => ⟨S600000x128, .f32⟩
  | .hbm, ⟨97, _⟩ => ⟨S_, .f32⟩
  | .hbm, ⟨98, _⟩ => ⟨S600000x128, .f32⟩
  | .hbm, ⟨99, _⟩ => ⟨S600000x128, .i1⟩
  | .hbm, ⟨100, _⟩ => ⟨S_, .f32⟩
  | .hbm, ⟨101, _⟩ => ⟨S600000x128, .f32⟩
  | .hbm, ⟨102, _⟩ => ⟨S600000x128, .f32⟩
  | .hbm, ⟨103, _⟩ => ⟨S600000x128, .f32⟩
  | _, _ => ⟨S400000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst : Ref sig .tc := ⟨.hbm, 22, rfl⟩
abbrev main_v8 : Ref sig .tc := ⟨.hbm, 23, rfl⟩
abbrev main_cst_0 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_cst_1 : Ref sig .tc := ⟨.hbm, 31, rfl⟩
abbrev main_v15 : Ref sig .tc := ⟨.hbm, 32, rfl⟩
abbrev main_cst_2 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_cst_3 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_4 : Ref sig .tc := ⟨.hbm, 52, rfl⟩
abbrev main_v33 : Ref sig .tc := ⟨.hbm, 53, rfl⟩
abbrev main_v34 : Ref sig .tc := ⟨.hbm, 54, rfl⟩
abbrev main_cst_5 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_6 : Ref sig .tc := ⟨.hbm, 67, rfl⟩
abbrev main_v46 : Ref sig .tc := ⟨.hbm, 68, rfl⟩
abbrev main_cst_7 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_cst_8 : Ref sig .tc := ⟨.hbm, 76, rfl⟩
abbrev main_v53 : Ref sig .tc := ⟨.hbm, 77, rfl⟩
abbrev main_cst_9 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_10 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_cst_11 : Ref sig .tc := ⟨.hbm, 97, rfl⟩
abbrev main_v71 : Ref sig .tc := ⟨.hbm, 98, rfl⟩
abbrev main_v72 : Ref sig .tc := ⟨.hbm, 99, rfl⟩
abbrev main_cst_12 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩

abbrev nD : Nat := 1
abbrev τ : Topo := Topo.v7x

variable {F : FTy → Type} [FloatOps F]

class Facts₀ : Prop where
  bcast_S256_S1x256_1 : S256.BroadcastsInDim S1x256 (![1] : Fin 1 → Fin S1x256.rank)
  bcast_S1x256_S400000x256_0_1 : S1x256.BroadcastsInDim S400000x256 (![0, 1] : Fin 2 → Fin S400000x256.rank)
  bcast_S128_S1x128_1 : S128.BroadcastsInDim S1x128 (![1] : Fin 1 → Fin S1x128.rank)
  bcast_S1x128_S400000x128_0_1 : S1x128.BroadcastsInDim S400000x128 (![0, 1] : Fin 2 → Fin S400000x128.rank)
  reducesTo_S400000x128_S128_d0 : S400000x128.ReducesTo [0] S128
  h_S_ : 0 < S_.numel
  bcast_S_S128 : S_.BroadcastsInDim S128 (![] : Fin 0 → Fin S128.rank)
  bcast_S_S400000x128 : S_.BroadcastsInDim S400000x128 (![] : Fin 0 → Fin S400000x128.rank)
  bcast_S1x256_S600000x256_0_1 : S1x256.BroadcastsInDim S600000x256 (![0, 1] : Fin 2 → Fin S600000x256.rank)
  bcast_S1x128_S600000x128_0_1 : S1x128.BroadcastsInDim S600000x128 (![0, 1] : Fin 2 → Fin S600000x128.rank)
  reducesTo_S600000x128_S128_d0 : S600000x128.ReducesTo [0] S128
  bcast_S_S600000x128 : S_.BroadcastsInDim S600000x128 (![] : Fin 0 → Fin S600000x128.rank)
  dot_S400000x64_S64x256_S400000x256_1_0_0_1_n_n_wf : DotDims.WF S400000x64 S64x256 S400000x256 [1] [0] [0] [1] [] []
  dot_S400000x256_S256x128_S400000x128_1_0_0_1_n_n_wf : DotDims.WF S400000x256 S256x128 S400000x128 [1] [0] [0] [1] [] []
  dot_S600000x128_S128x256_S600000x256_1_0_0_1_n_n_wf : DotDims.WF S600000x128 S128x256 S600000x256 [1] [0] [0] [1] [] []
  dot_S600000x256_S256x128_S600000x128_1_0_0_1_n_n_wf : DotDims.WF S600000x256 S256x128 S600000x128 [1] [0] [0] [1] [] []

variable [Facts₀]

def dot_S400000x64_S64x256_S400000x256_1_0_0_1_n_n : DotDims S400000x64 S64x256 S400000x256 where
  lhsContracting := [1]
  rhsContracting := [0]
  lhsNonContracting := [0]
  rhsNonContracting := [1]
  lhsBatch := []
  rhsBatch := []
  wf := dot_S400000x64_S64x256_S400000x256_1_0_0_1_n_n_wf
def dot_S400000x256_S256x128_S400000x128_1_0_0_1_n_n : DotDims S400000x256 S256x128 S400000x128 where
  lhsContracting := [1]
  rhsContracting := [0]
  lhsNonContracting := [0]
  rhsNonContracting := [1]
  lhsBatch := []
  rhsBatch := []
  wf := dot_S400000x256_S256x128_S400000x128_1_0_0_1_n_n_wf
def dot_S600000x128_S128x256_S600000x256_1_0_0_1_n_n : DotDims S600000x128 S128x256 S600000x256 where
  lhsContracting := [1]
  rhsContracting := [0]
  lhsNonContracting := [0]
  rhsNonContracting := [1]
  lhsBatch := []
  rhsBatch := []
  wf := dot_S600000x128_S128x256_S600000x256_1_0_0_1_n_n_wf
def dot_S600000x256_S256x128_S600000x128_1_0_0_1_n_n : DotDims S600000x256 S256x128 S600000x128 where
  lhsContracting := [1]
  rhsContracting := [0]
  lhsNonContracting := [0]
  rhsNonContracting := [1]
  lhsBatch := []
  rhsBatch := []
  wf := dot_S600000x256_S256x128_S600000x128_1_0_0_1_n_n_wf

class Facts : Prop extends Facts₀ where

variable [Facts]
-- ==== Proof.Spec.lean ====
/-
  The mathematics both programs compute, per node type, written once over plain coordinates.

  For a batch of `N` rows: two affine layers give `h r j = (∑ₖ (∑_d x r d · W₁ d k + b₁ k) · W₂ k j) + b₂ j`; the batch
  statistics of column `j` are the mean `(∑ᵣ h r j) / n` and a variance; every entry is then normalized, scaled,
  shifted and passed through a leaky rectifier. The kernel takes the variance as `(∑ᵣ h²) / n − mean²`, the
  reference as `(∑ᵣ (h − mean)²) / n`; everything else is the same expression on both sides. `n` is the float
  constant the programs divide by, kept as a parameter: only the variance law needs to know that it is the row count.
-/
import Idealize.ShloMosaic.PureOps.Ideal
import Idealize.ShloMosaic.Lib.ValueIdx

noncomputable section

namespace Cert.Spec

open Idealize.ShloMosaic

/-- The two affine layers at row `r`, output column `j`. -/
def lin2 {N D : ℕ} (x : Fin N → Fin D → EReal) (W1 : Fin D → Fin 256 → EReal) (b1 : Fin 256 → EReal)
    (W2 : Fin 256 → Fin 128 → EReal) (b2 : Fin 128 → EReal) (r : Fin N) (j : Fin 128) : EReal :=
  (∑ k : Fin 256, ((∑ d : Fin D, x r d * W1 d k) + b1 k) * W2 k j) + b2 j

/-- The variance's stabilizer, the rectifier's slope and the zero it compares against: the programs' shared literals. -/
def eps : EReal := Ideal.ofBits .f32 0x3727C5AC#32
def slope : EReal := Ideal.ofBits .f32 0x3C23D70A#32
def zero32 : EReal := Ideal.ofBits .f32 0x00000000#32

/-- One entry normalized by its column's mean `μ` and variance `v`, scaled by `g`, shifted by `b`, then the leaky
    rectifier: the value itself where it is at least zero, `slope` times it elsewhere. -/
def act (hv μ v g b : EReal) : EReal :=
  Scalar.select (Ideal.cmp .oge (((hv - μ) * Ideal.rsqrt (v + eps)) * g + b) zero32)
    (((hv - μ) * Ideal.rsqrt (v + eps)) * g + b) (slope * (((hv - μ) * Ideal.rsqrt (v + eps)) * g + b))

/-- Column `j`'s sum and sum of squares over the batch. -/
def colSum {N : ℕ} (h : Fin N → Fin 128 → EReal) (j : Fin 128) : EReal := ∑ r : Fin N, h r j
def colSumSq {N : ℕ} (h : Fin N → Fin 128 → EReal) (j : Fin 128) : EReal := ∑ r : Fin N, h r j * h r j

/-- Column `j`'s mean: its sum divided by the programs' constant `n`. -/
def mean {N : ℕ} (n : EReal) (h : Fin N → Fin 128 → EReal) (j : Fin 128) : EReal := Ideal.div (colSum h j) n

/-- The kernel's variance: the mean of the squares less the square of the mean. -/
def varK {N : ℕ} (n : EReal) (h : Fin N → Fin 128 → EReal) (j : Fin 128) : EReal :=
  Ideal.div (colSumSq h j) n - mean n h j * mean n h j

/-- The reference's variance: the mean of the squared deviations from the mean. -/
def varR {N : ℕ} (n : EReal) (h : Fin N → Fin 128 → EReal) (j : Fin 128) : EReal :=
  Ideal.div (∑ r : Fin N, (h r j - mean n h j) * (h r j - mean n h j)) n

/-- The kernel's result at row `r`, column `j`. -/
def outK {N : ℕ} (n : EReal) (h : Fin N → Fin 128 → EReal) (g b : Fin 128 → EReal) (r : Fin N) (j : Fin 128) : EReal :=
  act (h r j) (mean n h j) (varK n h j) (g j) (b j)

/-- The reference's result at row `r`, column `j`. -/
def outR {N : ℕ} (n : EReal) (h : Fin N → Fin 128 → EReal) (g b : Fin 128 → EReal) (r : Fin N) (j : Fin 128) : EReal :=
  act (h r j) (mean n h j) (varR n h j) (g j) (b j)

/-- The batch sizes as the programs spell them: `400000.0` and `600000.0`. -/
def nUser : EReal := Ideal.ofBits .f32 0x48C35000#32
def nItem : EReal := Ideal.ofBits .f32 0x49127C00#32

/-- An extended real that is a real number. -/
def IsReal (x : EReal) : Prop := ∃ r : ℝ, x = (r : EReal)

end Cert.Spec

end
-- ==== Proof.Algebra.lean ====
/-
  The algebra behind the two programs' agreement, over the extended reals.

  Sums, products and finite sums of real numbers are real numbers, so the two affine layers of real data give real
  entries. The float patterns the programs spell for zero and for the two batch sizes denote `0`, `400000` and
  `600000`. And the law that joins the two variances: for real entries `a₁ … a_N` and the divisor `N`,
  `(∑ aᵣ²) / N − ((∑ aᵣ) / N)²` equals `(∑ (aᵣ − (∑ aᵣ) / N)²) / N`; hence the two results agree entry by entry.
-/
import proofs.«174799_j19353122636427_1_alg».proof.Proof.Spec

noncomputable section

namespace Cert.Spec

open Idealize.ShloMosaic

/-- A real number, read in the extended reals, is a real number. -/
theorem IsReal.coe (r : ℝ) : IsReal (r : EReal) := ⟨r, rfl⟩

/-- The sum of two real numbers is a real number. -/
theorem IsReal.add {x y : EReal} (hx : IsReal x) (hy : IsReal y) : IsReal (x + y) := by
  obtain ⟨a, rfl⟩ := hx
  obtain ⟨b, rfl⟩ := hy
  exact ⟨a + b, (EReal.coe_add a b).symm⟩

/-- The product of two real numbers is a real number. -/
theorem IsReal.mul {x y : EReal} (hx : IsReal x) (hy : IsReal y) : IsReal (x * y) := by
  obtain ⟨a, rfl⟩ := hx
  obtain ⟨b, rfl⟩ := hy
  exact ⟨a * b, (EReal.coe_mul a b).symm⟩

/-- A finite sum of real numbers is a real number. -/
theorem IsReal.sum {ι : Type*} (s : Finset ι) (f : ι → EReal) (h : ∀ i ∈ s, IsReal (f i)) : IsReal (∑ i ∈ s, f i) := by
  exact Finset.sum_induction f IsReal (fun _ _ => IsReal.add) ⟨0, EReal.coe_zero.symm⟩ h

/-- The two affine layers of real inputs give a real number. -/
theorem lin2_isReal {N D : ℕ} (x : Fin N → Fin D → EReal) (W1 : Fin D → Fin 256 → EReal) (b1 : Fin 256 → EReal)
    (W2 : Fin 256 → Fin 128 → EReal) (b2 : Fin 128 → EReal) (hx : ∀ r d, IsReal (x r d)) (hW1 : ∀ d k, IsReal (W1 d k))
    (hb1 : ∀ k, IsReal (b1 k)) (hW2 : ∀ k j, IsReal (W2 k j)) (hb2 : ∀ j, IsReal (b2 j)) (r : Fin N) (j : Fin 128) :
    IsReal (lin2 x W1 b1 W2 b2 r j) := by
  unfold lin2
  exact IsReal.add (IsReal.sum _ _ (fun k _ => IsReal.mul (IsReal.add (IsReal.sum _ _ (fun d _ =>
    IsReal.mul (hx r d) (hW1 d k))) (hb1 k)) (hW2 k j))) (hb2 j)

/-- The zero pattern denotes zero. -/
theorem zero32_eq : zero32 = 0 := by
  unfold zero32
  simp [Ideal.ofBits, Ideal.ieee]

/-- The batch sizes the programs divide by are the row counts. -/
theorem nUser_eq : nUser = ((400000 : ℝ) : EReal) := by
  unfold nUser
  simp [Ideal.ofBits, Ideal.ieee, -EReal.coe_mul]; norm_num
/-- The second batch size: its pattern has exponent field `146` and fraction `0x127C00`, so it denotes
    `2¹⁹ · (1 + 0x127C00 / 2²³) = 600000`. -/
theorem nItem_eq : nItem = ((600000 : ℝ) : EReal) := by
  unfold nItem
  simp [Ideal.ofBits, Ideal.ieee, -EReal.coe_mul]; norm_num

/-- A finite sum of real numbers, read in the extended reals, is the real sum. -/
private theorem coe_sum {ι : Type*} (s : Finset ι) (a : ι → ℝ) :
    ∑ i ∈ s, ((a i : ℝ) : EReal) = ((∑ i ∈ s, a i : ℝ) : EReal) := by
  classical
  induction s using Finset.induction_on with
  | empty => simp
  | insert i s hi ih => rw [Finset.sum_insert hi, Finset.sum_insert hi, ih, EReal.coe_add]

/-- The variance identity over the reals, with `N` the number of terms and division written as the product with
    `1 / N`: `(∑ aᵣ²) / N − ((∑ aᵣ) / N)² = (∑ (aᵣ − (∑ aᵣ) / N)²) / N`. Writing `S = ∑ aᵣ` and `m = S / N`, the
    right-hand sum expands to `∑ aᵣ² − 2 m S + N m²`, and `N m = S`. -/
private theorem real_var_identity {N : ℕ} (hN : 0 < N) (a : Fin N → ℝ) :
    (∑ r, a r * a r) * (1 / (N : ℝ)) - ((∑ r, a r) * (1 / (N : ℝ))) * ((∑ r, a r) * (1 / (N : ℝ)))
      = (∑ r, (a r - (∑ r, a r) * (1 / (N : ℝ))) * (a r - (∑ r, a r) * (1 / (N : ℝ)))) * (1 / (N : ℝ)) := by
  have hN' : (N : ℝ) ≠ 0 := by exact_mod_cast hN.ne'
  generalize hS : ∑ r, a r = S
  generalize hm : S * (1 / (N : ℝ)) = m
  have h1 : ∑ r, (a r - m) * (a r - m) = ∑ r, a r * a r - 2 * m * S + N * (m * m) := by
    have e : ∀ r, (a r - m) * (a r - m) = a r * a r - 2 * m * a r + m * m := fun r => by ring
    simp only [e]
    rw [Finset.sum_add_distrib, Finset.sum_sub_distrib, ← Finset.mul_sum, hS, Finset.sum_const, Finset.card_univ,
      Fintype.card_fin, nsmul_eq_mul]
  rw [h1, ← hm]
  field_simp
  ring

/-- THE LAW: for real entries and `n` the row count, the mean of the squares less the square of the mean is the mean
    of the squared deviations. -/
theorem varK_eq_varR {N : ℕ} (n : EReal) (hn : n = ((N : ℝ) : EReal)) (hN : 0 < N) (h : Fin N → Fin 128 → EReal)
    (hh : ∀ r j, IsReal (h r j)) (j : Fin 128) : varK n h j = varR n h j := by
  have hN' : (N : ℝ) ≠ 0 := by exact_mod_cast hN.ne'
  choose a ha using fun r => hh r j
  subst hn
  unfold varK varR mean colSum colSumSq
  simp only [Ideal.div_coe hN', ha]
  have e1 : (∑ r : Fin N, ((a r : ℝ) : EReal)) = ((∑ r, a r : ℝ) : EReal) := coe_sum _ _
  have e2 : (∑ r : Fin N, ((a r : ℝ) : EReal) * ((a r : ℝ) : EReal)) = ((∑ r, a r * a r : ℝ) : EReal) := by
    simp only [← EReal.coe_mul]; exact coe_sum _ _
  rw [e1, e2]
  simp only [← EReal.coe_mul, ← EReal.coe_sub]
  rw [coe_sum, ← EReal.coe_mul]
  exact congrArg _ (real_var_identity hN a)

/-- With the two variances equal, the two programs' results agree at every row and column. -/
theorem outK_eq_outR {N : ℕ} (n : EReal) (hn : n = ((N : ℝ) : EReal)) (hN : 0 < N) (h : Fin N → Fin 128 → EReal)
    (hh : ∀ r j, IsReal (h r j)) (g b : Fin 128 → EReal) (r : Fin N) (j : Fin 128) :
    outK n h g b r j = outR n h g b r j := by
  unfold outK outR
  rw [varK_eq_varR n hn hN h hh j]

end Cert.Spec

end
-- ==== Proof.Finite.lean ====
/-
  Finiteness of the inputs, read back from the precondition.

  The precondition's predicate tests, for each of the fourteen float arguments, that every entry `x` satisfies
  `|x| < +∞` (the absolute value being `max x (-x)` on the extended reals), takes the conjunction of these tests over
  all entries of the argument, and then the conjunction of the fourteen results. This module proves the converse
  reading: if that predicate is one, every entry of every argument is a real number, that is, neither `⊤` nor `⊥`.
  The steps: a conjunction of bits that is one has both conjuncts one; a conjunction over all entries that is one has
  every entry's bit one; the bit of `|x| < +∞` being one means `max x (-x) < ⊤`; and an extended real with
  `max x (-x) < ⊤` is a real number, since `⊤` fails the bound itself and `⊥` fails it through `-⊥ = ⊤`.
-/
import proofs.«174799_j19353122636427_1_alg».proof.Pre_finite_inputs
import proofs.«174799_j19353122636427_1_alg».proof.Proof.Spec
import Idealize.ShloMosaic.Lib.ReduceAll
import Idealize.ShloMosaic.Lib.ValueIdx

noncomputable section

namespace Cert.Pre_finite_inputs.Finite

open Idealize.ShloMosaic Cert.Pre_finite_inputs Cert.Spec

/-- Every entry of every argument is a real number, when the precondition's predicate is all ones. -/
structure AllReal (a0 : FVec Ideal S400000x64 .f32) (a1 : FVec Ideal S600000x128 .f32) (a2 : FVec Ideal S64x256 .f32)
    (a3 : FVec Ideal S256 .f32) (a4 : FVec Ideal S128x256 .f32) (a5 : FVec Ideal S256 .f32) (a6 : FVec Ideal S256x128 .f32)
    (a7 : FVec Ideal S128 .f32) (a8 : FVec Ideal S256x128 .f32) (a9 : FVec Ideal S128 .f32) (a10 : FVec Ideal S128 .f32)
    (a11 : FVec Ideal S128 .f32) (a12 : FVec Ideal S128 .f32) (a13 : FVec Ideal S128 .f32) : Prop where
  h0 : ∀ i, IsReal (a0 i)
  h1 : ∀ i, IsReal (a1 i)
  h2 : ∀ i, IsReal (a2 i)
  h3 : ∀ i, IsReal (a3 i)
  h4 : ∀ i, IsReal (a4 i)
  h5 : ∀ i, IsReal (a5 i)
  h6 : ∀ i, IsReal (a6 i)
  h7 : ∀ i, IsReal (a7 i)
  h8 : ∀ i, IsReal (a8 i)
  h9 : ∀ i, IsReal (a9 i)
  h10 : ∀ i, IsReal (a10 i)
  h11 : ∀ i, IsReal (a11 i)
  h12 : ∀ i, IsReal (a12 i)
  h13 : ∀ i, IsReal (a13 i)

/-- The 32-bit word `0x7F800000`, the format's positive infinity, denotes the extended real `⊤`. -/
private theorem ofBits_inf : Ideal.ofBits .f32 0x7F800000#32 = (⊤ : EReal) := by
  simp [Ideal.ofBits, Ideal.ieee]

/-- An extended real whose absolute value `max x (-x)` lies strictly below `⊤` is a real number: `⊤` is not below
    itself, and for `⊥` the negation `-⊥ = ⊤` is not below `⊤`. -/
private theorem isReal_of_abs_lt_top (x : EReal) (h : max x (-x) < ⊤) : IsReal x := by
  induction x using EReal.rec with
  | bot => simp at h
  | top => simp at h
  | coe r => exact ⟨r, rfl⟩

/-- The rank-0 shape has exactly one index. -/
private instance subsingleton_scalarIdx : Subsingleton S_.Idx := ⟨fun a b => funext fun d => d.elim0⟩

/-- One argument's test read back, for an array `x` of any shape: if the conjunction, over all entries, of the bits of
    `|x i| < +∞` (the bound being the constant `+∞` broadcast to the array's shape) is one, then every entry `x i` is a
    real number. -/
private theorem isReal_of_all {s : Shape} {axes : List (Fin s.rank)} (x : FVec Ideal s .f32)
    (hb : S_.BroadcastsInDim s (![] : Fin 0 → Fin s.rank)) (hr : s.ReducesTo axes S_) (hu : 0 < S_.numel)
    (e : Host.reduce IntOp.andi
        (cmpf .olt (Host.absf x) (broadcastInDim s ![] hb (constant (F := Ideal) S_ .f32 0x7F800000#32)))
        (constantI S_ 1 1#1) hr hu ValueIdx.ix0 = 1#1) (i : s.Idx) : IsReal (x i) := by
  -- every entry's bit is one
  have h1 := Host.reduce_andi_all _ _ hr hu ValueIdx.ix0 e i
  -- at the entry `i` that bit is the comparison `max (x i) (-(x i)) < +∞` on the extended reals
  have h2 : Ideal.cmp .olt (max (x i) (-(x i))) (Ideal.ofBits .f32 0x7F800000#32) = 1#1 := h1
  rw [ofBits_inf] at h2
  unfold Ideal.cmp at h2
  refine isReal_of_abs_lt_top (x i) ?_
  by_contra hn
  simp [hn] at h2

/-- If the precondition's predicate is one, every entry of each of the fourteen arguments is a real number: the
    predicate is a thirteen-fold conjunction of the fourteen per-argument tests, so each test is one, and each test
    read back gives the reality of every entry of its argument. -/
theorem allReal_of_fn [Cert.Pre_finite_inputs.Facts] (a0 : FVec Ideal S400000x64 .f32) (a1 : FVec Ideal S600000x128 .f32)
    (a2 : FVec Ideal S64x256 .f32) (a3 : FVec Ideal S256 .f32) (a4 : FVec Ideal S128x256 .f32) (a5 : FVec Ideal S256 .f32)
    (a6 : FVec Ideal S256x128 .f32) (a7 : FVec Ideal S128 .f32) (a8 : FVec Ideal S256x128 .f32) (a9 : FVec Ideal S128 .f32)
    (a10 : FVec Ideal S128 .f32) (a11 : FVec Ideal S128 .f32) (a12 : FVec Ideal S128 .f32) (a13 : FVec Ideal S128 .f32)
    (h : Cert.Pre_finite_inputs.fn (F := Ideal) a0 a1 a2 a3 a4 a5 a6 a7 a8 a9 a10 a11 a12 a13 = fun _ => 1#1) :
    AllReal a0 a1 a2 a3 a4 a5 a6 a7 a8 a9 a10 a11 a12 a13 := by
  -- the predicate at its one index
  have h0 := congrFun h ValueIdx.ix0
  unfold fn fn_part1 fn_part2 fn_part3 fn_part4 at h0
  dsimp only at h0
  -- the conjunction is nested to the left: peel the last conjunct thirteen times
  obtain ⟨h0, e13⟩ := IntOp.andi_eq_one.1 h0
  obtain ⟨h0, e12⟩ := IntOp.andi_eq_one.1 h0
  obtain ⟨h0, e11⟩ := IntOp.andi_eq_one.1 h0
  obtain ⟨h0, e10⟩ := IntOp.andi_eq_one.1 h0
  obtain ⟨h0, e9⟩ := IntOp.andi_eq_one.1 h0
  obtain ⟨h0, e8⟩ := IntOp.andi_eq_one.1 h0
  obtain ⟨h0, e7⟩ := IntOp.andi_eq_one.1 h0
  obtain ⟨h0, e6⟩ := IntOp.andi_eq_one.1 h0
  obtain ⟨h0, e5⟩ := IntOp.andi_eq_one.1 h0
  obtain ⟨h0, e4⟩ := IntOp.andi_eq_one.1 h0
  obtain ⟨h0, e3⟩ := IntOp.andi_eq_one.1 h0
  obtain ⟨h0, e2⟩ := IntOp.andi_eq_one.1 h0
  obtain ⟨e0, e1⟩ := IntOp.andi_eq_one.1 h0
  exact
    { h0 := isReal_of_all a0 _ _ _ e0
      h1 := isReal_of_all a1 _ _ _ e1
      h2 := isReal_of_all a2 _ _ _ e2
      h3 := isReal_of_all a3 _ _ _ e3
      h4 := isReal_of_all a4 _ _ _ e4
      h5 := isReal_of_all a5 _ _ _ e5
      h6 := isReal_of_all a6 _ _ _ e6
      h7 := isReal_of_all a7 _ _ _ e7
      h8 := isReal_of_all a8 _ _ _ e8
      h9 := isReal_of_all a9 _ _ _ e9
      h10 := isReal_of_all a10 _ _ _ e10
      h11 := isReal_of_all a11 _ _ _ e11
      h12 := isReal_of_all a12 _ _ _ e12
      h13 := isReal_of_all a13 _ _ _ e13 }

end Cert.Pre_finite_inputs.Finite

end
-- ==== Proof.RefValue.lean ====
/-
  The reference program's two results, entry by entry, as the specification's function of the program's arguments.

  For each node type (the user type: 400000 rows of width 64; the item type: 600000 rows of width 128) the reference
  computes `h = (x · W₁ + b₁) · W₂ + b₂`, the column mean `μ j = (∑ᵣ h r j) / n`, the column variance
  `v j = (∑ᵣ (h r j − μ j)²) / n`, and the entry `y r j = ((h r j − μ j) · rsqrt (v j + eps)) · γ j + β j` passed through
  the leaky rectifier (`y` where `y ≥ 0`, `slope · y` elsewhere). Read at row `r` and column `j`, every operation of the
  chain is its operands read at the coordinates `(r, k)`, `(k, j)`, `(j)`; the two sums that start from the zero word start
  from `0`; the remaining float words are the specification's `n`, `eps`, `slope` and zero, left as they are written.
  Hence `h = lin2`, the mean is `mean n h`, the variance is `varR n h`, and the result is `outR n h γ β`.
-/
import proofs.«174799_j19353122636427_1_alg».proof.Defs
import proofs.«174799_j19353122636427_1_alg».proof.Proof.Gen.ReferenceIdeal.Run
import proofs.«174799_j19353122636427_1_alg».proof.Proof.Gen.ReferenceIdeal.Read
import proofs.«174799_j19353122636427_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.ReferenceIdeal.RefValue

open Cert.ReferenceIdeal Cert.ReferenceIdeal.Gen Cert.ReferenceIdeal.Read Cert.Spec
open Idealize.ShloMosaic Idealize.ShloMosaic.TcCoe Idealize.SL.Sem Idealize.ShloMosaic.ValueIdx

/-! ## The user type -/

/-- The user type's two affine layers at row `r`, column `j`: the specification's `lin2` of the arguments. -/
private theorem user_h (x0 : (⟨S400000x64, .f32⟩ : BufTy).Contents (Elt Ideal)) (x2 : (⟨S64x256, .f32⟩ : BufTy).Contents (Elt Ideal))
    (x3 : (⟨S256, .f32⟩ : BufTy).Contents (Elt Ideal)) (x6 : (⟨S256x128, .f32⟩ : BufTy).Contents (Elt Ideal))
    (x7 : (⟨S128, .f32⟩ : BufTy).Contents (Elt Ideal)) (r : Fin 400000) (j : Fin 128) :
    val_main_v7 (F := Ideal) x0 x2 x3 x6 x7 (ix2 r j) =
      lin2 (fun r d => x0 (ix2 r d)) (fun d k => x2 (ix2 d k)) (fun k => x3 (ix1 k)) (fun k j => x6 (ix2 k j))
        (fun j => x7 (ix1 j)) r j := by
  have e4l : ∀ k : Fin 256, lidx_main_v4 (ix2 r j) k = ix2 r k := fun k =>
    funext fun a => Fin.ext (by match a with | ⟨0, _⟩ => rfl | ⟨1, _⟩ => rfl)
  have e4r : ∀ k : Fin 256, ridx_main_v4 (ix2 r j) k = ix2 k j := fun k =>
    funext fun a => Fin.ext (by match a with | ⟨0, _⟩ => rfl | ⟨1, _⟩ => rfl)
  have e0l : ∀ (k : Fin 256) (d : Fin 64), lidx_main_v0 (ix2 r k) d = ix2 r d := fun k d =>
    funext fun a => Fin.ext (by match a with | ⟨0, _⟩ => rfl | ⟨1, _⟩ => rfl)
  have e0r : ∀ (k : Fin 256) (d : Fin 64), ridx_main_v0 (ix2 r k) d = ix2 d k := fun k d =>
    funext fun a => Fin.ext (by match a with | ⟨0, _⟩ => rfl | ⟨1, _⟩ => rfl)
  have e1 : ∀ k : Fin 256, idx_main_v1 (idx_main_v2 (ix2 r k)) = ix1 k := fun k =>
    funext fun a => Fin.ext (by match a with | ⟨0, _⟩ => rfl)
  have e5 : idx_main_v5 (idx_main_v6 (ix2 r j)) = ix1 j :=
    funext fun a => Fin.ext (by match a with | ⟨0, _⟩ => rfl)
  rw [val_main_v7_apply, val_main_v4_apply, val_main_v6_apply, val_main_v5_apply, e5]
  unfold lin2
  rw [Ideal.addf_def]
  refine congrArg (· + x7 (ix1 j)) (Finset.sum_congr rfl fun k _ => ?_)
  rw [e4l k, e4r k, val_main_v3_apply, val_main_v0_apply, val_main_v2_apply, val_main_v1_apply, e1 k, Ideal.addf_def]
  refine congrArg (fun t => (t + x3 (ix1 k)) * x6 (ix2 k j)) (Finset.sum_congr rfl fun d _ => ?_)
  rw [e0l k d, e0r k d]

/-- The user type's column mean: the column sum of the two affine layers divided by the programs' constant. -/
private theorem user_mean (x0 : (⟨S400000x64, .f32⟩ : BufTy).Contents (Elt Ideal)) (x2 : (⟨S64x256, .f32⟩ : BufTy).Contents (Elt Ideal))
    (x3 : (⟨S256, .f32⟩ : BufTy).Contents (Elt Ideal)) (x6 : (⟨S256x128, .f32⟩ : BufTy).Contents (Elt Ideal))
    (x7 : (⟨S128, .f32⟩ : BufTy).Contents (Elt Ideal)) (j : Fin 128) :
    val_main_v10 (F := Ideal) x0 x2 x3 x6 x7 (ix1 j) =
      mean nUser (lin2 (fun r d => x0 (ix2 r d)) (fun d k => x2 (ix2 d k)) (fun k => x3 (ix1 k)) (fun k j => x6 (ix2 k j))
        (fun j => x7 (ix1 j))) j := by
  have e8 : ∀ k : Fin 400000, idx_main_v8 (ix1 j) k = ix2 k j := fun k =>
    funext fun a => Fin.ext (by match a with | ⟨0, _⟩ => rfl | ⟨1, _⟩ => rfl)
  rw [val_main_v10_apply, val_main_v8_apply, val_main_v9_apply, val_main_cst_0_apply, val_main_cst_apply,
    Ideal.hostDivf_def, Ideal.ofBits_def, Ideal.ofBits_def, Ideal.ofBits_zero_f32, zero_add]
  unfold mean colSum nUser
  refine congrArg (fun t => Ideal.div t (Ideal.ofBits .f32 0x48C35000#32)) (Finset.sum_congr rfl fun k _ => ?_)
  rw [e8 k, user_h]

/-- The user type's column variance: the mean of the squared deviations from the column mean. -/
private theorem user_var (x0 : (⟨S400000x64, .f32⟩ : BufTy).Contents (Elt Ideal)) (x2 : (⟨S64x256, .f32⟩ : BufTy).Contents (Elt Ideal))
    (x3 : (⟨S256, .f32⟩ : BufTy).Contents (Elt Ideal)) (x6 : (⟨S256x128, .f32⟩ : BufTy).Contents (Elt Ideal))
    (x7 : (⟨S128, .f32⟩ : BufTy).Contents (Elt Ideal)) (j : Fin 128) :
    val_main_v17 (F := Ideal) x0 x2 x3 x6 x7 (ix1 j) =
      varR nUser (lin2 (fun r d => x0 (ix2 r d)) (fun d k => x2 (ix2 d k)) (fun k => x3 (ix1 k)) (fun k j => x6 (ix2 k j))
        (fun j => x7 (ix1 j))) j := by
  have e15 : ∀ k : Fin 400000, idx_main_v15 (ix1 j) k = ix2 k j := fun k =>
    funext fun a => Fin.ext (by match a with | ⟨0, _⟩ => rfl | ⟨1, _⟩ => rfl)
  have e11 : ∀ k : Fin 400000, idx_main_v11 (idx_main_v12 (ix2 k j)) = ix1 j := fun k =>
    funext fun a => Fin.ext (by match a with | ⟨0, _⟩ => rfl)
  rw [val_main_v17_apply, val_main_v15_apply, val_main_v16_apply, val_main_cst_2_apply, val_main_cst_1_apply,
    Ideal.hostDivf_def, Ideal.ofBits_def, Ideal.ofBits_def, Ideal.ofBits_zero_f32, zero_add]
  unfold varR
  refine congrArg (fun t => Ideal.div t nUser) (Finset.sum_congr rfl fun k _ => ?_)
  rw [e15 k, val_main_v14_apply, val_main_v13_apply, val_main_v12_apply, val_main_v11_apply, e11 k, user_h, user_mean,
    Ideal.mulf_def, Ideal.subf_def]

/-- The user type's normalized, scaled and shifted entry at row `r`, column `j`. -/
private theorem user_y (x0 : (⟨S400000x64, .f32⟩ : BufTy).Contents (Elt Ideal)) (x2 : (⟨S64x256, .f32⟩ : BufTy).Contents (Elt Ideal))
    (x3 : (⟨S256, .f32⟩ : BufTy).Contents (Elt Ideal)) (x6 : (⟨S256x128, .f32⟩ : BufTy).Contents (Elt Ideal))
    (x7 x10 x11 : (⟨S128, .f32⟩ : BufTy).Contents (Elt Ideal)) (r : Fin 400000) (j : Fin 128) :
    val_main_v32 (F := Ideal) x0 x2 x3 x6 x7 x10 x11 (ix2 r j) =
      ((lin2 (fun r d => x0 (ix2 r d)) (fun d k => x2 (ix2 d k)) (fun k => x3 (ix1 k)) (fun k j => x6 (ix2 k j))
        (fun j => x7 (ix1 j)) r j
          - mean nUser (lin2 (fun r d => x0 (ix2 r d)) (fun d k => x2 (ix2 d k)) (fun k => x3 (ix1 k)) (fun k j => x6 (ix2 k j))
        (fun j => x7 (ix1 j))) j)
        * Ideal.rsqrt (varR nUser (lin2 (fun r d => x0 (ix2 r d)) (fun d k => x2 (ix2 d k)) (fun k => x3 (ix1 k)) (fun k j => x6 (ix2 k j))
        (fun j => x7 (ix1 j))) j + eps)) * x10 (ix1 j) + x11 (ix1 j) := by
  have e19 : idx_main_v18 (idx_main_v19 (ix2 r j)) = ix1 j :=
    funext fun a => Fin.ext (by match a with | ⟨0, _⟩ => rfl)
  have e25 : idx_main_v24 (idx_main_v25 (ix2 r j)) = ix1 j :=
    funext fun a => Fin.ext (by match a with | ⟨0, _⟩ => rfl)
  have e28 : idx_main_v27 (idx_main_v28 (ix2 r j)) = ix1 j :=
    funext fun a => Fin.ext (by match a with | ⟨0, _⟩ => rfl)
  have e31 : idx_main_v30 (idx_main_v31 (ix2 r j)) = ix1 j :=
    funext fun a => Fin.ext (by match a with | ⟨0, _⟩ => rfl)
  rw [val_main_v32_apply, val_main_v29_apply, val_main_v26_apply, val_main_v20_apply, val_main_v19_apply, val_main_v18_apply, e19,
    val_main_v25_apply, val_main_v24_apply, e25, val_main_v23_apply, val_main_v22_apply, val_main_v21_apply, val_main_cst_3_apply,
    val_main_v28_apply, val_main_v27_apply, e28, val_main_v31_apply, val_main_v30_apply, e31,
    user_h, user_mean, user_var,
    Ideal.addf_def, Ideal.mulf_def, Ideal.mulf_def, Ideal.subf_def, Ideal.hostUnary_rsqrt_def, Ideal.addf_def, Ideal.ofBits_def]
  rfl

/-- The reference's first result (the user type), entry by entry: the specification's `outR` of the two affine layers of
    its arguments. -/
theorem user_value (x0 : (⟨S400000x64, .f32⟩ : BufTy).Contents (Elt Ideal)) (x2 : (⟨S64x256, .f32⟩ : BufTy).Contents (Elt Ideal))
    (x3 : (⟨S256, .f32⟩ : BufTy).Contents (Elt Ideal)) (x6 : (⟨S256x128, .f32⟩ : BufTy).Contents (Elt Ideal))
    (x7 x10 x11 : (⟨S128, .f32⟩ : BufTy).Contents (Elt Ideal)) :
    val_main_v37 (F := Ideal) x0 x2 x3 x6 x7 x10 x11 = (fun i : S400000x128.Idx =>
      outR nUser (lin2 (fun r d => x0 (ix2 r d)) (fun d k => x2 (ix2 d k)) (fun k => x3 (ix1 k)) (fun k j => x6 (ix2 k j))
        (fun j => x7 (ix1 j))) (fun j => x10 (ix1 j)) (fun j => x11 (ix1 j)) (i 0) (i 1)) := by
  funext i
  obtain ⟨r, j, rfl⟩ : ∃ (r : Fin 400000) (j : Fin 128), i = ix2 r j := ⟨i 0, i 1, eq_ix2 i⟩
  rw [val_main_v37_apply, val_main_v34_apply, val_main_v36_apply, val_main_v33_apply, val_main_v35_apply,
    val_main_cst_4_apply, val_main_cst_5_apply, user_y, Ideal.cmpf_def, Ideal.mulf_def, Ideal.ofBits_def, Ideal.ofBits_def]
  rfl

/-! ## The item type -/

/-- The item type's two affine layers at row `r`, column `j`: the specification's `lin2` of the arguments. -/
private theorem item_h (x1 : (⟨S600000x128, .f32⟩ : BufTy).Contents (Elt Ideal)) (x4 : (⟨S128x256, .f32⟩ : BufTy).Contents (Elt Ideal))
    (x5 : (⟨S256, .f32⟩ : BufTy).Contents (Elt Ideal)) (x8 : (⟨S256x128, .f32⟩ : BufTy).Contents (Elt Ideal))
    (x9 : (⟨S128, .f32⟩ : BufTy).Contents (Elt Ideal)) (r : Fin 600000) (j : Fin 128) :
    val_main_v45 (F := Ideal) x1 x4 x5 x8 x9 (ix2 r j) =
      lin2 (fun r d => x1 (ix2 r d)) (fun d k => x4 (ix2 d k)) (fun k => x5 (ix1 k)) (fun k j => x8 (ix2 k j))
        (fun j => x9 (ix1 j)) r j := by
  have e42l : ∀ k : Fin 256, lidx_main_v42 (ix2 r j) k = ix2 r k := fun k =>
    funext fun a => Fin.ext (by match a with | ⟨0, _⟩ => rfl | ⟨1, _⟩ => rfl)
  have e42r : ∀ k : Fin 256, ridx_main_v42 (ix2 r j) k = ix2 k j := fun k =>
    funext fun a => Fin.ext (by match a with | ⟨0, _⟩ => rfl | ⟨1, _⟩ => rfl)
  have e38l : ∀ (k : Fin 256) (d : Fin 128), lidx_main_v38 (ix2 r k) d = ix2 r d := fun k d =>
    funext fun a => Fin.ext (by match a with | ⟨0, _⟩ => rfl | ⟨1, _⟩ => rfl)
  have e38r : ∀ (k : Fin 256) (d : Fin 128), ridx_main_v38 (ix2 r k) d = ix2 d k := fun k d =>
    funext fun a => Fin.ext (by match a with | ⟨0, _⟩ => rfl | ⟨1, _⟩ => rfl)
  have e39 : ∀ k : Fin 256, idx_main_v39 (idx_main_v40 (ix2 r k)) = ix1 k := fun k =>
    funext fun a => Fin.ext (by match a with | ⟨0, _⟩ => rfl)
  have e43 : idx_main_v43 (idx_main_v44 (ix2 r j)) = ix1 j :=
    funext fun a => Fin.ext (by match a with | ⟨0, _⟩ => rfl)
  rw [val_main_v45_apply, val_main_v42_apply, val_main_v44_apply, val_main_v43_apply, e43]
  unfold lin2
  rw [Ideal.addf_def]
  refine congrArg (· + x9 (ix1 j)) (Finset.sum_congr rfl fun k _ => ?_)
  rw [e42l k, e42r k, val_main_v41_apply, val_main_v38_apply, val_main_v40_apply, val_main_v39_apply, e39 k, Ideal.addf_def]
  refine congrArg (fun t => (t + x5 (ix1 k)) * x8 (ix2 k j)) (Finset.sum_congr rfl fun d _ => ?_)
  rw [e38l k d, e38r k d]

/-- The item type's column mean: the column sum of the two affine layers divided by the programs' constant. -/
private theorem item_mean (x1 : (⟨S600000x128, .f32⟩ : BufTy).Contents (Elt Ideal)) (x4 : (⟨S128x256, .f32⟩ : BufTy).Contents (Elt Ideal))
    (x5 : (⟨S256, .f32⟩ : BufTy).Contents (Elt Ideal)) (x8 : (⟨S256x128, .f32⟩ : BufTy).Contents (Elt Ideal))
    (x9 : (⟨S128, .f32⟩ : BufTy).Contents (Elt Ideal)) (j : Fin 128) :
    val_main_v48 (F := Ideal) x1 x4 x5 x8 x9 (ix1 j) =
      mean nItem (lin2 (fun r d => x1 (ix2 r d)) (fun d k => x4 (ix2 d k)) (fun k => x5 (ix1 k)) (fun k j => x8 (ix2 k j))
        (fun j => x9 (ix1 j))) j := by
  have e46 : ∀ k : Fin 600000, idx_main_v46 (ix1 j) k = ix2 k j := fun k =>
    funext fun a => Fin.ext (by match a with | ⟨0, _⟩ => rfl | ⟨1, _⟩ => rfl)
  rw [val_main_v48_apply, val_main_v46_apply, val_main_v47_apply, val_main_cst_7_apply, val_main_cst_6_apply,
    Ideal.hostDivf_def, Ideal.ofBits_def, Ideal.ofBits_def, Ideal.ofBits_zero_f32, zero_add]
  unfold mean colSum nItem
  refine congrArg (fun t => Ideal.div t (Ideal.ofBits .f32 0x49127C00#32)) (Finset.sum_congr rfl fun k _ => ?_)
  rw [e46 k, item_h]

/-- The item type's column variance: the mean of the squared deviations from the column mean. -/
private theorem item_var (x1 : (⟨S600000x128, .f32⟩ : BufTy).Contents (Elt Ideal)) (x4 : (⟨S128x256, .f32⟩ : BufTy).Contents (Elt Ideal))
    (x5 : (⟨S256, .f32⟩ : BufTy).Contents (Elt Ideal)) (x8 : (⟨S256x128, .f32⟩ : BufTy).Contents (Elt Ideal))
    (x9 : (⟨S128, .f32⟩ : BufTy).Contents (Elt Ideal)) (j : Fin 128) :
    val_main_v55 (F := Ideal) x1 x4 x5 x8 x9 (ix1 j) =
      varR nItem (lin2 (fun r d => x1 (ix2 r d)) (fun d k => x4 (ix2 d k)) (fun k => x5 (ix1 k)) (fun k j => x8 (ix2 k j))
        (fun j => x9 (ix1 j))) j := by
  have e53 : ∀ k : Fin 600000, idx_main_v53 (ix1 j) k = ix2 k j := fun k =>
    funext fun a => Fin.ext (by match a with | ⟨0, _⟩ => rfl | ⟨1, _⟩ => rfl)
  have e49 : ∀ k : Fin 600000, idx_main_v49 (idx_main_v50 (ix2 k j)) = ix1 j := fun k =>
    funext fun a => Fin.ext (by match a with | ⟨0, _⟩ => rfl)
  rw [val_main_v55_apply, val_main_v53_apply, val_main_v54_apply, val_main_cst_9_apply, val_main_cst_8_apply,
    Ideal.hostDivf_def, Ideal.ofBits_def, Ideal.ofBits_def, Ideal.ofBits_zero_f32, zero_add]
  unfold varR
  refine congrArg (fun t => Ideal.div t nItem) (Finset.sum_congr rfl fun k _ => ?_)
  rw [e53 k, val_main_v52_apply, val_main_v51_apply, val_main_v50_apply, val_main_v49_apply, e49 k, item_h, item_mean,
    Ideal.mulf_def, Ideal.subf_def]

/-- The item type's normalized, scaled and shifted entry at row `r`, column `j`. -/
private theorem item_y (x1 : (⟨S600000x128, .f32⟩ : BufTy).Contents (Elt Ideal)) (x4 : (⟨S128x256, .f32⟩ : BufTy).Contents (Elt Ideal))
    (x5 : (⟨S256, .f32⟩ : BufTy).Contents (Elt Ideal)) (x8 : (⟨S256x128, .f32⟩ : BufTy).Contents (Elt Ideal))
    (x9 x12 x13 : (⟨S128, .f32⟩ : BufTy).Contents (Elt Ideal)) (r : Fin 600000) (j : Fin 128) :
    val_main_v70 (F := Ideal) x1 x4 x5 x8 x9 x12 x13 (ix2 r j) =
      ((lin2 (fun r d => x1 (ix2 r d)) (fun d k => x4 (ix2 d k)) (fun k => x5 (ix1 k)) (fun k j => x8 (ix2 k j))
        (fun j => x9 (ix1 j)) r j
          - mean nItem (lin2 (fun r d => x1 (ix2 r d)) (fun d k => x4 (ix2 d k)) (fun k => x5 (ix1 k)) (fun k j => x8 (ix2 k j))
        (fun j => x9 (ix1 j))) j)
        * Ideal.rsqrt (varR nItem (lin2 (fun r d => x1 (ix2 r d)) (fun d k => x4 (ix2 d k)) (fun k => x5 (ix1 k)) (fun k j => x8 (ix2 k j))
        (fun j => x9 (ix1 j))) j + eps)) * x12 (ix1 j) + x13 (ix1 j) := by
  have e57 : idx_main_v56 (idx_main_v57 (ix2 r j)) = ix1 j :=
    funext fun a => Fin.ext (by match a with | ⟨0, _⟩ => rfl)
  have e63 : idx_main_v62 (idx_main_v63 (ix2 r j)) = ix1 j :=
    funext fun a => Fin.ext (by match a with | ⟨0, _⟩ => rfl)
  have e66 : idx_main_v65 (idx_main_v66 (ix2 r j)) = ix1 j :=
    funext fun a => Fin.ext (by match a with | ⟨0, _⟩ => rfl)
  have e69 : idx_main_v68 (idx_main_v69 (ix2 r j)) = ix1 j :=
    funext fun a => Fin.ext (by match a with | ⟨0, _⟩ => rfl)
  rw [val_main_v70_apply, val_main_v67_apply, val_main_v64_apply, val_main_v58_apply, val_main_v57_apply, val_main_v56_apply, e57,
    val_main_v63_apply, val_main_v62_apply, e63, val_main_v61_apply, val_main_v60_apply, val_main_v59_apply, val_main_cst_10_apply,
    val_main_v66_apply, val_main_v65_apply, e66, val_main_v69_apply, val_main_v68_apply, e69,
    item_h, item_mean, item_var,
    Ideal.addf_def, Ideal.mulf_def, Ideal.mulf_def, Ideal.subf_def, Ideal.hostUnary_rsqrt_def, Ideal.addf_def, Ideal.ofBits_def]
  rfl

/-- The reference's second result (the item type), likewise. -/
theorem item_value (x1 : (⟨S600000x128, .f32⟩ : BufTy).Contents (Elt Ideal)) (x4 : (⟨S128x256, .f32⟩ : BufTy).Contents (Elt Ideal))
    (x5 : (⟨S256, .f32⟩ : BufTy).Contents (Elt Ideal)) (x8 : (⟨S256x128, .f32⟩ : BufTy).Contents (Elt Ideal))
    (x9 x12 x13 : (⟨S128, .f32⟩ : BufTy).Contents (Elt Ideal)) :
    val_main_v75 (F := Ideal) x1 x4 x5 x8 x9 x12 x13 = (fun i : S600000x128.Idx =>
      outR nItem (lin2 (fun r d => x1 (ix2 r d)) (fun d k => x4 (ix2 d k)) (fun k => x5 (ix1 k)) (fun k j => x8 (ix2 k j))
        (fun j => x9 (ix1 j))) (fun j => x12 (ix1 j)) (fun j => x13 (ix1 j)) (i 0) (i 1)) := by
  funext i
  obtain ⟨r, j, rfl⟩ : ∃ (r : Fin 600000) (j : Fin 128), i = ix2 r j := ⟨i 0, i 1, eq_ix2 i⟩
  rw [val_main_v75_apply, val_main_v72_apply, val_main_v74_apply, val_main_v71_apply, val_main_v73_apply,
    val_main_cst_11_apply, val_main_cst_12_apply, item_y, Ideal.cmpf_def, Ideal.mulf_def, Ideal.ofBits_def, Ideal.ofBits_def]
  rfl

end Cert.ReferenceIdeal.RefValue

end
-- ==== Proof.Blocks.lean ====
/-
  Summing the rows of an array block by block: `T` blocks of `R` consecutive rows exhaust `T · R` rows, so a sum over
  all rows is the sum over the blocks of each block's sum. Stated in any commutative monoid: no order of
  summation matters.
-/
import Mathlib.Algebra.BigOperators.Fin
import Mathlib.Logic.Equiv.Fin.Basic

namespace Cert.Spec

/-- Row `t · R + p` of `N = T · R` rows, from the block `t` and the row `p` inside it. -/
def blockRow {T R N : ℕ} (hN : N = T * R) (t : Fin T) (p : Fin R) : Fin N :=
  ⟨t.val * R + p.val, by
    subst hN
    calc t.val * R + p.val < t.val * R + R := Nat.add_lt_add_left p.isLt _
      _ = (t.val + 1) * R := (Nat.succ_mul _ _).symm
      _ ≤ T * R := Nat.mul_le_mul_right _ t.isLt⟩

@[simp] theorem blockRow_val {T R N : ℕ} (hN : N = T * R) (t : Fin T) (p : Fin R) :
    (blockRow hN t p).val = t.val * R + p.val := rfl

/-- A sum over all `T · R` rows is the sum, over the `T` blocks, of the sum over each block's `R` rows. -/
theorem sum_by_blocks {M : Type*} [AddCommMonoid M] {T R N : ℕ} (hN : N = T * R) (f : Fin N → M) :
    ∑ i : Fin N, f i = ∑ t : Fin T, ∑ p : Fin R, f (blockRow hN t p) := by
  subst hN
  rw [← Equiv.sum_comp finProdFinEquiv f, Fintype.sum_prod_type]
  refine Finset.sum_congr rfl fun t _ => Finset.sum_congr rfl fun p _ => congrArg f (Fin.ext ?_)
  show p.val + R * t.val = t.val * R + p.val
  rw [Nat.mul_comm, Nat.add_comm]

end Cert.Spec
-- ==== Proof.Stats0.lean ====
/-
  What the first call on the user-type batch leaves in its three result arrays.

  The call walks the 400000 rows of the features in 100 blocks of 4000. At every block it computes the two affine
  layers `h r j = (∑ₖ (∑_d x r d · W₁ d k + b₁ k) · W₂ k j) + b₂ j` of the block's rows and writes them to the same rows
  of its first result; a one-row block of column sums and a one-row block of column sums of squares are set to zero
  at the first block, grow by the block's column sums at every block, and are written out once, after the last block.

  Proved here, for the arrays as the call finds them:
    arr_h      the first result is `h` on all 400000 rows;
    arr_sum    the second is `∑ᵣ h r j` over all rows;
    arr_sumsq  the third is `∑ᵣ (h r j)²` over all rows.

  The road: what each point's stores leave in the three staging blocks, as values of the blocks it read; the two
  matrix products, the row broadcasts and the column reductions read at one entry, which make a block's value the two
  layers of its rows and a block's reduction a sum over its 4000 rows; the blocks of the inputs read off the arrays
  (block `t` of the features is the 4000 rows from row `4000 t` on, the weights and biases are whole); the running sums
  after point `n` as sums over the first `n + 1` blocks, by induction on the point; and last the arrays from their
  blocks: the first result's blocks tile its rows, the two one-row results are their single block written at the last
  point, where the sum over 100 blocks of 4000 rows is the sum over the 400000 rows.
-/
import proofs.«174799_j19353122636427_1_alg».proof.Proof.Gen.KernelIdeal.Frame
import proofs.«174799_j19353122636427_1_alg».proof.Proof.Spec
import proofs.«174799_j19353122636427_1_alg».proof.Proof.Blocks
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Stats0

open Cert.KernelIdeal Cert.KernelIdeal.Gen Cert.Spec Idealize.ShloMosaic.ValueIdx

variable (V : (c : Dev nD) → (b : Ref sig .tc) → Buf (Elt Ideal) ((c : Thread nD τ).loc b))

/-- The arrays the first user-type call finds: the features, the two weight matrices, and the two biases as one-row
    matrices. -/
abbrev xArr (c : Dev nD) : S400000x64.Idx → EReal := V c (Pipeline.arrRef spec0 0)
abbrev w1Arr (c : Dev nD) : S64x256.Idx → EReal := V c (Pipeline.arrRef spec0 1)
abbrev b1Arr (c : Dev nD) : S1x256.Idx → EReal := V c (Pipeline.arrRef spec0 2)
abbrev w2Arr (c : Dev nD) : S256x128.Idx → EReal := V c (Pipeline.arrRef spec0 3)
abbrev b2Arr (c : Dev nD) : S1x128.Idx → EReal := V c (Pipeline.arrRef spec0 4)

/-- The two affine layers of those arrays. -/
def hOf (c : Dev nD) : Fin 400000 → Fin 128 → EReal :=
  lin2 (fun r d => xArr V c (ix2 r d)) (fun d k => w1Arr V c (ix2 d k)) (fun k => b1Arr V c (ix2 0 k))
    (fun k j => w2Arr V c (ix2 k j)) (fun j => b2Arr V c (ix2 0 j))

/-! ## What a point's stores leave in the three staging blocks -/

section Pieces
variable {F : FTy → Type} [FloatOps F]

/-- The zero offset on both axes. -/
theorem hz2 : (![0, 0] : Fin 2 → Nat) = fun _ => 0 := funext fun a => by fin_cases a <;> rfl

/-- At the first point the first result's staging block is left holding the two layers of the features' block. -/
theorem pA5 (c : Dev nD) (i : grid0.Coords) (a1 : Memref sig .tc .vmem S4000x64 .f32) (h1 : a1.IsWhole) (a2 : Memref sig .tc .vmem S64x256 .f32) (h2 : a2.IsWhole) (a3 : Memref sig .tc .vmem S1x256 .f32) (h3 : a3.IsWhole) (a4 : Memref sig .tc .vmem S256x128 .f32) (h4 : a4.IsWhole) (a5 : Memref sig .tc .vmem S1x128 .f32) (h5 : a5.IsWhole) (a6 : Memref sig .tc .vmem S4000x128 .f32) (h6 : a6.IsWhole) (a7 : Memref sig .tc .vmem S1x128 .f32) (h7 : a7.IsWhole) (a8 : Memref sig .tc .vmem S1x128 .f32) (h8 : a8.IsWhole) (hc : cond0_0 i) (x0 : Vec F S4000x64 .f32) (x1 : Vec F S64x256 .f32) (x2 : Vec F S1x256 .f32) (x3 : Vec F S256x128 .f32) (x4 : Vec F S1x128 .f32) :
    out0_A_5 c i a1 h1 a2 h2 a3 h3 a4 h4 a5 h5 a6 h6 a7 h7 a8 h8 hc x0 x1 x2 x3 x4 = k0_pay2 x0 x1 x2 x3 x4 := by
  unfold out0_A_5
  rw [View.read_writes_eq_canon _ _ _ (cover0_A_5 c i a1 h1 a2 h2 a3 h3 a4 h4 a5 h5 a6 h6 a7 h7 a8 h8 hc x0 x1 x2 x3 x4)]
  unfold kernelRun0_A
  dsimp only
  sl_unfold_words
  rw [View.canon_unit_zero hz2]
  simp only [View.readAt_eq_ld, h1.read_unread, h2.read_unread, h3.read_unread, h4.read_unread, h5.read_unread,
    View.ld_unit_zero (S := S4000x64) hz2, View.ld_unit_zero (S := S64x256) hz2, View.ld_unit_zero (S := S1x256) hz2,
    View.ld_unit_zero (S := S256x128) hz2, View.ld_unit_zero (S := S1x128) hz2, View.readCov_unit_zero (S := S1x128) _ hz2]

/-- At the first point the block of sums is left holding the zero block plus the column sums of the two layers. -/
theorem pA6 (c : Dev nD) (i : grid0.Coords) (a1 : Memref sig .tc .vmem S4000x64 .f32) (h1 : a1.IsWhole) (a2 : Memref sig .tc .vmem S64x256 .f32) (h2 : a2.IsWhole) (a3 : Memref sig .tc .vmem S1x256 .f32) (h3 : a3.IsWhole) (a4 : Memref sig .tc .vmem S256x128 .f32) (h4 : a4.IsWhole) (a5 : Memref sig .tc .vmem S1x128 .f32) (h5 : a5.IsWhole) (a6 : Memref sig .tc .vmem S4000x128 .f32) (h6 : a6.IsWhole) (a7 : Memref sig .tc .vmem S1x128 .f32) (h7 : a7.IsWhole) (a8 : Memref sig .tc .vmem S1x128 .f32) (h8 : a8.IsWhole) (hc : cond0_0 i) (x0 : Vec F S4000x64 .f32) (x1 : Vec F S64x256 .f32) (x2 : Vec F S1x256 .f32) (x3 : Vec F S256x128 .f32) (x4 : Vec F S1x128 .f32) :
    out0_A_6 c i a1 h1 a2 h2 a3 h3 a4 h4 a5 h5 a6 h6 a7 h7 a8 h8 hc x0 x1 x2 x3 x4 = k0_pay5 x0 x1 x2 x3 x4 (k0_pay3 (F := F)) := by
  unfold out0_A_6
  rw [View.read_writes_eq_canon _ _ _ (cover0_A_6 c i a1 h1 a2 h2 a3 h3 a4 h4 a5 h5 a6 h6 a7 h7 a8 h8 hc x0 x1 x2 x3 x4)]
  unfold kernelRun0_A
  dsimp only
  sl_unfold_words
  rw [View.canon_cons_unit_zero (S := S1x128) hz2]
  simp only [View.readAt_eq_ld, h1.read_unread, h2.read_unread, h3.read_unread, h4.read_unread, h5.read_unread,
    View.ld_unit_zero (S := S4000x64) hz2, View.ld_unit_zero (S := S64x256) hz2, View.ld_unit_zero (S := S1x256) hz2,
    View.ld_unit_zero (S := S256x128) hz2, View.ld_unit_zero (S := S1x128) hz2, View.readCov_unit_zero (S := S1x128) _ hz2]

/-- At the first point the block of sums of squares is left holding the zero block plus the column sums of the squared two layers. -/
theorem pA7 (c : Dev nD) (i : grid0.Coords) (a1 : Memref sig .tc .vmem S4000x64 .f32) (h1 : a1.IsWhole) (a2 : Memref sig .tc .vmem S64x256 .f32) (h2 : a2.IsWhole) (a3 : Memref sig .tc .vmem S1x256 .f32) (h3 : a3.IsWhole) (a4 : Memref sig .tc .vmem S256x128 .f32) (h4 : a4.IsWhole) (a5 : Memref sig .tc .vmem S1x128 .f32) (h5 : a5.IsWhole) (a6 : Memref sig .tc .vmem S4000x128 .f32) (h6 : a6.IsWhole) (a7 : Memref sig .tc .vmem S1x128 .f32) (h7 : a7.IsWhole) (a8 : Memref sig .tc .vmem S1x128 .f32) (h8 : a8.IsWhole) (hc : cond0_0 i) (x0 : Vec F S4000x64 .f32) (x1 : Vec F S64x256 .f32) (x2 : Vec F S1x256 .f32) (x3 : Vec F S256x128 .f32) (x4 : Vec F S1x128 .f32) :
    out0_A_7 c i a1 h1 a2 h2 a3 h3 a4 h4 a5 h5 a6 h6 a7 h7 a8 h8 hc x0 x1 x2 x3 x4 = k0_pay1 (k0_pay6 (k0_pay4 (F := F))) (k0_pay7 x0 x1 x2 x3 x4) := by
  unfold out0_A_7
  rw [View.read_writes_eq_canon _ _ _ (cover0_A_7 c i a1 h1 a2 h2 a3 h3 a4 h4 a5 h5 a6 h6 a7 h7 a8 h8 hc x0 x1 x2 x3 x4)]
  unfold kernelRun0_A
  dsimp only
  sl_unfold_words
  rw [View.canon_cons_unit_zero (S := S1x128) hz2]
  simp only [View.readAt_eq_ld, h1.read_unread, h2.read_unread, h3.read_unread, h4.read_unread, h5.read_unread,
    View.ld_unit_zero (S := S4000x64) hz2, View.ld_unit_zero (S := S64x256) hz2, View.ld_unit_zero (S := S1x256) hz2,
    View.ld_unit_zero (S := S256x128) hz2, View.ld_unit_zero (S := S1x128) hz2, View.readCov_unit_zero (S := S1x128) _ hz2]

/-- At a later point the first result's staging block is left holding the two layers of the features' block. -/
theorem pB5 (c : Dev nD) (i : grid0.Coords) (a1 : Memref sig .tc .vmem S4000x64 .f32) (h1 : a1.IsWhole) (a2 : Memref sig .tc .vmem S64x256 .f32) (h2 : a2.IsWhole) (a3 : Memref sig .tc .vmem S1x256 .f32) (h3 : a3.IsWhole) (a4 : Memref sig .tc .vmem S256x128 .f32) (h4 : a4.IsWhole) (a5 : Memref sig .tc .vmem S1x128 .f32) (h5 : a5.IsWhole) (a6 : Memref sig .tc .vmem S4000x128 .f32) (h6 : a6.IsWhole) (a7 : Memref sig .tc .vmem S1x128 .f32) (h7 : a7.IsWhole) (a8 : Memref sig .tc .vmem S1x128 .f32) (h8 : a8.IsWhole) (hc : ¬cond0_0 i) (x0 : Vec F S4000x64 .f32) (x1 : Vec F S64x256 .f32) (x2 : Vec F S1x256 .f32) (x3 : Vec F S256x128 .f32) (x4 : Vec F S1x128 .f32) (xo6 xo7 : Vec F S1x128 .f32) :
    out0_B_5 c i a1 h1 a2 h2 a3 h3 a4 h4 a5 h5 a6 h6 a7 h7 a8 h8 hc x0 x1 x2 x3 x4 xo6 xo7 = k0_pay2 x0 x1 x2 x3 x4 := by
  unfold out0_B_5
  rw [View.read_writes_eq_canon _ _ _ (cover0_B_5 c i a1 h1 a2 h2 a3 h3 a4 h4 a5 h5 a6 h6 a7 h7 a8 h8 hc x0 x1 x2 x3 x4 xo6 xo7)]
  unfold kernelRun0_B
  dsimp only
  sl_unfold_words
  rw [View.canon_unit_zero hz2]
  simp only [View.readAt_eq_ld, h1.read_unread, h2.read_unread, h3.read_unread, h4.read_unread, h5.read_unread, h7.read_unread, h8.read_unread,
    View.ld_unit_zero (S := S4000x64) hz2, View.ld_unit_zero (S := S64x256) hz2, View.ld_unit_zero (S := S1x256) hz2,
    View.ld_unit_zero (S := S256x128) hz2, View.ld_unit_zero (S := S1x128) hz2]

/-- At a later point the block of sums is left holding what it held plus the column sums of the two layers. -/
theorem pB6 (c : Dev nD) (i : grid0.Coords) (a1 : Memref sig .tc .vmem S4000x64 .f32) (h1 : a1.IsWhole) (a2 : Memref sig .tc .vmem S64x256 .f32) (h2 : a2.IsWhole) (a3 : Memref sig .tc .vmem S1x256 .f32) (h3 : a3.IsWhole) (a4 : Memref sig .tc .vmem S256x128 .f32) (h4 : a4.IsWhole) (a5 : Memref sig .tc .vmem S1x128 .f32) (h5 : a5.IsWhole) (a6 : Memref sig .tc .vmem S4000x128 .f32) (h6 : a6.IsWhole) (a7 : Memref sig .tc .vmem S1x128 .f32) (h7 : a7.IsWhole) (a8 : Memref sig .tc .vmem S1x128 .f32) (h8 : a8.IsWhole) (hc : ¬cond0_0 i) (x0 : Vec F S4000x64 .f32) (x1 : Vec F S64x256 .f32) (x2 : Vec F S1x256 .f32) (x3 : Vec F S256x128 .f32) (x4 : Vec F S1x128 .f32) (xo6 xo7 : Vec F S1x128 .f32) :
    out0_B_6 c i a1 h1 a2 h2 a3 h3 a4 h4 a5 h5 a6 h6 a7 h7 a8 h8 hc x0 x1 x2 x3 x4 xo6 xo7 = k0_pay5 x0 x1 x2 x3 x4 xo6 := by
  unfold out0_B_6
  rw [View.read_writes_eq_canon _ _ _ (cover0_B_6 c i a1 h1 a2 h2 a3 h3 a4 h4 a5 h5 a6 h6 a7 h7 a8 h8 hc x0 x1 x2 x3 x4 xo6 xo7)]
  unfold kernelRun0_B
  dsimp only
  sl_unfold_words
  rw [View.canon_unit_zero hz2]
  simp only [View.readAt_eq_ld, h1.read_unread, h2.read_unread, h3.read_unread, h4.read_unread, h5.read_unread, h7.read_unread, h8.read_unread,
    View.ld_unit_zero (S := S4000x64) hz2, View.ld_unit_zero (S := S64x256) hz2, View.ld_unit_zero (S := S1x256) hz2,
    View.ld_unit_zero (S := S256x128) hz2, View.ld_unit_zero (S := S1x128) hz2]

/-- At a later point the block of sums of squares is left holding what it held plus the column sums of the squared two layers. -/
theorem pB7 (c : Dev nD) (i : grid0.Coords) (a1 : Memref sig .tc .vmem S4000x64 .f32) (h1 : a1.IsWhole) (a2 : Memref sig .tc .vmem S64x256 .f32) (h2 : a2.IsWhole) (a3 : Memref sig .tc .vmem S1x256 .f32) (h3 : a3.IsWhole) (a4 : Memref sig .tc .vmem S256x128 .f32) (h4 : a4.IsWhole) (a5 : Memref sig .tc .vmem S1x128 .f32) (h5 : a5.IsWhole) (a6 : Memref sig .tc .vmem S4000x128 .f32) (h6 : a6.IsWhole) (a7 : Memref sig .tc .vmem S1x128 .f32) (h7 : a7.IsWhole) (a8 : Memref sig .tc .vmem S1x128 .f32) (h8 : a8.IsWhole) (hc : ¬cond0_0 i) (x0 : Vec F S4000x64 .f32) (x1 : Vec F S64x256 .f32) (x2 : Vec F S1x256 .f32) (x3 : Vec F S256x128 .f32) (x4 : Vec F S1x128 .f32) (xo6 xo7 : Vec F S1x128 .f32) :
    out0_B_7 c i a1 h1 a2 h2 a3 h3 a4 h4 a5 h5 a6 h6 a7 h7 a8 h8 hc x0 x1 x2 x3 x4 xo6 xo7 = k0_pay1 (k0_pay6 xo7) (k0_pay7 x0 x1 x2 x3 x4) := by
  unfold out0_B_7
  rw [View.read_writes_eq_canon _ _ _ (cover0_B_7 c i a1 h1 a2 h2 a3 h3 a4 h4 a5 h5 a6 h6 a7 h7 a8 h8 hc x0 x1 x2 x3 x4 xo6 xo7)]
  unfold kernelRun0_B
  dsimp only
  sl_unfold_words
  rw [View.canon_unit_zero hz2]
  simp only [View.readAt_eq_ld, h1.read_unread, h2.read_unread, h3.read_unread, h4.read_unread, h5.read_unread, h7.read_unread, h8.read_unread,
    View.ld_unit_zero (S := S4000x64) hz2, View.ld_unit_zero (S := S64x256) hz2, View.ld_unit_zero (S := S1x256) hz2,
    View.ld_unit_zero (S := S256x128) hz2, View.ld_unit_zero (S := S1x128) hz2]

end Pieces

/-! ## The body's arithmetic read at one entry -/

section Payload

/-- The left operand's row at output entry `i` is `i`'s row, -/
theorem dotA_l0 (i : S4000x256.Idx) (q : dot_S4000x64_S64x256_S4000x256_1_0_0_1_n_n.contr.Idx) :
    (dot_S4000x64_S64x256_S4000x256_1_0_0_1_n_n.lhsIdx i q 0).val = (i 0).val := by
  unfold DotDims.lhsIdx
  rw [dif_neg (show ¬(0 : Fin S4000x64.rank) ∈ dot_S4000x64_S64x256_S4000x256_1_0_0_1_n_n.lhsBatch by decide), dif_pos (show (0 : Fin S4000x64.rank) ∈ dot_S4000x64_S64x256_S4000x256_1_0_0_1_n_n.lhsNonContracting by decide)]
  rfl
/-- its column the contraction coordinate; -/
theorem dotA_l1 (i : S4000x256.Idx) (q : dot_S4000x64_S64x256_S4000x256_1_0_0_1_n_n.contr.Idx) :
    (dot_S4000x64_S64x256_S4000x256_1_0_0_1_n_n.lhsIdx i q 1).val = (q ⟨0, by decide⟩).val :=
  dot_S4000x64_S64x256_S4000x256_1_0_0_1_n_n.lhsIdx_val_of_single rfl i q
/-- the right operand's row is the contraction coordinate, -/
theorem dotA_r0 (i : S4000x256.Idx) (q : dot_S4000x64_S64x256_S4000x256_1_0_0_1_n_n.contr.Idx) :
    (dot_S4000x64_S64x256_S4000x256_1_0_0_1_n_n.rhsIdx i q 0).val = (q ⟨0, by decide⟩).val :=
  dot_S4000x64_S64x256_S4000x256_1_0_0_1_n_n.rhsIdx_val_of_single rfl i q
/-- its column `i`'s column. -/
theorem dotA_r1 (i : S4000x256.Idx) (q : dot_S4000x64_S64x256_S4000x256_1_0_0_1_n_n.contr.Idx) :
    (dot_S4000x64_S64x256_S4000x256_1_0_0_1_n_n.rhsIdx i q 1).val = (i 1).val := by
  unfold DotDims.rhsIdx
  rw [dif_neg (show ¬(1 : Fin S64x256.rank) ∈ dot_S4000x64_S64x256_S4000x256_1_0_0_1_n_n.rhsBatch by decide), dif_pos (show (1 : Fin S64x256.rank) ∈ dot_S4000x64_S64x256_S4000x256_1_0_0_1_n_n.rhsNonContracting by decide)]
  rfl

/-- The left operand's row at output entry `i` is `i`'s row, -/
theorem dotB_l0 (i : S4000x128.Idx) (q : dot_S4000x256_S256x128_S4000x128_1_0_0_1_n_n.contr.Idx) :
    (dot_S4000x256_S256x128_S4000x128_1_0_0_1_n_n.lhsIdx i q 0).val = (i 0).val := by
  unfold DotDims.lhsIdx
  rw [dif_neg (show ¬(0 : Fin S4000x256.rank) ∈ dot_S4000x256_S256x128_S4000x128_1_0_0_1_n_n.lhsBatch by decide), dif_pos (show (0 : Fin S4000x256.rank) ∈ dot_S4000x256_S256x128_S4000x128_1_0_0_1_n_n.lhsNonContracting by decide)]
  rfl
/-- its column the contraction coordinate; -/
theorem dotB_l1 (i : S4000x128.Idx) (q : dot_S4000x256_S256x128_S4000x128_1_0_0_1_n_n.contr.Idx) :
    (dot_S4000x256_S256x128_S4000x128_1_0_0_1_n_n.lhsIdx i q 1).val = (q ⟨0, by decide⟩).val :=
  dot_S4000x256_S256x128_S4000x128_1_0_0_1_n_n.lhsIdx_val_of_single rfl i q
/-- the right operand's row is the contraction coordinate, -/
theorem dotB_r0 (i : S4000x128.Idx) (q : dot_S4000x256_S256x128_S4000x128_1_0_0_1_n_n.contr.Idx) :
    (dot_S4000x256_S256x128_S4000x128_1_0_0_1_n_n.rhsIdx i q 0).val = (q ⟨0, by decide⟩).val :=
  dot_S4000x256_S256x128_S4000x128_1_0_0_1_n_n.rhsIdx_val_of_single rfl i q
/-- its column `i`'s column. -/
theorem dotB_r1 (i : S4000x128.Idx) (q : dot_S4000x256_S256x128_S4000x128_1_0_0_1_n_n.contr.Idx) :
    (dot_S4000x256_S256x128_S4000x128_1_0_0_1_n_n.rhsIdx i q 1).val = (i 1).val := by
  unfold DotDims.rhsIdx
  rw [dif_neg (show ¬(1 : Fin S256x128.rank) ∈ dot_S4000x256_S256x128_S4000x128_1_0_0_1_n_n.rhsBatch by decide), dif_pos (show (1 : Fin S256x128.rank) ∈ dot_S4000x256_S256x128_S4000x128_1_0_0_1_n_n.rhsNonContracting by decide)]
  rfl

/-- The first product into the zero block, at row `p`, column `n`: `∑ₖ l p k · r k n` over the 64 feature columns. -/
theorem mmA_apply (l : FVec Ideal S4000x64 .bf16) (r : FVec Ideal S64x256 .bf16) (p : Fin 4000) (n : Fin 256) :
    matmul dot_S4000x64_S64x256_S4000x256_1_0_0_1_n_n none l r (constant S4000x256 .f32 0x00000000#32) (ix2 p n)
      = ∑ k : Fin 64, l (ix2 p k) * r (ix2 k n) := by
  refine (Ideal.matmul_constant_zero_apply dot_S4000x64_S64x256_S4000x256_1_0_0_1_n_n none l r (ix2 p n)).trans ?_
  rw [← Equiv.sum_comp (contrEquiv1 dot_S4000x64_S64x256_S4000x256_1_0_0_1_n_n 64 rfl rfl).symm]
  refine Finset.sum_congr rfl fun k _ => ?_
  have hk := contrEquiv1_symm_val dot_S4000x64_S64x256_S4000x256_1_0_0_1_n_n 64 rfl rfl k
  have el : dot_S4000x64_S64x256_S4000x256_1_0_0_1_n_n.lhsIdx (ix2 p n) ((contrEquiv1 dot_S4000x64_S64x256_S4000x256_1_0_0_1_n_n 64 rfl rfl).symm k) = ix2 p k := funext fun a => Fin.ext (by
    match a with
    | ⟨0, _⟩ => exact dotA_l0 _ _
    | ⟨1, _⟩ => exact (dotA_l1 _ _).trans hk)
  have er : dot_S4000x64_S64x256_S4000x256_1_0_0_1_n_n.rhsIdx (ix2 p n) ((contrEquiv1 dot_S4000x64_S64x256_S4000x256_1_0_0_1_n_n 64 rfl rfl).symm k) = ix2 k n := funext fun a => Fin.ext (by
    match a with
    | ⟨0, _⟩ => exact (dotA_r0 _ _).trans hk
    | ⟨1, _⟩ => exact dotA_r1 _ _)
  rw [el, er]

/-- The second product into the zero block, at row `p`, column `n`: `∑ₖ l p k · r k n` over the 256 hidden columns. -/
theorem mmB_apply (l : FVec Ideal S4000x256 .bf16) (r : FVec Ideal S256x128 .bf16) (p : Fin 4000) (n : Fin 128) :
    matmul dot_S4000x256_S256x128_S4000x128_1_0_0_1_n_n none l r (constant S4000x128 .f32 0x00000000#32) (ix2 p n)
      = ∑ k : Fin 256, l (ix2 p k) * r (ix2 k n) := by
  refine (Ideal.matmul_constant_zero_apply dot_S4000x256_S256x128_S4000x128_1_0_0_1_n_n none l r (ix2 p n)).trans ?_
  rw [← Equiv.sum_comp (contrEquiv1 dot_S4000x256_S256x128_S4000x128_1_0_0_1_n_n 256 rfl rfl).symm]
  refine Finset.sum_congr rfl fun k _ => ?_
  have hk := contrEquiv1_symm_val dot_S4000x256_S256x128_S4000x128_1_0_0_1_n_n 256 rfl rfl k
  have el : dot_S4000x256_S256x128_S4000x128_1_0_0_1_n_n.lhsIdx (ix2 p n) ((contrEquiv1 dot_S4000x256_S256x128_S4000x128_1_0_0_1_n_n 256 rfl rfl).symm k) = ix2 p k := funext fun a => Fin.ext (by
    match a with
    | ⟨0, _⟩ => exact dotB_l0 _ _
    | ⟨1, _⟩ => exact (dotB_l1 _ _).trans hk)
  have er : dot_S4000x256_S256x128_S4000x128_1_0_0_1_n_n.rhsIdx (ix2 p n) ((contrEquiv1 dot_S4000x256_S256x128_S4000x128_1_0_0_1_n_n 256 rfl rfl).symm k) = ix2 k n := funext fun a => Fin.ext (by
    match a with
    | ⟨0, _⟩ => exact (dotB_r0 _ _).trans hk
    | ⟨1, _⟩ => exact dotB_r1 _ _)
  rw [el, er]

/-- The two layers at row `r`, column `j` read only row `r` of the features and column `j` of the second layer: equal
    data there give equal values. -/
theorem lin2_congr {N N' D : ℕ} {x : Fin N → Fin D → EReal} {x' : Fin N' → Fin D → EReal} {W1 W1' : Fin D → Fin 256 → EReal}
    {b1 b1' : Fin 256 → EReal} {W2 W2' : Fin 256 → Fin 128 → EReal} {b2 b2' : Fin 128 → EReal} {r : Fin N} {r' : Fin N'} (j : Fin 128)
    (hx : ∀ d, x r d = x' r' d) (hW1 : ∀ d k, W1 d k = W1' d k) (hb1 : ∀ k, b1 k = b1' k) (hW2 : ∀ k, W2 k j = W2' k j)
    (hb2 : b2 j = b2' j) : lin2 x W1 b1 W2 b2 r j = lin2 x' W1' b1' W2' b2' r' j := by
  unfold lin2
  simp only [hx, hW1, hb1, hW2, hb2]

/-- The block's value at row `p`, column `j` is the two layers of the block's row `p`. -/
theorem pay2_apply (x0 : Vec Ideal S4000x64 .f32) (x1 : Vec Ideal S64x256 .f32) (x2 : Vec Ideal S1x256 .f32)
    (x3 : Vec Ideal S256x128 .f32) (x4 : Vec Ideal S1x128 .f32) (p : Fin 4000) (j : Fin 128) :
    k0_pay2 x0 x1 x2 x3 x4 (ix2 p j)
      = lin2 (fun r d => x0 (ix2 r d)) (fun d k => x1 (ix2 d k)) (fun k => x2 (ix2 0 k)) (fun k n => x3 (ix2 k n))
          (fun n => x4 (ix2 0 n)) p j := by
  unfold k0_pay2 lin2
  refine congrArg₂ (· + ·) ?_ ?_
  · refine (mmB_apply _ _ p j).trans ?_
    refine Finset.sum_congr rfl fun k _ => ?_
    refine congrArg₂ (· * ·) ?_ rfl
    refine congrArg₂ (· + ·) (mmA_apply _ _ p k) ?_
    refine (broadcastTo_1b_ab_apply _ _ p k).trans ?_
    exact congrFun (shapeCast_self x2 _) (ix2 0 k)
  · refine (broadcastTo_1b_ab_apply _ _ p j).trans ?_
    exact congrFun (shapeCast_self x4 _) (ix2 0 j)

/-- The reduction of a 4000-row block along its rows, from zero, at column `j`: the sum of the column's 4000 entries. -/
theorem colred_apply (src : FVec Ideal S4000x128 .f32) (hacc : (0x00000000#32 : BitVec 32) = 0x00000000#32) (j : Fin 128) :
    multiReduction (F := Ideal) .add [0] S128 src 0x00000000#32 reduces_S4000x128_S128 (.inl rfl) hacc (ix1 j)
      = ∑ p : Fin 4000, src (ix2 p j) := by
  refine (Ideal.multiReduction_add_single src 0x00000000#32 reduces_S4000x128_S128 (.inl rfl) hacc (ix1 j)).trans ?_
  refine Finset.sum_congr rfl fun p _ => congrArg src ?_
  funext a
  match a with
  | ⟨0, _⟩ => rfl
  | ⟨1, _⟩ => rfl

/-- The new block of sums at column `j`: the old one plus the sum of the block's value down the column. -/
theorem pay5_apply (x0 : Vec Ideal S4000x64 .f32) (x1 : Vec Ideal S64x256 .f32) (x2 : Vec Ideal S1x256 .f32)
    (x3 : Vec Ideal S256x128 .f32) (x4 : Vec Ideal S1x128 .f32) (acc : Vec Ideal S1x128 .f32) (j : Fin 128) :
    k0_pay5 x0 x1 x2 x3 x4 acc (ix2 0 j) = acc (ix2 0 j) + ∑ p : Fin 4000, k0_pay2 x0 x1 x2 x3 x4 (ix2 p j) := by
  unfold k0_pay5
  refine congrArg₂ (· + ·) (congrFun (shapeCast_self acc _) (ix2 0 j)) ?_
  refine (shapeCast_a_1a_apply _ _ (0 : Fin 1) j).trans ?_
  exact colred_apply _ rfl j

/-- The new block of sums of squares at column `j`: the old one plus the sum of the squared value down the column. -/
theorem pay17_apply (x0 : Vec Ideal S4000x64 .f32) (x1 : Vec Ideal S64x256 .f32) (x2 : Vec Ideal S1x256 .f32)
    (x3 : Vec Ideal S256x128 .f32) (x4 : Vec Ideal S1x128 .f32) (acc : Vec Ideal S1x128 .f32) (j : Fin 128) :
    k0_pay1 (k0_pay6 acc) (k0_pay7 x0 x1 x2 x3 x4) (ix2 0 j)
      = acc (ix2 0 j) + ∑ p : Fin 4000, k0_pay2 x0 x1 x2 x3 x4 (ix2 p j) * k0_pay2 x0 x1 x2 x3 x4 (ix2 p j) := by
  unfold k0_pay1 k0_pay6 k0_pay7
  refine congrArg₂ (· + ·) (congrFun (shapeCast_self acc _) (ix2 0 j)) ?_
  refine (shapeCast_a_1a_apply _ _ (0 : Fin 1) j).trans ?_
  exact colred_apply _ rfl j

/-- The block the sums are reset to is zero, -/
theorem zero3_apply (j : Fin 128) : k0_pay3 (F := Ideal) (ix2 0 j) = 0 := Ideal.ofBits_zero_f32
/-- and so is the one the sums of squares are reset to. -/
theorem zero4_apply (j : Fin 128) : k0_pay4 (F := Ideal) (ix2 0 j) = 0 := Ideal.ofBits_zero_f32

end Payload

/-! ## The input blocks read off the arrays -/

section Blocks

/-- The five input blocks at point `t`. -/

abbrev xBlk (c : Dev nD) (t : Fin cfg0.N) : Vec Ideal S4000x64 .f32 := iblk0 V c 0 t
abbrev w1Blk (c : Dev nD) (t : Fin cfg0.N) : Vec Ideal S64x256 .f32 := iblk0 V c 1 t
abbrev b1Blk (c : Dev nD) (t : Fin cfg0.N) : Vec Ideal S1x256 .f32 := iblk0 V c 2 t
abbrev w2Blk (c : Dev nD) (t : Fin cfg0.N) : Vec Ideal S256x128 .f32 := iblk0 V c 3 t
abbrev b2Blk (c : Dev nD) (t : Fin cfg0.N) : Vec Ideal S1x128 .f32 := iblk0 V c 4 t

/-- Where the input blocks sit: the features' block `t` at block row `t`, every other input at its one block. -/
theorem idx_in : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

/-- Where the result blocks sit: the first result's block `t` at block row `t`, the two one-row results at their one block. -/
theorem idx_out : ∀ t : Fin cfg0.N, win0_5.index t (0 : Fin 2) = t.val ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0 :=
  (by decide +kernel : ∀ t : Fin grid0.N, _)

/-- Row `p` of the features' block `t` is row `4000 t + p` of the features. -/
theorem xBlk_apply (c : Dev nD) (t : Fin cfg0.N) (p : Fin 4000) (d : Fin 64) (r : Fin 400000)
    (hr : r.val = t.val * 4000 + p.val) : xBlk V c t (ix2 p d) = xArr V c (ix2 r d) := by
  show iblk0 V c 0 t (ix2 p d) = _
  unfold iblk0
  rw [View.read_apply]
  show V c (Pipeline.arrRef spec0 0) _ = V c (Pipeline.arrRef spec0 0) _
  congr 1
  funext a
  apply Fin.ext
  match a with
  | ⟨0, _⟩ => show win0_0.index t (0 : Fin 2) * 4000 + 1 * p.val = r.val; rw [(idx_in t).1]; omega
  | ⟨1, _⟩ => show win0_0.index t (1 : Fin 2) * 64 + 1 * d.val = d.val; rw [(idx_in t).2.1]; omega

/-- The first weights' block is the whole matrix, -/
theorem w1Blk_apply (c : Dev nD) (t : Fin cfg0.N) (d : Fin 64) (k : Fin 256) : w1Blk V c t (ix2 d k) = w1Arr V c (ix2 d k) := by
  show iblk0 V c 1 t (ix2 d k) = _
  unfold iblk0
  rw [View.read_apply]
  show V c (Pipeline.arrRef spec0 1) _ = V c (Pipeline.arrRef spec0 1) _
  congr 1
  funext a
  apply Fin.ext
  match a with
  | ⟨0, _⟩ => show win0_1.index t (0 : Fin 2) * 64 + 1 * d.val = d.val; rw [(idx_in t).2.2.1]; omega
  | ⟨1, _⟩ => show win0_1.index t (1 : Fin 2) * 256 + 1 * k.val = k.val; rw [(idx_in t).2.2.2.1]; omega

/-- the first bias's block the whole row, -/
theorem b1Blk_apply (c : Dev nD) (t : Fin cfg0.N) (u : Fin 1) (k : Fin 256) : b1Blk V c t (ix2 u k) = b1Arr V c (ix2 u k) := by
  show iblk0 V c 2 t (ix2 u k) = _
  unfold iblk0
  rw [View.read_apply]
  show V c (Pipeline.arrRef spec0 2) _ = V c (Pipeline.arrRef spec0 2) _
  congr 1
  funext a
  apply Fin.ext
  match a with
  | ⟨0, _⟩ => show win0_2.index t (0 : Fin 2) * 1 + 1 * u.val = u.val; rw [(idx_in t).2.2.2.2.1]; omega
  | ⟨1, _⟩ => show win0_2.index t (1 : Fin 2) * 256 + 1 * k.val = k.val; rw [(idx_in t).2.2.2.2.2.1]; omega

/-- the second weights' block the whole matrix, -/
theorem w2Blk_apply (c : Dev nD) (t : Fin cfg0.N) (k : Fin 256) (j : Fin 128) : w2Blk V c t (ix2 k j) = w2Arr V c (ix2 k j) := by
  show iblk0 V c 3 t (ix2 k j) = _
  unfold iblk0
  rw [View.read_apply]
  show V c (Pipeline.arrRef spec0 3) _ = V c (Pipeline.arrRef spec0 3) _
  congr 1
  funext a
  apply Fin.ext
  match a with
  | ⟨0, _⟩ => show win0_3.index t (0 : Fin 2) * 256 + 1 * k.val = k.val; rw [(idx_in t).2.2.2.2.2.2.1]; omega
  | ⟨1, _⟩ => show win0_3.index t (1 : Fin 2) * 128 + 1 * j.val = j.val; rw [(idx_in t).2.2.2.2.2.2.2.1]; omega

/-- the second bias's block the whole row. -/
theorem b2Blk_apply (c : Dev nD) (t : Fin cfg0.N) (u : Fin 1) (j : Fin 128) : b2Blk V c t (ix2 u j) = b2Arr V c (ix2 u j) := by
  show iblk0 V c 4 t (ix2 u j) = _
  unfold iblk0
  rw [View.read_apply]
  show V c (Pipeline.arrRef spec0 4) _ = V c (Pipeline.arrRef spec0 4) _
  congr 1
  funext a
  apply Fin.ext
  match a with
  | ⟨0, _⟩ => show win0_4.index t (0 : Fin 2) * 1 + 1 * u.val = u.val; rw [(idx_in t).2.2.2.2.2.2.2.2.1]; omega
  | ⟨1, _⟩ => show win0_4.index t (1 : Fin 2) * 128 + 1 * j.val = j.val; rw [(idx_in t).2.2.2.2.2.2.2.2.2]; omega

/-- Row `p` of block `t` as a row of the whole array: `4000 t + p`, taken below 400000 so that it is a row for every `t`. -/
def rowAt (t : ℕ) (p : Fin 4000) : Fin 400000 := ⟨(t * 4000 + p.val) % 400000, Nat.mod_lt _ (by decide)⟩

/-- For a point of the grid it is `4000 t + p` itself. -/
theorem rowAt_val (t : Fin cfg0.N) (p : Fin 4000) : (rowAt t.val p).val = t.val * 4000 + p.val := by
  have hN : cfg0.N = 100 := N_0
  have ht := t.isLt
  have hp := p.isLt
  show (t.val * 4000 + p.val) % 400000 = _
  omega

/-- The block's value at point `t`, row `p`, column `j`: the two layers at row `4000 t + p` of the arrays. -/
theorem blk_h (c : Dev nD) (t : Fin cfg0.N) (p : Fin 4000) (j : Fin 128) :
    k0_pay2 (xBlk V c t) (w1Blk V c t) (b1Blk V c t) (w2Blk V c t) (b2Blk V c t) (ix2 p j) = hOf V c (rowAt t.val p) j :=
  (pay2_apply _ _ _ _ _ p j).trans
    (lin2_congr j (fun d => xBlk_apply V c t p d (rowAt t.val p) (rowAt_val t p)) (fun d k => w1Blk_apply V c t d k)
      (fun k => b1Blk_apply V c t 0 k) (fun k => w2Blk_apply V c t k j) (b2Blk_apply V c t 0 j))

end Blocks

/-! ## The three staging blocks after each point -/

section Points

/-- The block of the first result after point `t`: the two layers of block `t` of the features. -/
theorem h_at (c : Dev nD) (t : Fin cfg0.N) (p : Fin 4000) (j : Fin 128) :
    ((outsAt0 V c t.val t.isLt).1 : Vec Ideal S4000x128 .f32) (ix2 p j) = hOf V c (rowAt t.val p) j := by
  by_cases h0 : t.val % 100 = 0
  · rw [outsAt0_A V c t h0]
    dsimp only
    exact (congrFun (pA5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) ((hcond0_0 t).mpr h0) (xBlk V c t) (w1Blk V c t) (b1Blk V c t) (w2Blk V c t) (b2Blk V c t)) (ix2 p j)).trans (blk_h V c t p j)
  · rw [outsAt0_B V c t h0]
    dsimp only
    exact (congrFun (pB5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (fun h => h0 ((hcond0_0 t).mp h)) (xBlk V c t) (w1Blk V c t) (b1Blk V c t) (w2Blk V c t) (b2Blk V c t) (outsAt0 V c (t.val - 1) (Nat.lt_of_le_of_lt (Nat.sub_le _ _) t.isLt)).2.1 (outsAt0 V c (t.val - 1) (Nat.lt_of_le_of_lt (Nat.sub_le _ _) t.isLt)).2.2) (ix2 p j)).trans (blk_h V c t p j)

/-- After the first point the block of sums holds the first block's column sums; -/
theorem sum_first (c : Dev nD) (t : Fin cfg0.N) (h0 : t.val % 100 = 0) (j : Fin 128) :
    ((outsAt0 V c t.val t.isLt).2.1 : Vec Ideal S1x128 .f32) (ix2 0 j) = ∑ p : Fin 4000, hOf V c (rowAt t.val p) j := by
  rw [outsAt0_A V c t h0]
  dsimp only
  refine (congrFun (pA6 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) ((hcond0_0 t).mpr h0) (xBlk V c t) (w1Blk V c t) (b1Blk V c t) (w2Blk V c t) (b2Blk V c t)) (ix2 0 j)).trans ?_
  refine (pay5_apply _ _ _ _ _ _ j).trans ?_
  exact (congrArg₂ (· + ·) (zero3_apply j) (Finset.sum_congr rfl fun p _ => blk_h V c t p j)).trans (zero_add _)

/-- after a later point, what the point before left plus this block's column sums. -/
theorem sum_step (c : Dev nD) (t : Fin cfg0.N) (h0 : ¬t.val % 100 = 0) (j : Fin 128) :
    ((outsAt0 V c t.val t.isLt).2.1 : Vec Ideal S1x128 .f32) (ix2 0 j)
      = ((outsAt0 V c (t.val - 1) (Nat.lt_of_le_of_lt (Nat.sub_le _ _) t.isLt)).2.1 : Vec Ideal S1x128 .f32) (ix2 0 j) + ∑ p : Fin 4000, hOf V c (rowAt t.val p) j := by
  rw [outsAt0_B V c t h0]
  dsimp only
  refine (congrFun (pB6 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (fun h => h0 ((hcond0_0 t).mp h)) (xBlk V c t) (w1Blk V c t) (b1Blk V c t) (w2Blk V c t) (b2Blk V c t) (outsAt0 V c (t.val - 1) (Nat.lt_of_le_of_lt (Nat.sub_le _ _) t.isLt)).2.1 (outsAt0 V c (t.val - 1) (Nat.lt_of_le_of_lt (Nat.sub_le _ _) t.isLt)).2.2) (ix2 0 j)).trans ?_
  refine (pay5_apply _ _ _ _ _ _ j).trans ?_
  exact congrArg₂ (· + ·) rfl (Finset.sum_congr rfl fun p _ => blk_h V c t p j)

/-- After the first point the block of sums of squares holds the first block's column sums of squares; -/
theorem sq_first (c : Dev nD) (t : Fin cfg0.N) (h0 : t.val % 100 = 0) (j : Fin 128) :
    ((outsAt0 V c t.val t.isLt).2.2 : Vec Ideal S1x128 .f32) (ix2 0 j)
      = ∑ p : Fin 4000, hOf V c (rowAt t.val p) j * hOf V c (rowAt t.val p) j := by
  rw [outsAt0_A V c t h0]
  dsimp only
  refine (congrFun (pA7 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) ((hcond0_0 t).mpr h0) (xBlk V c t) (w1Blk V c t) (b1Blk V c t) (w2Blk V c t) (b2Blk V c t)) (ix2 0 j)).trans ?_
  refine (pay17_apply _ _ _ _ _ _ j).trans ?_
  exact (congrArg₂ (· + ·) (zero4_apply j)
    (Finset.sum_congr rfl fun p _ => congrArg₂ (· * ·) (blk_h V c t p j) (blk_h V c t p j))).trans (zero_add _)

/-- after a later point, what the point before left plus this block's column sums of squares. -/
theorem sq_step (c : Dev nD) (t : Fin cfg0.N) (h0 : ¬t.val % 100 = 0) (j : Fin 128) :
    ((outsAt0 V c t.val t.isLt).2.2 : Vec Ideal S1x128 .f32) (ix2 0 j)
      = ((outsAt0 V c (t.val - 1) (Nat.lt_of_le_of_lt (Nat.sub_le _ _) t.isLt)).2.2 : Vec Ideal S1x128 .f32) (ix2 0 j) + ∑ p : Fin 4000, hOf V c (rowAt t.val p) j * hOf V c (rowAt t.val p) j := by
  rw [outsAt0_B V c t h0]
  dsimp only
  refine (congrFun (pB7 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (fun h => h0 ((hcond0_0 t).mp h)) (xBlk V c t) (w1Blk V c t) (b1Blk V c t) (w2Blk V c t) (b2Blk V c t) (outsAt0 V c (t.val - 1) (Nat.lt_of_le_of_lt (Nat.sub_le _ _) t.isLt)).2.1 (outsAt0 V c (t.val - 1) (Nat.lt_of_le_of_lt (Nat.sub_le _ _) t.isLt)).2.2) (ix2 0 j)).trans ?_
  refine (pay17_apply _ _ _ _ _ _ j).trans ?_
  exact congrArg₂ (· + ·) rfl (Finset.sum_congr rfl fun p _ => congrArg₂ (· * ·) (blk_h V c t p j) (blk_h V c t p j))

/-- After point `n` the block of sums holds the column sums over the first `n + 1` blocks of rows. -/
theorem sum_at (c : Dev nD) : ∀ (n : ℕ) (h : n < cfg0.N) (j : Fin 128),
    ((outsAt0 V c n h).2.1 : Vec Ideal S1x128 .f32) (ix2 0 j) = ∑ t ∈ Finset.range (n + 1), ∑ p : Fin 4000, hOf V c (rowAt t p) j
  | 0, h, j => by
    rw [Finset.sum_range_one]
    exact sum_first V c ⟨0, h⟩ (Nat.zero_mod _) j
  | n + 1, h, j => by
    have hN : cfg0.N = 100 := N_0
    have hB : ¬(n + 1) % 100 = 0 := by omega
    rw [Finset.sum_range_succ, ← sum_at c n (Nat.lt_of_succ_lt h) j]
    exact sum_step V c ⟨n + 1, h⟩ hB j

/-- After point `n` the block of sums of squares holds the column sums of squares over the first `n + 1` blocks of rows. -/
theorem sq_at (c : Dev nD) : ∀ (n : ℕ) (h : n < cfg0.N) (j : Fin 128),
    ((outsAt0 V c n h).2.2 : Vec Ideal S1x128 .f32) (ix2 0 j)
      = ∑ t ∈ Finset.range (n + 1), ∑ p : Fin 4000, hOf V c (rowAt t p) j * hOf V c (rowAt t p) j
  | 0, h, j => by
    rw [Finset.sum_range_one]
    exact sq_first V c ⟨0, h⟩ (Nat.zero_mod _) j
  | n + 1, h, j => by
    have hN : cfg0.N = 100 := N_0
    have hB : ¬(n + 1) % 100 = 0 := by omega
    rw [Finset.sum_range_succ, ← sq_at c n (Nat.lt_of_succ_lt h) j]
    exact sq_step V c ⟨n + 1, h⟩ hB j

end Points

/-! ## From the blocks to the arrays -/

section Arrays

/-- The three result arrays. -/
abbrev hRef : Ref sig .tc := main_v2_0
abbrev sumRef : Ref sig .tc := main_v2_1
abbrev sqRef : Ref sig .tc := main_v2_2

/-- Block `t` of the first result, as a function of a block index. -/
theorem h_blk (c : Dev nD) (t : Fin cfg0.N) :
    ((outsAt0 V c t.val t.isLt).1 : Vec Ideal S4000x128 .f32) = fun y : S4000x128.Idx => hOf V c (rowAt t.val (y 0)) (y 1) := by
  funext y
  obtain ⟨p, j, rfl⟩ : ∃ (p : Fin 4000) (j : Fin 128), y = ix2 p j := ⟨y 0, y 1, eq_ix2 y⟩
  exact h_at V c t p j

/-- A block that holds rows `t · 4000 + p` of `g` is, read through the window, block `t` of the array `g`. -/
theorem h_flushed_of (g : Fin 400000 → Fin 128 → EReal) (c : Dev nD) (t : Fin cfg0.N)
    (hb : (dat0 V c).after 5 t = fun y : S4000x128.Idx => g (rowAt t.val (y 0)) (y 1)) :
    (dat0 V c).flushed 5 t = ((cfg0.win 5).blk t).view.read (Elt Ideal) (fun i : S400000x128.Idx => g (i 0) (i 1)) := by
  have hN : cfg0.N = 100 := N_0
  have ht := t.isLt
  funext y
  show (dat0 V c).after 5 t ((cfg0.win 5).xinj (grid0.coords t) y) = _
  rw [hb, View.read_apply]
  show g _ _ = g _ _
  have hy0 : (y 0 : Nat) < 4000 := (y 0).isLt
  refine congrArg₂ g (Fin.ext ?_) (Fin.ext ?_)
  · show (t.val * 4000 + (y 0).val) % 400000 = win0_5.index t (0 : Fin 2) * 4000 + 1 * (y 0).val
    rw [(idx_out t).1]; omega
  · show (y 1).val = win0_5.index t (1 : Fin 2) * 128 + 1 * (y 1).val
    rw [(idx_out t).2.1]; omega

/-- What point `t` writes back to the first result is block `t` of the two layers. -/
theorem h_flushed (c : Dev nD) (t : Fin cfg0.N) (hf : (cfg0.win 5).flush t = true) :
    (dat0 V c).flushed 5 t = ((cfg0.win 5).blk t).view.read (Elt Ideal) (fun i : S400000x128.Idx => hOf V c (i 0) (i 1)) :=
  h_flushed_of V (hOf V c) c t ((after0_5 V c t).trans (h_blk V c t))

/-- Row `r` of the first result lies in the block of point `r / 4000`: the blocks tile the rows. -/
theorem h_cover (i : S400000x128.Idx) :
    ∃ t : Fin cfg0.N, (cfg0.win 5).flush t = true ∧ i ∈ ((cfg0.win 5).blk t).view.set := by
  have hN : cfg0.N = 100 := N_0
  have h0 : (i 0 : Nat) < 400000 := (i 0).isLt
  have h1 : (i 1 : Nat) < 128 := (i 1).isLt
  obtain ⟨t, ht⟩ : ∃ t : Fin cfg0.N, t.val = (i 0).val / 4000 := ⟨⟨(i 0).val / 4000, by omega⟩, rfl⟩
  refine ⟨t, flush0_5 t, ?_⟩
  show i ∈ ((View.whole hRef).slice (win0_5.rect t)).set
  rw [View.set_slice_whole, Rect.mem_set_unit]
  intro a
  match a with
  | ⟨0, _⟩ =>
    show win0_5.index t (0 : Fin 2) * 4000 ≤ (i 0 : Nat) ∧ (i 0 : Nat) < win0_5.index t (0 : Fin 2) * 4000 + 4000
    rw [(idx_out t).1]; omega
  | ⟨1, _⟩ =>
    show win0_5.index t (1 : Fin 2) * 128 ≤ (i 1 : Nat) ∧ (i 1 : Nat) < win0_5.index t (1 : Fin 2) * 128 + 128
    rw [(idx_out t).2.1]; omega

/-- After the last point the block of sums holds the column sums over all 400000 rows: 100 blocks of 4000. -/
theorem sum_blk (c : Dev nD) (t : Fin cfg0.N) (hl : t.val + 1 = 100) :
    ((outsAt0 V c t.val t.isLt).2.1 : Vec Ideal S1x128 .f32) = fun y : S1x128.Idx => colSum (hOf V c) (y 1) := by
  funext y
  obtain ⟨u, j, rfl⟩ : ∃ (u : Fin 1) (j : Fin 128), y = ix2 u j := ⟨y 0, y 1, eq_ix2 y⟩
  obtain rfl : u = 0 := Subsingleton.elim _ _
  refine (sum_at V c t.val t.isLt j).trans ?_
  rw [hl]
  refine (Fin.sum_univ_eq_sum_range (fun t' => ∑ p : Fin 4000, hOf V c (rowAt t' p) j) 100).symm.trans ?_
  show _ = colSum (hOf V c) j
  unfold colSum
  rw [sum_by_blocks (T := 100) (R := 4000) (N := 400000) rfl]
  refine Finset.sum_congr rfl fun t' _ => Finset.sum_congr rfl fun p _ => ?_
  have e : rowAt t'.val p = blockRow (T := 100) (R := 4000) (N := 400000) rfl t' p := Fin.ext (by
    have ht := t'.isLt
    have hp := p.isLt
    show (t'.val * 4000 + p.val) % 400000 = t'.val * 4000 + p.val
    omega)
  rw [e]

/-- A one-row block that holds `g` of the column is, read through the window, the one-row array `g` of the column. -/
theorem sum_flushed_of (g : Fin 128 → EReal) (c : Dev nD) (t : Fin cfg0.N)
    (hb : (dat0 V c).after 6 t = fun y : S1x128.Idx => g (y 1)) :
    (dat0 V c).flushed 6 t = ((cfg0.win 6).blk t).view.read (Elt Ideal) (fun i : S1x128.Idx => g (i 1)) := by
  funext y
  show (dat0 V c).after 6 t ((cfg0.win 6).xinj (grid0.coords t) y) = _
  rw [hb, View.read_apply]
  show g _ = g _
  refine congrArg g (Fin.ext ?_)
  show (y 1).val = win0_6.index t (1 : Fin 2) * 128 + 1 * (y 1).val
  rw [(idx_out t).2.2.2.1]; omega

/-- What the last point writes back to the second result is the column sums over all rows. -/
theorem sum_flushed (c : Dev nD) (t : Fin cfg0.N) (hf : (cfg0.win 6).flush t = true) :
    (dat0 V c).flushed 6 t = ((cfg0.win 6).blk t).view.read (Elt Ideal) (fun i : S1x128.Idx => colSum (hOf V c) (i 1)) := by
  have hN : cfg0.N = 100 := N_0
  have hl : t.val + 1 = 100 := by have := (flush0_6 t).mp hf; have := t.isLt; omega
  exact sum_flushed_of V (colSum (hOf V c)) c t ((after0_6 V c t).trans (sum_blk V c t hl))

/-- The second result is the one block the last point writes. -/
theorem sum_cover (i : S1x128.Idx) :
    ∃ t : Fin cfg0.N, (cfg0.win 6).flush t = true ∧ i ∈ ((cfg0.win 6).blk t).view.set := by
  have hN : cfg0.N = 100 := N_0
  have h0 : (i 0 : Nat) < 1 := (i 0).isLt
  have h1 : (i 1 : Nat) < 128 := (i 1).isLt
  obtain ⟨t, ht⟩ : ∃ t : Fin cfg0.N, t.val + 1 = 100 := ⟨⟨100 - 1, by omega⟩, rfl⟩
  refine ⟨t, (flush0_6 t).mpr (by omega), ?_⟩
  show i ∈ ((View.whole sumRef).slice (win0_6.rect t)).set
  rw [View.set_slice_whole, Rect.mem_set_unit]
  intro a
  match a with
  | ⟨0, _⟩ =>
    show win0_6.index t (0 : Fin 2) * 1 ≤ (i 0 : Nat) ∧ (i 0 : Nat) < win0_6.index t (0 : Fin 2) * 1 + 1
    rw [(idx_out t).2.2.1]; omega
  | ⟨1, _⟩ =>
    show win0_6.index t (1 : Fin 2) * 128 ≤ (i 1 : Nat) ∧ (i 1 : Nat) < win0_6.index t (1 : Fin 2) * 128 + 128
    rw [(idx_out t).2.2.2.1]; omega

/-- After the last point the block of sums of squares holds the column sums of squares over all 400000 rows. -/
theorem sq_blk (c : Dev nD) (t : Fin cfg0.N) (hl : t.val + 1 = 100) :
    ((outsAt0 V c t.val t.isLt).2.2 : Vec Ideal S1x128 .f32) = fun y : S1x128.Idx => colSumSq (hOf V c) (y 1) := by
  funext y
  obtain ⟨u, j, rfl⟩ : ∃ (u : Fin 1) (j : Fin 128), y = ix2 u j := ⟨y 0, y 1, eq_ix2 y⟩
  obtain rfl : u = 0 := Subsingleton.elim _ _
  refine (sq_at V c t.val t.isLt j).trans ?_
  rw [hl]
  refine (Fin.sum_univ_eq_sum_range (fun t' => ∑ p : Fin 4000, hOf V c (rowAt t' p) j * hOf V c (rowAt t' p) j) 100).symm.trans ?_
  show _ = colSumSq (hOf V c) j
  unfold colSumSq
  rw [sum_by_blocks (T := 100) (R := 4000) (N := 400000) rfl]
  refine Finset.sum_congr rfl fun t' _ => Finset.sum_congr rfl fun p _ => ?_
  have e : rowAt t'.val p = blockRow (T := 100) (R := 4000) (N := 400000) rfl t' p := Fin.ext (by
    have ht := t'.isLt
    have hp := p.isLt
    show (t'.val * 4000 + p.val) % 400000 = t'.val * 4000 + p.val
    omega)
  rw [e]

/-- A one-row block that holds `g` of the column is, read through the window, the one-row array `g` of the column. -/
theorem sq_flushed_of (g : Fin 128 → EReal) (c : Dev nD) (t : Fin cfg0.N)
    (hb : (dat0 V c).after 7 t = fun y : S1x128.Idx => g (y 1)) :
    (dat0 V c).flushed 7 t = ((cfg0.win 7).blk t).view.read (Elt Ideal) (fun i : S1x128.Idx => g (i 1)) := by
  funext y
  show (dat0 V c).after 7 t ((cfg0.win 7).xinj (grid0.coords t) y) = _
  rw [hb, View.read_apply]
  show g _ = g _
  refine congrArg g (Fin.ext ?_)
  show (y 1).val = win0_7.index t (1 : Fin 2) * 128 + 1 * (y 1).val
  rw [(idx_out t).2.2.2.2.2]; omega

/-- What the last point writes back to the third result is the column sums of squares over all rows. -/
theorem sq_flushed (c : Dev nD) (t : Fin cfg0.N) (hf : (cfg0.win 7).flush t = true) :
    (dat0 V c).flushed 7 t = ((cfg0.win 7).blk t).view.read (Elt Ideal) (fun i : S1x128.Idx => colSumSq (hOf V c) (i 1)) := by
  have hN : cfg0.N = 100 := N_0
  have hl : t.val + 1 = 100 := by have := (flush0_7 t).mp hf; have := t.isLt; omega
  exact sq_flushed_of V (colSumSq (hOf V c)) c t ((after0_7 V c t).trans (sq_blk V c t hl))

/-- The third result is the one block the last point writes. -/
theorem sq_cover (i : S1x128.Idx) :
    ∃ t : Fin cfg0.N, (cfg0.win 7).flush t = true ∧ i ∈ ((cfg0.win 7).blk t).view.set := by
  have hN : cfg0.N = 100 := N_0
  have h0 : (i 0 : Nat) < 1 := (i 0).isLt
  have h1 : (i 1 : Nat) < 128 := (i 1).isLt
  obtain ⟨t, ht⟩ : ∃ t : Fin cfg0.N, t.val + 1 = 100 := ⟨⟨100 - 1, by omega⟩, rfl⟩
  refine ⟨t, (flush0_7 t).mpr (by omega), ?_⟩
  show i ∈ ((View.whole sqRef).slice (win0_7.rect t)).set
  rw [View.set_slice_whole, Rect.mem_set_unit]
  intro a
  match a with
  | ⟨0, _⟩ =>
    show win0_7.index t (0 : Fin 2) * 1 ≤ (i 0 : Nat) ∧ (i 0 : Nat) < win0_7.index t (0 : Fin 2) * 1 + 1
    rw [(idx_out t).2.2.2.2.1]; omega
  | ⟨1, _⟩ =>
    show win0_7.index t (1 : Fin 2) * 128 ≤ (i 1 : Nat) ∧ (i 1 : Nat) < win0_7.index t (1 : Fin 2) * 128 + 128
    rw [(idx_out t).2.2.2.2.2]; omega

end Arrays

/-- After the call its first result holds the two layers' output, -/
theorem arr_h (c : Dev nD) :
    (dat0 V c).arrAt 5 cfg0.N = (fun i : S400000x128.Idx => hOf V c (i 0) (i 1)) :=
  (dat0 V c).arrAt_eq_of_cover 5 _ (h_flushed V c) h_cover

/-- its second the column sums over all rows, -/
theorem arr_sum (c : Dev nD) :
    (dat0 V c).arrAt 6 cfg0.N = (fun i : S1x128.Idx => colSum (hOf V c) (i 1)) :=
  (dat0 V c).arrAt_eq_of_cover 6 _ (sum_flushed V c) sum_cover

/-- its third the column sums of squares. -/
theorem arr_sumsq (c : Dev nD) :
    (dat0 V c).arrAt 7 cfg0.N = (fun i : S1x128.Idx => colSumSq (hOf V c) (i 1)) :=
  (dat0 V c).arrAt_eq_of_cover 7 _ (sq_flushed V c) sq_cover

end Cert.KernelIdeal.Stats0

end
-- ==== Proof.Norm1.lean ====
/-
  The second call on the user type, read as mathematics. The call walks the [400000, 128] output of the two affine
  layers in 100 blocks of 4000 rows; with each block it is handed the whole one-row arrays of the columns' means,
  variances, scales and shifts. On a block it computes, entry by entry, `((h − μ) · rsqrt (v + ε)) · g + b` and then the
  leaky rectifier, and writes the block back to the same rows of its result.

  Proved here: the arithmetic of one block at row `p`, column `j` is the specification's `act` of the block's entry and
  of the four one-row operands at column `j` (`pay_apply`); block `t` of the input is rows `4000 t … 4000 t + 3999` of the
  layers' output and every block of a one-row operand is that operand (`hblk_apply`, `mean_apply`, `var_apply`,
  `scale_apply`, `shift_apply`); so what point `t` writes back is block `t` of ONE function of the arrays the call finds
  (`normFn`, `flushed_eq`); the 100 blocks cover the result, row `r` lying in block `r / 4000` (`mem_blk`, `cover`); hence
  the result array ends holding that function (`arr_out`).
-/
import proofs.«174799_j19353122636427_1_alg».proof.Proof.Gen.KernelIdeal.Frame
import proofs.«174799_j19353122636427_1_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Norm1

open Cert.KernelIdeal Cert.KernelIdeal.Gen Cert.Spec Idealize.ShloMosaic.ValueIdx

variable (V : (c : Dev nD) → (b : Ref sig .tc) → Buf (Elt Ideal) ((c : Thread nD τ).loc b))

/-- The arrays the second user-type call finds: the layers' output, and the column means, variances, scales and
    shifts as one-row matrices. -/
abbrev hArr (c : Dev nD) : S400000x128.Idx → EReal := V c (Pipeline.arrRef spec1 0)
abbrev meanArr (c : Dev nD) : S1x128.Idx → EReal := V c (Pipeline.arrRef spec1 1)
abbrev varArr (c : Dev nD) : S1x128.Idx → EReal := V c (Pipeline.arrRef spec1 2)
abbrev gArr (c : Dev nD) : S1x128.Idx → EReal := V c (Pipeline.arrRef spec1 3)
abbrev bArr (c : Dev nD) : S1x128.Idx → EReal := V c (Pipeline.arrRef spec1 4)

/-- The two zero offsets of a whole-block access, however they are spelt. -/
theorem hz : (![0, 0] : Fin 2 → Nat) = fun _ => 0 := funext fun a => by fin_cases a <;> rfl

/-- The body's arithmetic at row `p`, column `j` of a block: the entry less the column's mean, times the reciprocal
    root of the stabilized variance, scaled, shifted and rectified. Its operands come in the order block, variance,
    mean, scale, shift; the four one-row operands are read at row `0`. -/
theorem pay_apply (h : Vec Ideal S4000x128 .f32) (vr mu g b : Vec Ideal S1x128 .f32) (p : Fin 4000) (j : Fin 128) :
    k1_pay1 h vr mu g b (ix2 p j)
      = act (h (ix2 p j)) (mu (ix2 0 j)) (vr (ix2 0 j)) (g (ix2 0 j)) (b (ix2 0 j)) := by
  unfold k1_pay1 act eps Cert.Spec.slope zero32
  simp only [shapeCast_self]
  rw [select_apply, cmpf_apply, mulf_apply, addf_apply, mulf_apply, mulf_apply, subf_apply, broadcast_apply, broadcast_apply]
  rw [broadcastTo_1b_ab_apply mu _ p j, broadcastTo_1b_ab_apply g _ p j, broadcastTo_1b_ab_apply b _ p j,
    broadcastTo_1b_ab_apply _ _ p j]
  rfl

/-- The windows' index maps over the grid: at point `t` the row-block windows (the input and the result) sit at
    block `(t, 0)`, the four one-row windows at block `(0, 0)`. -/
theorem idx_facts : ∀ t : Fin cfg1.N,
    win1_0.index t (0 : Fin 2) = t.val ∧ win1_0.index t (1 : Fin 2) = 0
    ∧ win1_5.index t (0 : Fin 2) = t.val ∧ win1_5.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0 :=
  (by decide +kernel : ∀ t : Fin grid1.N, _)

/-- The input block at point `t` holds rows `4000 t … 4000 t + 3999` of the layers' output. -/
theorem hblk_apply (c : Dev nD) (t : Fin cfg1.N) (p : Fin 4000) (j : Fin 128) (r : Fin 400000)
    (hr : r.val = 4000 * t.val + p.val) :
    (iblk1 V c 0 t : Vec Ideal S4000x128 .f32) (ix2 p j) = hArr V c (ix2 r j) := by
  obtain ⟨e0, e1, -⟩ := idx_facts t
  unfold iblk1
  rw [View.read_apply]
  show V c (Pipeline.arrRef spec1 0) _ = V c (Pipeline.arrRef spec1 0) _
  refine congrArg (V c (Pipeline.arrRef spec1 0)) (funext fun a => Fin.ext ?_)
  match a with
  | ⟨0, _⟩ => show win1_0.index t (0 : Fin 2) * 4000 + 1 * p.val = r.val; rw [e0, hr]; omega
  | ⟨1, _⟩ => show win1_0.index t (1 : Fin 2) * 128 + 1 * j.val = j.val; rw [e1]; omega

/-- The mean's block at every point is the whole one-row array. -/
theorem mean_apply (c : Dev nD) (t : Fin cfg1.N) (j : Fin 128) :
    (iblk1 V c 1 t : Vec Ideal S1x128 .f32) (ix2 0 j) = meanArr V c (ix2 0 j) := by
  obtain ⟨-, -, -, -, e0, e1, -⟩ := idx_facts t
  unfold iblk1
  rw [View.read_apply]
  show V c (Pipeline.arrRef spec1 1) _ = V c (Pipeline.arrRef spec1 1) _
  refine congrArg (V c (Pipeline.arrRef spec1 1)) (funext fun a => Fin.ext ?_)
  match a with
  | ⟨0, _⟩ => show win1_1.index t (0 : Fin 2) * 1 + 1 * 0 = 0; rw [e0]
  | ⟨1, _⟩ => show win1_1.index t (1 : Fin 2) * 128 + 1 * j.val = j.val; rw [e1]; omega

/-- The variance's block at every point is the whole one-row array. -/
theorem var_apply (c : Dev nD) (t : Fin cfg1.N) (j : Fin 128) :
    (iblk1 V c 2 t : Vec Ideal S1x128 .f32) (ix2 0 j) = varArr V c (ix2 0 j) := by
  obtain ⟨-, -, -, -, -, -, e0, e1, -⟩ := idx_facts t
  unfold iblk1
  rw [View.read_apply]
  show V c (Pipeline.arrRef spec1 2) _ = V c (Pipeline.arrRef spec1 2) _
  refine congrArg (V c (Pipeline.arrRef spec1 2)) (funext fun a => Fin.ext ?_)
  match a with
  | ⟨0, _⟩ => show win1_2.index t (0 : Fin 2) * 1 + 1 * 0 = 0; rw [e0]
  | ⟨1, _⟩ => show win1_2.index t (1 : Fin 2) * 128 + 1 * j.val = j.val; rw [e1]; omega

/-- The scale's block at every point is the whole one-row array. -/
theorem scale_apply (c : Dev nD) (t : Fin cfg1.N) (j : Fin 128) :
    (iblk1 V c 3 t : Vec Ideal S1x128 .f32) (ix2 0 j) = gArr V c (ix2 0 j) := by
  obtain ⟨-, -, -, -, -, -, -, -, e0, e1, -⟩ := idx_facts t
  unfold iblk1
  rw [View.read_apply]
  show V c (Pipeline.arrRef spec1 3) _ = V c (Pipeline.arrRef spec1 3) _
  refine congrArg (V c (Pipeline.arrRef spec1 3)) (funext fun a => Fin.ext ?_)
  match a with
  | ⟨0, _⟩ => show win1_3.index t (0 : Fin 2) * 1 + 1 * 0 = 0; rw [e0]
  | ⟨1, _⟩ => show win1_3.index t (1 : Fin 2) * 128 + 1 * j.val = j.val; rw [e1]; omega

/-- The shift's block at every point is the whole one-row array. -/
theorem shift_apply (c : Dev nD) (t : Fin cfg1.N) (j : Fin 128) :
    (iblk1 V c 4 t : Vec Ideal S1x128 .f32) (ix2 0 j) = bArr V c (ix2 0 j) := by
  obtain ⟨-, -, -, -, -, -, -, -, -, -, e0, e1⟩ := idx_facts t
  unfold iblk1
  rw [View.read_apply]
  show V c (Pipeline.arrRef spec1 4) _ = V c (Pipeline.arrRef spec1 4) _
  refine congrArg (V c (Pipeline.arrRef spec1 4)) (funext fun a => Fin.ext ?_)
  match a with
  | ⟨0, _⟩ => show win1_4.index t (0 : Fin 2) * 1 + 1 * 0 = 0; rw [e0]
  | ⟨1, _⟩ => show win1_4.index t (1 : Fin 2) * 128 + 1 * j.val = j.val; rw [e1]; omega

/-- The whole result as one function of the arrays the call finds: entry `(r, j)` is the layers' output there
    normalized by column `j`'s statistics, scaled, shifted and rectified. -/
abbrev normFn (c : Dev nD) : S400000x128.Idx → EReal := fun i =>
  act (hArr V c (ix2 (i 0) (i 1))) (meanArr V c (ix2 0 (i 1))) (varArr V c (ix2 0 (i 1))) (gArr V c (ix2 0 (i 1)))
    (bArr V c (ix2 0 (i 1)))

/-- What point `t` writes back is block `t` of that function. -/
theorem flushed_eq (c : Dev nD) (t : Fin cfg1.N) :
    (dat1 V c).flushed 5 t = ((cfg1.win 5).blk t).view.read (Elt Ideal) (normFn V c) := by
  have hN : cfg1.N = 100 := N_1
  have ht : t.val < 100 := hN ▸ t.isLt
  obtain ⟨-, -, e0, e1, -⟩ := idx_facts t
  show (cfg1.win 5).cut (grid1.coords t) ((dat1 V c).after 5 t) = _
  rw [after1_5]
  unfold out1_5
  rw [View.canon_unit_zero hz]
  simp only [View.ld_unit_zero (S := S4000x128) hz, View.ld_unit_zero (S := S1x128) hz]
  funext y
  obtain ⟨p, j, rfl⟩ : ∃ (p : Fin 4000) (j : Fin 128), y = ix2 p j := ⟨y 0, y 1, eq_ix2 y⟩
  have hp : p.val < 4000 := p.isLt
  refine (pay_apply _ _ _ _ _ p j).trans ?_
  rw [hblk_apply V c t p j ⟨4000 * t.val + p.val, by omega⟩ rfl, mean_apply V c t j, var_apply V c t j,
    scale_apply V c t j, shift_apply V c t j]
  have he : ((cfg1.win 5).blk t).view.emb (ix2 p j) = ix2 (⟨4000 * t.val + p.val, by omega⟩ : Fin 400000) j :=
    funext fun a => Fin.ext (by
      match a with
      | ⟨0, _⟩ => show win1_5.index t (0 : Fin 2) * 4000 + 1 * p.val = 4000 * t.val + p.val; rw [e0]; omega
      | ⟨1, _⟩ => show win1_5.index t (1 : Fin 2) * 128 + 1 * j.val = j.val; rw [e1]; omega)
  show _ = normFn V c (((cfg1.win 5).blk t).view.emb (ix2 p j))
  rw [he]

/-- An index of the result is in point `t`'s block iff each coordinate is in the block's range on its axis. -/
theorem mem_blk (t : Fin cfg1.N) (i : S400000x128.Idx) :
    i ∈ ((cfg1.win 5).blk t).view.set ↔ ∀ a : Fin 2, win1_5.index t a * S4000x128.size a ≤ (i a).val
      ∧ (i a).val < win1_5.index t a * S4000x128.size a + S4000x128.size a := by
  show i ∈ ((View.whole main_v11).slice (win1_5.rect t)).set ↔ _
  rw [View.set_slice_whole, Rect.mem_set_unit]
  exact Iff.rfl

/-- Every entry of the result is written back by some point: row `r` by point `r / 4000`. -/
theorem cover (i : S400000x128.Idx) :
    ∃ t : Fin cfg1.N, (cfg1.win 5).flush t = true ∧ i ∈ ((cfg1.win 5).blk t).view.set := by
  have hN : cfg1.N = 100 := N_1
  have hi0 : (i 0).val < 400000 := (i 0).isLt
  have hi1 : (i 1).val < 128 := (i 1).isLt
  obtain ⟨t, ht⟩ : ∃ t : Fin cfg1.N, t.val = (i 0).val / 4000 := ⟨⟨(i 0).val / 4000, by rw [hN]; omega⟩, rfl⟩
  obtain ⟨-, -, e0, e1, -⟩ := idx_facts t
  refine ⟨t, flush1_5 t, ?_⟩
  rw [mem_blk]
  intro a
  match a with
  | ⟨0, _⟩ =>
    show win1_5.index t (0 : Fin 2) * 4000 ≤ (i 0).val ∧ (i 0).val < win1_5.index t (0 : Fin 2) * 4000 + 4000
    rw [e0, ht]; omega
  | ⟨1, _⟩ =>
    show win1_5.index t (1 : Fin 2) * 128 ≤ (i 1).val ∧ (i 1).val < win1_5.index t (1 : Fin 2) * 128 + 128
    rw [e1]; omega

/-- After the call its result holds every entry normalized by its column's statistics, scaled, shifted and rectified. -/
theorem arr_out (c : Dev nD) :
    (dat1 V c).arrAt 5 cfg1.N = (fun i : S400000x128.Idx =>
      act (hArr V c (ix2 (i 0) (i 1))) (meanArr V c (ix2 0 (i 1))) (varArr V c (ix2 0 (i 1))) (gArr V c (ix2 0 (i 1)))
        (bArr V c (ix2 0 (i 1)))) :=
  (dat1 V c).arrAt_eq_of_cover 5 (normFn V c) (fun t _ => flushed_eq V c t) cover

end Cert.KernelIdeal.Norm1

end
-- ==== Proof.Stats2a.lean ====
/-
  What one run of the item type's first kernel body leaves in its three result blocks, as functions of the blocks it
  finds. The body stores the two affine layers of the features' block into the first result's block; it adds the
  block's column sums to the second result's block and the column sums of squares to the third's. At the first grid
  point both running blocks are first reset to zero; at every later point they are read as the point before left them.
  Each statement holds for any float values.
-/
import proofs.«174799_j19353122636427_1_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem

namespace Cert.KernelIdeal.Stats2

open Cert.KernelIdeal Cert.KernelIdeal.Gen

variable {F : FTy → Type} [FloatOps F]

/-- The zero offsets of a whole-block access, however they are spelt. -/
theorem hz : (![0, 0] : Fin 2 → Nat) = fun _ => 0 := funext fun a => by fin_cases a <;> rfl

/-- Away from the first point the block of the first result is the two layers' payload of the input blocks. -/
theorem piece_B_5 (c : Dev nD) (i : grid2.Coords) (a1 : Memref sig .tc .vmem S5000x128 .f32) (h1 : a1.IsWhole) (a2 : Memref sig .tc .vmem S128x256 .f32) (h2 : a2.IsWhole) (a3 : Memref sig .tc .vmem S1x256 .f32) (h3 : a3.IsWhole) (a4 : Memref sig .tc .vmem S256x128 .f32) (h4 : a4.IsWhole) (a5 : Memref sig .tc .vmem S1x128 .f32) (h5 : a5.IsWhole) (a6 : Memref sig .tc .vmem S5000x128 .f32) (h6 : a6.IsWhole) (a7 : Memref sig .tc .vmem S1x128 .f32) (h7 : a7.IsWhole) (a8 : Memref sig .tc .vmem S1x128 .f32) (h8 : a8.IsWhole) (hc : ¬cond2_0 i) (x0 : Vec F S5000x128 .f32) (x1 : Vec F S128x256 .f32) (x2 : Vec F S1x256 .f32) (x3 : Vec F S256x128 .f32) (x4 : Vec F S1x128 .f32) (xo6 xo7 : Vec F S1x128 .f32) :
    out2_B_5 c i a1 h1 a2 h2 a3 h3 a4 h4 a5 h5 a6 h6 a7 h7 a8 h8 hc x0 x1 x2 x3 x4 xo6 xo7 = k2_pay2 x0 x1 x2 x3 x4 := by
  unfold out2_B_5
  rw [View.read_writes_eq_canon _ _ _ (cover2_B_5 c i a1 h1 a2 h2 a3 h3 a4 h4 a5 h5 a6 h6 a7 h7 a8 h8 hc x0 x1 x2 x3 x4 xo6 xo7)]
  unfold kernelRun2_B
  dsimp only
  sl_unfold_words
  rw [View.canon_unit_zero hz]
  simp only [View.readAt_eq_ld, h1.read_unread, h2.read_unread, h3.read_unread, h4.read_unread, h5.read_unread,
    View.ld_unit_zero (S := S5000x128) hz, View.ld_unit_zero (S := S128x256) hz, View.ld_unit_zero (S := S1x256) hz,
    View.ld_unit_zero (S := S256x128) hz, View.ld_unit_zero (S := S1x128) hz]

/-- Away from the first point the running column sums are what the point before left plus this block's column sums. -/
theorem piece_B_6 (c : Dev nD) (i : grid2.Coords) (a1 : Memref sig .tc .vmem S5000x128 .f32) (h1 : a1.IsWhole) (a2 : Memref sig .tc .vmem S128x256 .f32) (h2 : a2.IsWhole) (a3 : Memref sig .tc .vmem S1x256 .f32) (h3 : a3.IsWhole) (a4 : Memref sig .tc .vmem S256x128 .f32) (h4 : a4.IsWhole) (a5 : Memref sig .tc .vmem S1x128 .f32) (h5 : a5.IsWhole) (a6 : Memref sig .tc .vmem S5000x128 .f32) (h6 : a6.IsWhole) (a7 : Memref sig .tc .vmem S1x128 .f32) (h7 : a7.IsWhole) (a8 : Memref sig .tc .vmem S1x128 .f32) (h8 : a8.IsWhole) (hc : ¬cond2_0 i) (x0 : Vec F S5000x128 .f32) (x1 : Vec F S128x256 .f32) (x2 : Vec F S1x256 .f32) (x3 : Vec F S256x128 .f32) (x4 : Vec F S1x128 .f32) (xo6 xo7 : Vec F S1x128 .f32) :
    out2_B_6 c i a1 h1 a2 h2 a3 h3 a4 h4 a5 h5 a6 h6 a7 h7 a8 h8 hc x0 x1 x2 x3 x4 xo6 xo7 = k2_pay5 x0 x1 x2 x3 x4 xo6 := by
  unfold out2_B_6
  rw [View.read_writes_eq_canon _ _ _ (cover2_B_6 c i a1 h1 a2 h2 a3 h3 a4 h4 a5 h5 a6 h6 a7 h7 a8 h8 hc x0 x1 x2 x3 x4 xo6 xo7)]
  unfold kernelRun2_B
  dsimp only
  sl_unfold_words
  rw [View.canon_unit_zero hz]
  simp only [View.readAt_eq_ld, h1.read_unread, h2.read_unread, h3.read_unread, h4.read_unread, h5.read_unread,
    h7.read_unread, h8.read_unread,
    View.ld_unit_zero (S := S5000x128) hz, View.ld_unit_zero (S := S128x256) hz, View.ld_unit_zero (S := S1x256) hz,
    View.ld_unit_zero (S := S256x128) hz, View.ld_unit_zero (S := S1x128) hz]

/-- Away from the first point the running column sums of squares likewise. -/
theorem piece_B_7 (c : Dev nD) (i : grid2.Coords) (a1 : Memref sig .tc .vmem S5000x128 .f32) (h1 : a1.IsWhole) (a2 : Memref sig .tc .vmem S128x256 .f32) (h2 : a2.IsWhole) (a3 : Memref sig .tc .vmem S1x256 .f32) (h3 : a3.IsWhole) (a4 : Memref sig .tc .vmem S256x128 .f32) (h4 : a4.IsWhole) (a5 : Memref sig .tc .vmem S1x128 .f32) (h5 : a5.IsWhole) (a6 : Memref sig .tc .vmem S5000x128 .f32) (h6 : a6.IsWhole) (a7 : Memref sig .tc .vmem S1x128 .f32) (h7 : a7.IsWhole) (a8 : Memref sig .tc .vmem S1x128 .f32) (h8 : a8.IsWhole) (hc : ¬cond2_0 i) (x0 : Vec F S5000x128 .f32) (x1 : Vec F S128x256 .f32) (x2 : Vec F S1x256 .f32) (x3 : Vec F S256x128 .f32) (x4 : Vec F S1x128 .f32) (xo6 xo7 : Vec F S1x128 .f32) :
    out2_B_7 c i a1 h1 a2 h2 a3 h3 a4 h4 a5 h5 a6 h6 a7 h7 a8 h8 hc x0 x1 x2 x3 x4 xo6 xo7 = k2_pay1 (k2_pay6 xo7) (k2_pay7 x0 x1 x2 x3 x4) := by
  unfold out2_B_7
  rw [View.read_writes_eq_canon _ _ _ (cover2_B_7 c i a1 h1 a2 h2 a3 h3 a4 h4 a5 h5 a6 h6 a7 h7 a8 h8 hc x0 x1 x2 x3 x4 xo6 xo7)]
  unfold kernelRun2_B
  dsimp only
  sl_unfold_words
  rw [View.canon_unit_zero hz]
  simp only [View.readAt_eq_ld, h1.read_unread, h2.read_unread, h3.read_unread, h4.read_unread, h5.read_unread,
    h7.read_unread, h8.read_unread,
    View.ld_unit_zero (S := S5000x128) hz, View.ld_unit_zero (S := S128x256) hz, View.ld_unit_zero (S := S1x256) hz,
    View.ld_unit_zero (S := S256x128) hz, View.ld_unit_zero (S := S1x128) hz]

/-- At the first point the block of the first result is the same payload. -/
theorem piece_A_5 (c : Dev nD) (i : grid2.Coords) (a1 : Memref sig .tc .vmem S5000x128 .f32) (h1 : a1.IsWhole) (a2 : Memref sig .tc .vmem S128x256 .f32) (h2 : a2.IsWhole) (a3 : Memref sig .tc .vmem S1x256 .f32) (h3 : a3.IsWhole) (a4 : Memref sig .tc .vmem S256x128 .f32) (h4 : a4.IsWhole) (a5 : Memref sig .tc .vmem S1x128 .f32) (h5 : a5.IsWhole) (a6 : Memref sig .tc .vmem S5000x128 .f32) (h6 : a6.IsWhole) (a7 : Memref sig .tc .vmem S1x128 .f32) (h7 : a7.IsWhole) (a8 : Memref sig .tc .vmem S1x128 .f32) (h8 : a8.IsWhole) (hc : cond2_0 i) (x0 : Vec F S5000x128 .f32) (x1 : Vec F S128x256 .f32) (x2 : Vec F S1x256 .f32) (x3 : Vec F S256x128 .f32) (x4 : Vec F S1x128 .f32) :
    out2_A_5 c i a1 h1 a2 h2 a3 h3 a4 h4 a5 h5 a6 h6 a7 h7 a8 h8 hc x0 x1 x2 x3 x4 = k2_pay2 x0 x1 x2 x3 x4 := by
  unfold out2_A_5
  rw [View.read_writes_eq_canon _ _ _ (cover2_A_5 c i a1 h1 a2 h2 a3 h3 a4 h4 a5 h5 a6 h6 a7 h7 a8 h8 hc x0 x1 x2 x3 x4)]
  unfold kernelRun2_A
  dsimp only
  sl_unfold_words
  rw [View.canon_unit_zero hz]
  simp only [View.readAt_eq_ld, h1.read_unread, h2.read_unread, h3.read_unread, h4.read_unread, h5.read_unread,
    View.ld_unit_zero (S := S5000x128) hz, View.ld_unit_zero (S := S128x256) hz, View.ld_unit_zero (S := S1x256) hz,
    View.ld_unit_zero (S := S256x128) hz, View.ld_unit_zero (S := S1x128) hz]

/-- At the first point the running column sums are reset to the zero block, then this block's column sums are added. -/
theorem piece_A_6 (c : Dev nD) (i : grid2.Coords) (a1 : Memref sig .tc .vmem S5000x128 .f32) (h1 : a1.IsWhole) (a2 : Memref sig .tc .vmem S128x256 .f32) (h2 : a2.IsWhole) (a3 : Memref sig .tc .vmem S1x256 .f32) (h3 : a3.IsWhole) (a4 : Memref sig .tc .vmem S256x128 .f32) (h4 : a4.IsWhole) (a5 : Memref sig .tc .vmem S1x128 .f32) (h5 : a5.IsWhole) (a6 : Memref sig .tc .vmem S5000x128 .f32) (h6 : a6.IsWhole) (a7 : Memref sig .tc .vmem S1x128 .f32) (h7 : a7.IsWhole) (a8 : Memref sig .tc .vmem S1x128 .f32) (h8 : a8.IsWhole) (hc : cond2_0 i) (x0 : Vec F S5000x128 .f32) (x1 : Vec F S128x256 .f32) (x2 : Vec F S1x256 .f32) (x3 : Vec F S256x128 .f32) (x4 : Vec F S1x128 .f32) :
    out2_A_6 c i a1 h1 a2 h2 a3 h3 a4 h4 a5 h5 a6 h6 a7 h7 a8 h8 hc x0 x1 x2 x3 x4 = k2_pay5 x0 x1 x2 x3 x4 (k2_pay3 (F := F)) := by
  unfold out2_A_6
  rw [View.read_writes_eq_canon _ _ _ (cover2_A_6 c i a1 h1 a2 h2 a3 h3 a4 h4 a5 h5 a6 h6 a7 h7 a8 h8 hc x0 x1 x2 x3 x4)]
  unfold kernelRun2_A
  dsimp only
  sl_unfold_words
  rw [View.canon_cons_unit_zero (S := S1x128) hz]
  simp only [View.readAt_eq_ld, h1.read_unread, h2.read_unread, h3.read_unread, h4.read_unread, h5.read_unread,
    View.readCov_unit_zero (S := S1x128) _ hz,
    View.ld_unit_zero (S := S5000x128) hz, View.ld_unit_zero (S := S128x256) hz, View.ld_unit_zero (S := S1x256) hz,
    View.ld_unit_zero (S := S256x128) hz, View.ld_unit_zero (S := S1x128) hz]

/-- At the first point the running column sums of squares likewise. -/
theorem piece_A_7 (c : Dev nD) (i : grid2.Coords) (a1 : Memref sig .tc .vmem S5000x128 .f32) (h1 : a1.IsWhole) (a2 : Memref sig .tc .vmem S128x256 .f32) (h2 : a2.IsWhole) (a3 : Memref sig .tc .vmem S1x256 .f32) (h3 : a3.IsWhole) (a4 : Memref sig .tc .vmem S256x128 .f32) (h4 : a4.IsWhole) (a5 : Memref sig .tc .vmem S1x128 .f32) (h5 : a5.IsWhole) (a6 : Memref sig .tc .vmem S5000x128 .f32) (h6 : a6.IsWhole) (a7 : Memref sig .tc .vmem S1x128 .f32) (h7 : a7.IsWhole) (a8 : Memref sig .tc .vmem S1x128 .f32) (h8 : a8.IsWhole) (hc : cond2_0 i) (x0 : Vec F S5000x128 .f32) (x1 : Vec F S128x256 .f32) (x2 : Vec F S1x256 .f32) (x3 : Vec F S256x128 .f32) (x4 : Vec F S1x128 .f32) :
    out2_A_7 c i a1 h1 a2 h2 a3 h3 a4 h4 a5 h5 a6 h6 a7 h7 a8 h8 hc x0 x1 x2 x3 x4 = k2_pay1 (k2_pay6 (k2_pay4 (F := F))) (k2_pay7 x0 x1 x2 x3 x4) := by
  unfold out2_A_7
  rw [View.read_writes_eq_canon _ _ _ (cover2_A_7 c i a1 h1 a2 h2 a3 h3 a4 h4 a5 h5 a6 h6 a7 h7 a8 h8 hc x0 x1 x2 x3 x4)]
  unfold kernelRun2_A
  dsimp only
  sl_unfold_words
  rw [View.canon_cons_unit_zero (S := S1x128) hz]
  simp only [View.readAt_eq_ld, h1.read_unread, h2.read_unread, h3.read_unread, h4.read_unread, h5.read_unread,
    View.readCov_unit_zero (S := S1x128) _ hz,
    View.ld_unit_zero (S := S5000x128) hz, View.ld_unit_zero (S := S128x256) hz, View.ld_unit_zero (S := S1x256) hz,
    View.ld_unit_zero (S := S256x128) hz, View.ld_unit_zero (S := S1x128) hz]

end Cert.KernelIdeal.Stats2

end
-- ==== Proof.Stats2b.lean ====
/-
  The body's arithmetic read entry by entry over the extended reals. A matrix product into a zero accumulator is, at
  row `p` and column `k`, the sum over the contraction coordinate of the products; a one-row bias broadcast down the
  rows reads its one row; rounding to a narrower format is the identity on the extended reals. So the block's payload
  at `(p, j)` is the two affine layers `(∑ₖ (∑_d x p d · W₁ d k + b₁ k) · W₂ k j) + b₂ j`; the second result's update at
  column `j` is what was there plus the sum of that over the block's rows; the third's is what was there plus the sum
  of its squares; the reset blocks are zero.
-/
import proofs.«174799_j19353122636427_1_alg».proof.Proof.Gen.KernelIdeal.Skeleton
import proofs.«174799_j19353122636427_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem

namespace Cert.KernelIdeal.Stats2

open Cert.KernelIdeal Cert.KernelIdeal.Gen Cert.Spec Idealize.ShloMosaic.ValueIdx

/-- The first product's operand indices, axis by axis: the left operand is read at (row, contraction index), the right at
    (contraction index, column). -/
theorem first_lhs_0 (i : S5000x256.Idx) (q : dot_S5000x128_S128x256_S5000x256_1_0_0_1_n_n.contr.Idx) :
    (dot_S5000x128_S128x256_S5000x256_1_0_0_1_n_n.lhsIdx i q 0).val = (i 0).val := by
  unfold DotDims.lhsIdx
  rw [dif_neg (show ¬(0 : Fin S5000x128.rank) ∈ dot_S5000x128_S128x256_S5000x256_1_0_0_1_n_n.lhsBatch by decide), dif_pos (show (0 : Fin S5000x128.rank) ∈ dot_S5000x128_S128x256_S5000x256_1_0_0_1_n_n.lhsNonContracting by decide)]
  rfl
theorem first_lhs_1 (i : S5000x256.Idx) (q : dot_S5000x128_S128x256_S5000x256_1_0_0_1_n_n.contr.Idx) :
    (dot_S5000x128_S128x256_S5000x256_1_0_0_1_n_n.lhsIdx i q 1).val = (q ⟨0, by decide⟩).val :=
  dot_S5000x128_S128x256_S5000x256_1_0_0_1_n_n.lhsIdx_val_of_single rfl i q
theorem first_rhs_0 (i : S5000x256.Idx) (q : dot_S5000x128_S128x256_S5000x256_1_0_0_1_n_n.contr.Idx) :
    (dot_S5000x128_S128x256_S5000x256_1_0_0_1_n_n.rhsIdx i q 0).val = (q ⟨0, by decide⟩).val :=
  dot_S5000x128_S128x256_S5000x256_1_0_0_1_n_n.rhsIdx_val_of_single rfl i q
theorem first_rhs_1 (i : S5000x256.Idx) (q : dot_S5000x128_S128x256_S5000x256_1_0_0_1_n_n.contr.Idx) :
    (dot_S5000x128_S128x256_S5000x256_1_0_0_1_n_n.rhsIdx i q 1).val = (i 1).val := by
  unfold DotDims.rhsIdx
  rw [dif_neg (show ¬(1 : Fin S128x256.rank) ∈ dot_S5000x128_S128x256_S5000x256_1_0_0_1_n_n.rhsBatch by decide), dif_pos (show (1 : Fin S128x256.rank) ∈ dot_S5000x128_S128x256_S5000x256_1_0_0_1_n_n.rhsNonContracting by decide)]
  rfl

/-- The first product into a zero accumulator, at row `p` and column `k`: the sum over the 128 contraction
    coordinates of left (p, d) times right (d, k). -/
theorem first_apply {φ₁ φ₂ : FTy} (l : FVec Ideal S5000x128 φ₁) (r : FVec Ideal S128x256 φ₂) (p : Fin 5000) (k : Fin 256) :
    matmul dot_S5000x128_S128x256_S5000x256_1_0_0_1_n_n none l r (constant (F := Ideal) S5000x256 .f32 0x00000000#32) (ix2 p k)
      = ∑ d : Fin 128, l (ix2 p d) * r (ix2 d k) := by
  simp only [matmul]
  rw [Ideal.matmul_constant_zero_apply, ← Equiv.sum_comp (contrEquiv1 dot_S5000x128_S128x256_S5000x256_1_0_0_1_n_n 128 rfl rfl).symm]
  refine Finset.sum_congr rfl fun d _ => ?_
  have hk := contrEquiv1_symm_val dot_S5000x128_S128x256_S5000x256_1_0_0_1_n_n 128 rfl rfl d
  have el : dot_S5000x128_S128x256_S5000x256_1_0_0_1_n_n.lhsIdx (ix2 p k) ((contrEquiv1 dot_S5000x128_S128x256_S5000x256_1_0_0_1_n_n 128 rfl rfl).symm d) = ix2 p d := funext fun a => Fin.ext (by
    match a with
    | ⟨0, _⟩ => exact first_lhs_0 _ _
    | ⟨1, _⟩ => exact (first_lhs_1 _ _).trans hk)
  have er : dot_S5000x128_S128x256_S5000x256_1_0_0_1_n_n.rhsIdx (ix2 p k) ((contrEquiv1 dot_S5000x128_S128x256_S5000x256_1_0_0_1_n_n 128 rfl rfl).symm d) = ix2 d k := funext fun a => Fin.ext (by
    match a with
    | ⟨0, _⟩ => exact (first_rhs_0 _ _).trans hk
    | ⟨1, _⟩ => exact first_rhs_1 _ _)
  rw [el, er]

/-- The second product's operand indices, axis by axis: the left operand is read at (row, contraction index), the right at
    (contraction index, column). -/
theorem second_lhs_0 (i : S5000x128.Idx) (q : dot_S5000x256_S256x128_S5000x128_1_0_0_1_n_n.contr.Idx) :
    (dot_S5000x256_S256x128_S5000x128_1_0_0_1_n_n.lhsIdx i q 0).val = (i 0).val := by
  unfold DotDims.lhsIdx
  rw [dif_neg (show ¬(0 : Fin S5000x256.rank) ∈ dot_S5000x256_S256x128_S5000x128_1_0_0_1_n_n.lhsBatch by decide), dif_pos (show (0 : Fin S5000x256.rank) ∈ dot_S5000x256_S256x128_S5000x128_1_0_0_1_n_n.lhsNonContracting by decide)]
  rfl
theorem second_lhs_1 (i : S5000x128.Idx) (q : dot_S5000x256_S256x128_S5000x128_1_0_0_1_n_n.contr.Idx) :
    (dot_S5000x256_S256x128_S5000x128_1_0_0_1_n_n.lhsIdx i q 1).val = (q ⟨0, by decide⟩).val :=
  dot_S5000x256_S256x128_S5000x128_1_0_0_1_n_n.lhsIdx_val_of_single rfl i q
theorem second_rhs_0 (i : S5000x128.Idx) (q : dot_S5000x256_S256x128_S5000x128_1_0_0_1_n_n.contr.Idx) :
    (dot_S5000x256_S256x128_S5000x128_1_0_0_1_n_n.rhsIdx i q 0).val = (q ⟨0, by decide⟩).val :=
  dot_S5000x256_S256x128_S5000x128_1_0_0_1_n_n.rhsIdx_val_of_single rfl i q
theorem second_rhs_1 (i : S5000x128.Idx) (q : dot_S5000x256_S256x128_S5000x128_1_0_0_1_n_n.contr.Idx) :
    (dot_S5000x256_S256x128_S5000x128_1_0_0_1_n_n.rhsIdx i q 1).val = (i 1).val := by
  unfold DotDims.rhsIdx
  rw [dif_neg (show ¬(1 : Fin S256x128.rank) ∈ dot_S5000x256_S256x128_S5000x128_1_0_0_1_n_n.rhsBatch by decide), dif_pos (show (1 : Fin S256x128.rank) ∈ dot_S5000x256_S256x128_S5000x128_1_0_0_1_n_n.rhsNonContracting by decide)]
  rfl

/-- The second product into a zero accumulator, at row `p` and column `k`: the sum over the 256 contraction
    coordinates of left (p, d) times right (d, k). -/
theorem second_apply {φ₁ φ₂ : FTy} (l : FVec Ideal S5000x256 φ₁) (r : FVec Ideal S256x128 φ₂) (p : Fin 5000) (k : Fin 128) :
    matmul dot_S5000x256_S256x128_S5000x128_1_0_0_1_n_n none l r (constant (F := Ideal) S5000x128 .f32 0x00000000#32) (ix2 p k)
      = ∑ d : Fin 256, l (ix2 p d) * r (ix2 d k) := by
  simp only [matmul]
  rw [Ideal.matmul_constant_zero_apply, ← Equiv.sum_comp (contrEquiv1 dot_S5000x256_S256x128_S5000x128_1_0_0_1_n_n 256 rfl rfl).symm]
  refine Finset.sum_congr rfl fun d _ => ?_
  have hk := contrEquiv1_symm_val dot_S5000x256_S256x128_S5000x128_1_0_0_1_n_n 256 rfl rfl d
  have el : dot_S5000x256_S256x128_S5000x128_1_0_0_1_n_n.lhsIdx (ix2 p k) ((contrEquiv1 dot_S5000x256_S256x128_S5000x128_1_0_0_1_n_n 256 rfl rfl).symm d) = ix2 p d := funext fun a => Fin.ext (by
    match a with
    | ⟨0, _⟩ => exact second_lhs_0 _ _
    | ⟨1, _⟩ => exact (second_lhs_1 _ _).trans hk)
  have er : dot_S5000x256_S256x128_S5000x128_1_0_0_1_n_n.rhsIdx (ix2 p k) ((contrEquiv1 dot_S5000x256_S256x128_S5000x128_1_0_0_1_n_n 256 rfl rfl).symm d) = ix2 d k := funext fun a => Fin.ext (by
    match a with
    | ⟨0, _⟩ => exact (second_rhs_0 _ _).trans hk
    | ⟨1, _⟩ => exact second_rhs_1 _ _)
  rw [el, er]

/-- The block's two affine layers at row `p`, column `j`. -/
theorem pay2_apply (x : Vec Ideal S5000x128 .f32) (w1 : Vec Ideal S128x256 .f32) (b1 : Vec Ideal S1x256 .f32) (w2 : Vec Ideal S256x128 .f32) (b2 : Vec Ideal S1x128 .f32) (p : Fin 5000) (j : Fin 128) :
    k2_pay2 (F := Ideal) x w1 b1 w2 b2 (ix2 p j) = lin2 (fun r d => x (ix2 r d)) (fun d k => w1 (ix2 d k)) (fun k => b1 (ix2 0 k)) (fun k j => w2 (ix2 k j)) (fun j => b2 (ix2 0 j)) p j := by
  unfold k2_pay2 lin2
  dsimp only
  refine (addf_apply _ _ (ix2 p j)).trans ?_
  refine congrArg₂ (· + ·) ?_ ?_
  · refine (second_apply _ _ p j).trans ?_
    refine Finset.sum_congr rfl fun k _ => ?_
    refine congrArg₂ (· * ·) ?_ rfl
    refine (addf_apply _ _ (ix2 p k)).trans ?_
    refine congrArg₂ (· + ·) (first_apply _ _ p k) ?_
    exact (broadcastTo_1b_ab_apply _ _ p k).trans (congrFun (shapeCast_self b1 _) _)
  · exact (broadcastTo_1b_ab_apply _ _ p j).trans (congrFun (shapeCast_self b2 _) _)

/-- A sum down the rows of a block, at column `j`. -/
theorem colred_apply (src : FVec Ideal S5000x128 .f32) (hacc : (0x00000000#32 : BitVec 32) = 0x00000000#32) (j : Fin 128) :
    multiReduction .add [0] S128 src 0x00000000#32 reduces_S5000x128_S128 (.inl rfl) hacc (ix1 j)
      = ∑ p : Fin 5000, src (ix2 p j) := by
  refine (Ideal.multiReduction_add_single src 0x00000000#32 reduces_S5000x128_S128 (.inl rfl) hacc (ix1 j)).trans ?_
  refine Finset.sum_congr rfl fun p _ => congrArg src (funext fun a => Fin.ext ?_)
  match a with
  | ⟨0, _⟩ => rfl
  | ⟨1, _⟩ => rfl

/-- The running column sums after a block: what was there plus the block's column sums of the two layers. -/
theorem pay5_apply (x : Vec Ideal S5000x128 .f32) (w1 : Vec Ideal S128x256 .f32) (b1 : Vec Ideal S1x256 .f32) (w2 : Vec Ideal S256x128 .f32) (b2 : Vec Ideal S1x128 .f32) (acc : Vec Ideal S1x128 .f32) (j : Fin 128) :
    k2_pay5 (F := Ideal) x w1 b1 w2 b2 acc (ix2 0 j)
      = acc (ix2 0 j) + ∑ p : Fin 5000, lin2 (fun r d => x (ix2 r d)) (fun d k => w1 (ix2 d k)) (fun k => b1 (ix2 0 k)) (fun k j => w2 (ix2 k j)) (fun j => b2 (ix2 0 j)) p j := by
  unfold k2_pay5
  dsimp only
  refine (addf_apply _ _ (ix2 0 j)).trans ?_
  refine congrArg₂ (· + ·) (congrFun (shapeCast_self acc _) _) ?_
  refine (shapeCast_a_1a_apply _ _ 0 j).trans ?_
  refine (colred_apply _ rfl j).trans ?_
  exact Finset.sum_congr rfl fun p _ => pay2_apply x w1 b1 w2 b2 p j

/-- The running column sums of squares after a block: what was there plus the block's column sums of the squared layers. -/
theorem pay17_apply (x : Vec Ideal S5000x128 .f32) (w1 : Vec Ideal S128x256 .f32) (b1 : Vec Ideal S1x256 .f32) (w2 : Vec Ideal S256x128 .f32) (b2 : Vec Ideal S1x128 .f32) (acc : Vec Ideal S1x128 .f32) (j : Fin 128) :
    k2_pay1 (F := Ideal) (k2_pay6 (F := Ideal) acc) (k2_pay7 (F := Ideal) x w1 b1 w2 b2) (ix2 0 j)
      = acc (ix2 0 j) + ∑ p : Fin 5000, lin2 (fun r d => x (ix2 r d)) (fun d k => w1 (ix2 d k)) (fun k => b1 (ix2 0 k)) (fun k j => w2 (ix2 k j)) (fun j => b2 (ix2 0 j)) p j * lin2 (fun r d => x (ix2 r d)) (fun d k => w1 (ix2 d k)) (fun k => b1 (ix2 0 k)) (fun k j => w2 (ix2 k j)) (fun j => b2 (ix2 0 j)) p j := by
  unfold k2_pay1 k2_pay6 k2_pay7
  dsimp only
  refine (addf_apply _ _ (ix2 0 j)).trans ?_
  refine congrArg₂ (· + ·) (congrFun (shapeCast_self acc _) _) ?_
  refine (shapeCast_a_1a_apply _ _ 0 j).trans ?_
  refine (colred_apply _ rfl j).trans ?_
  refine Finset.sum_congr rfl fun p _ => ?_
  refine (mulf_apply _ _ (ix2 p j)).trans ?_
  rw [pay2_apply x w1 b1 w2 b2 p j]

/-- The reset blocks are zero everywhere. -/
theorem pay3_apply (i : S1x128.Idx) : k2_pay3 (F := Ideal) i = 0 := by
  unfold k2_pay3
  exact Ideal.ofBits_zero_f32
theorem pay4_apply (i : S1x128.Idx) : k2_pay4 (F := Ideal) i = 0 := by
  unfold k2_pay4
  exact Ideal.ofBits_zero_f32

end Cert.KernelIdeal.Stats2

end
-- ==== Proof.Stats2.lean ====
/-
  What the item type's first call leaves in its three result arrays, as functions of the arrays it finds.

  The grid has 120 points; point `t` sees rows `5000 t … 5000 t + 4999` of the 600000 rows of features, and the whole
  weight matrices and biases. The body computes the two affine layers of its block of rows and writes them to block `t`
  of the first result: the blocks tile the rows, so that array ends holding the two layers of every row. The second and
  third results are one row each, kept across the points: reset to zero at the first point, then at every point the
  block's column sums (column sums of squares) are added; by induction on the point they hold after point `n` the sums
  over blocks `0 … n`, and they are written back once, after the last point, when those are the sums over all rows.
-/
import proofs.«174799_j19353122636427_1_alg».proof.Proof.Gen.KernelIdeal.Frame
import proofs.«174799_j19353122636427_1_alg».proof.Proof.Stats2a
import proofs.«174799_j19353122636427_1_alg».proof.Proof.Stats2b
import proofs.«174799_j19353122636427_1_alg».proof.Proof.Spec
import proofs.«174799_j19353122636427_1_alg».proof.Proof.Blocks
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Stats2

open Cert.KernelIdeal Cert.KernelIdeal.Gen Cert.Spec Idealize.ShloMosaic.ValueIdx

variable (V : (c : Dev nD) → (b : Ref sig .tc) → Buf (Elt Ideal) ((c : Thread nD τ).loc b))

/-- The arrays the first item-type call finds: the features, the two weight matrices, and the two biases as one-row
    matrices. -/
abbrev xArr (c : Dev nD) : S600000x128.Idx → EReal := V c (Pipeline.arrRef spec2 0)
abbrev w1Arr (c : Dev nD) : S128x256.Idx → EReal := V c (Pipeline.arrRef spec2 1)
abbrev b1Arr (c : Dev nD) : S1x256.Idx → EReal := V c (Pipeline.arrRef spec2 2)
abbrev w2Arr (c : Dev nD) : S256x128.Idx → EReal := V c (Pipeline.arrRef spec2 3)
abbrev b2Arr (c : Dev nD) : S1x128.Idx → EReal := V c (Pipeline.arrRef spec2 4)

/-- The two affine layers of those arrays. -/
def hOf (c : Dev nD) : Fin 600000 → Fin 128 → EReal :=
  lin2 (fun r d => xArr V c (ix2 r d)) (fun d k => w1Arr V c (ix2 d k)) (fun k => b1Arr V c (ix2 0 k))
    (fun k j => w2Arr V c (ix2 k j)) (fun j => b2Arr V c (ix2 0 j))

/-- The number of grid points, as a number. -/
theorem nPoints : cfg2.N = 120 := N_2

/-- A grid point is below the number of blocks. -/
theorem pt_lt (t : Fin cfg2.N) : t.val < 120 := lt_of_lt_of_eq t.isLt nPoints

/-- Row `5000 t + p` of the features: row `p` of block `t`. -/
def rowOf (t : ℕ) (ht : t < 120) (p : Fin 5000) : Fin 600000 :=
  blockRow (T := 120) (R := 5000) (N := 600000) rfl ⟨t, ht⟩ p

theorem rowOf_val (t : ℕ) (ht : t < 120) (p : Fin 5000) : (rowOf t ht p).val = t * 5000 + p.val := rfl

/-- The blocks the body finds at point `t`, each at its literal shape. -/
abbrev xBlk (c : Dev nD) (t : Fin cfg2.N) : Vec Ideal S5000x128 .f32 := iblk2 V c 0 t
abbrev w1Blk (c : Dev nD) (t : Fin cfg2.N) : Vec Ideal S128x256 .f32 := iblk2 V c 1 t
abbrev b1Blk (c : Dev nD) (t : Fin cfg2.N) : Vec Ideal S1x256 .f32 := iblk2 V c 2 t
abbrev w2Blk (c : Dev nD) (t : Fin cfg2.N) : Vec Ideal S256x128 .f32 := iblk2 V c 3 t
abbrev b2Blk (c : Dev nD) (t : Fin cfg2.N) : Vec Ideal S1x128 .f32 := iblk2 V c 4 t

/-- Where each window's block sits at point `t`: the features' and the first result's block index is `(t, 0)`; the
    weights', the biases' and the two statistics' blocks never move. -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0
    ∧ win2_6.index t (0 : Fin 2) = 0 ∧ win2_6.index t (1 : Fin 2) = 0
    ∧ win2_7.index t (0 : Fin 2) = 0 ∧ win2_7.index t (1 : Fin 2) = 0 :=
  (by decide +kernel : ∀ t : Fin grid2.N, _)

/-- The features' block at point `t` is rows `5000 t … 5000 t + 4999` of the features. -/
theorem xBlk_apply (c : Dev nD) (t : Fin cfg2.N) (p : Fin 5000) (d : Fin 128) :
    xBlk V c t (ix2 p d) = xArr V c (ix2 (rowOf t.val (pt_lt t) p) d) := by
  obtain ⟨e0, e1, -⟩ := idx_facts t
  show V c (Pipeline.arrRef spec2 0) (((cfg2.win 0).blk t).view.emb (ix2 p d)) = V c (Pipeline.arrRef spec2 0) (ix2 (rowOf t.val (pt_lt t) p) d)
  refine congrArg (V c (Pipeline.arrRef spec2 0)) (funext fun a => Fin.ext ?_)
  match a with
  | ⟨0, _⟩ => show win2_0.index t (0 : Fin 2) * 5000 + 1 * p.val = t.val * 5000 + p.val; omega
  | ⟨1, _⟩ => show win2_0.index t (1 : Fin 2) * 128 + 1 * d.val = d.val; omega

/-- The weights' and the biases' blocks are their whole arrays at every point. -/
theorem w1Blk_apply (c : Dev nD) (t : Fin cfg2.N) (a : Fin 128) (b : Fin 256) :
    w1Blk V c t (ix2 a b) = w1Arr V c (ix2 a b) := by
  obtain ⟨-, -, e0, e1, -⟩ := idx_facts t
  show V c (Pipeline.arrRef spec2 1) (((cfg2.win 1).blk t).view.emb (ix2 a b)) = V c (Pipeline.arrRef spec2 1) (ix2 a b)
  refine congrArg (V c (Pipeline.arrRef spec2 1)) (funext fun ax => Fin.ext ?_)
  match ax with
  | ⟨0, _⟩ => show win2_1.index t (0 : Fin 2) * 128 + 1 * a.val = a.val; omega
  | ⟨1, _⟩ => show win2_1.index t (1 : Fin 2) * 256 + 1 * b.val = b.val; omega

theorem b1Blk_apply (c : Dev nD) (t : Fin cfg2.N) (a : Fin 1) (b : Fin 256) :
    b1Blk V c t (ix2 a b) = b1Arr V c (ix2 a b) := by
  obtain ⟨-, -, -, -, e0, e1, -⟩ := idx_facts t
  show V c (Pipeline.arrRef spec2 2) (((cfg2.win 2).blk t).view.emb (ix2 a b)) = V c (Pipeline.arrRef spec2 2) (ix2 a b)
  refine congrArg (V c (Pipeline.arrRef spec2 2)) (funext fun ax => Fin.ext ?_)
  match ax with
  | ⟨0, _⟩ => show win2_2.index t (0 : Fin 2) * 1 + 1 * a.val = a.val; omega
  | ⟨1, _⟩ => show win2_2.index t (1 : Fin 2) * 256 + 1 * b.val = b.val; omega

theorem w2Blk_apply (c : Dev nD) (t : Fin cfg2.N) (a : Fin 256) (b : Fin 128) :
    w2Blk V c t (ix2 a b) = w2Arr V c (ix2 a b) := by
  obtain ⟨-, -, -, -, -, -, e0, e1, -⟩ := idx_facts t
  show V c (Pipeline.arrRef spec2 3) (((cfg2.win 3).blk t).view.emb (ix2 a b)) = V c (Pipeline.arrRef spec2 3) (ix2 a b)
  refine congrArg (V c (Pipeline.arrRef spec2 3)) (funext fun ax => Fin.ext ?_)
  match ax with
  | ⟨0, _⟩ => show win2_3.index t (0 : Fin 2) * 256 + 1 * a.val = a.val; omega
  | ⟨1, _⟩ => show win2_3.index t (1 : Fin 2) * 128 + 1 * b.val = b.val; omega

theorem b2Blk_apply (c : Dev nD) (t : Fin cfg2.N) (a : Fin 1) (b : Fin 128) :
    b2Blk V c t (ix2 a b) = b2Arr V c (ix2 a b) := by
  obtain ⟨-, -, -, -, -, -, -, -, e0, e1, -⟩ := idx_facts t
  show V c (Pipeline.arrRef spec2 4) (((cfg2.win 4).blk t).view.emb (ix2 a b)) = V c (Pipeline.arrRef spec2 4) (ix2 a b)
  refine congrArg (V c (Pipeline.arrRef spec2 4)) (funext fun ax => Fin.ext ?_)
  match ax with
  | ⟨0, _⟩ => show win2_4.index t (0 : Fin 2) * 1 + 1 * a.val = a.val; omega
  | ⟨1, _⟩ => show win2_4.index t (1 : Fin 2) * 128 + 1 * b.val = b.val; omega

/-- The two layers of the blocks at point `t`, at row `p` of the block, are the two layers of the arrays at row
    `5000 t + p`. -/
theorem lin_blk (c : Dev nD) (t : Fin cfg2.N) (p : Fin 5000) (j : Fin 128) :
    lin2 (fun r d => xBlk V c t (ix2 r d)) (fun d k => w1Blk V c t (ix2 d k)) (fun k => b1Blk V c t (ix2 0 k))
      (fun k j => w2Blk V c t (ix2 k j)) (fun j => b2Blk V c t (ix2 0 j)) p j
      = hOf V c (rowOf t.val (pt_lt t) p) j := by
  unfold hOf lin2
  simp only [xBlk_apply, w1Blk_apply, b1Blk_apply, w2Blk_apply, b2Blk_apply]

/-- After the body at any point the first result's buffer holds the two layers of that point's rows. -/
theorem h_at (c : Dev nD) (t : Fin cfg2.N) (p : Fin 5000) (j : Fin 128) :
    (outsAt2 V c t.val t.isLt).1 (ix2 p j) = hOf V c (rowOf t.val (pt_lt t) p) j := by
  by_cases h0 : t.val % 120 = 0
  · rw [outsAt2_A V c t h0]
    dsimp only
    refine (congrFun (piece_A_5 (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) ((hcond2_0 t).mpr h0) (xBlk V c t) (w1Blk V c t) (b1Blk V c t) (w2Blk V c t) (b2Blk V c t)) (ix2 p j)).trans ?_
    exact (pay2_apply (xBlk V c t) (w1Blk V c t) (b1Blk V c t) (w2Blk V c t) (b2Blk V c t) p j).trans (lin_blk V c t p j)
  · rw [outsAt2_B V c t h0]
    dsimp only
    refine (congrFun (piece_B_5 (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (fun h => h0 ((hcond2_0 t).mp h)) (xBlk V c t) (w1Blk V c t) (b1Blk V c t) (w2Blk V c t) (b2Blk V c t) (outsAt2 V c (t.val - 1) (Nat.lt_of_le_of_lt (Nat.sub_le _ _) t.isLt)).2.1 (outsAt2 V c (t.val - 1) (Nat.lt_of_le_of_lt (Nat.sub_le _ _) t.isLt)).2.2) (ix2 p j)).trans ?_
    exact (pay2_apply (xBlk V c t) (w1Blk V c t) (b1Blk V c t) (w2Blk V c t) (b2Blk V c t) p j).trans (lin_blk V c t p j)

/-- After the body at the first point the column sums' buffer holds the first block's column sums, -/
theorem sum_at_A (c : Dev nD) (t : Fin cfg2.N) (h0 : t.val % 120 = 0) (j : Fin 128) :
    (outsAt2 V c t.val t.isLt).2.1 (ix2 0 j) = ∑ p : Fin 5000, hOf V c (rowOf t.val (pt_lt t) p) j := by
  rw [outsAt2_A V c t h0]
  dsimp only
  refine (congrFun (piece_A_6 (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) ((hcond2_0 t).mpr h0) (xBlk V c t) (w1Blk V c t) (b1Blk V c t) (w2Blk V c t) (b2Blk V c t)) (ix2 0 j)).trans ?_
  refine (pay5_apply (xBlk V c t) (w1Blk V c t) (b1Blk V c t) (w2Blk V c t) (b2Blk V c t) (k2_pay3 (F := Ideal)) j).trans ?_
  rw [pay3_apply, zero_add]
  exact Finset.sum_congr rfl fun p _ => lin_blk V c t p j

/-- and at a later point what the point before left plus this block's column sums. -/
theorem sum_at_B (c : Dev nD) (t : Fin cfg2.N) (h0 : ¬t.val % 120 = 0) (j : Fin 128) :
    (outsAt2 V c t.val t.isLt).2.1 (ix2 0 j)
      = (outsAt2 V c (t.val - 1) (Nat.lt_of_le_of_lt (Nat.sub_le _ _) t.isLt)).2.1 (ix2 0 j) + ∑ p : Fin 5000, hOf V c (rowOf t.val (pt_lt t) p) j := by
  rw [outsAt2_B V c t h0]
  dsimp only
  refine (congrFun (piece_B_6 (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (fun h => h0 ((hcond2_0 t).mp h)) (xBlk V c t) (w1Blk V c t) (b1Blk V c t) (w2Blk V c t) (b2Blk V c t) (outsAt2 V c (t.val - 1) (Nat.lt_of_le_of_lt (Nat.sub_le _ _) t.isLt)).2.1 (outsAt2 V c (t.val - 1) (Nat.lt_of_le_of_lt (Nat.sub_le _ _) t.isLt)).2.2) (ix2 0 j)).trans ?_
  refine (pay5_apply (xBlk V c t) (w1Blk V c t) (b1Blk V c t) (w2Blk V c t) (b2Blk V c t) (outsAt2 V c (t.val - 1) (Nat.lt_of_le_of_lt (Nat.sub_le _ _) t.isLt)).2.1 j).trans ?_
  exact congrArg _ (Finset.sum_congr rfl fun p _ => lin_blk V c t p j)

/-- The same for the column sums of squares. -/
theorem sumsq_at_A (c : Dev nD) (t : Fin cfg2.N) (h0 : t.val % 120 = 0) (j : Fin 128) :
    (outsAt2 V c t.val t.isLt).2.2 (ix2 0 j)
      = ∑ p : Fin 5000, hOf V c (rowOf t.val (pt_lt t) p) j * hOf V c (rowOf t.val (pt_lt t) p) j := by
  rw [outsAt2_A V c t h0]
  dsimp only
  refine (congrFun (piece_A_7 (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) ((hcond2_0 t).mpr h0) (xBlk V c t) (w1Blk V c t) (b1Blk V c t) (w2Blk V c t) (b2Blk V c t)) (ix2 0 j)).trans ?_
  refine (pay17_apply (xBlk V c t) (w1Blk V c t) (b1Blk V c t) (w2Blk V c t) (b2Blk V c t) (k2_pay4 (F := Ideal)) j).trans ?_
  rw [pay4_apply, zero_add]
  exact Finset.sum_congr rfl fun p _ => by rw [lin_blk V c t p j]

theorem sumsq_at_B (c : Dev nD) (t : Fin cfg2.N) (h0 : ¬t.val % 120 = 0) (j : Fin 128) :
    (outsAt2 V c t.val t.isLt).2.2 (ix2 0 j)
      = (outsAt2 V c (t.val - 1) (Nat.lt_of_le_of_lt (Nat.sub_le _ _) t.isLt)).2.2 (ix2 0 j)
        + ∑ p : Fin 5000, hOf V c (rowOf t.val (pt_lt t) p) j * hOf V c (rowOf t.val (pt_lt t) p) j := by
  rw [outsAt2_B V c t h0]
  dsimp only
  refine (congrFun (piece_B_7 (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (fun h => h0 ((hcond2_0 t).mp h)) (xBlk V c t) (w1Blk V c t) (b1Blk V c t) (w2Blk V c t) (b2Blk V c t) (outsAt2 V c (t.val - 1) (Nat.lt_of_le_of_lt (Nat.sub_le _ _) t.isLt)).2.1 (outsAt2 V c (t.val - 1) (Nat.lt_of_le_of_lt (Nat.sub_le _ _) t.isLt)).2.2) (ix2 0 j)).trans ?_
  refine (pay17_apply (xBlk V c t) (w1Blk V c t) (b1Blk V c t) (w2Blk V c t) (b2Blk V c t) (outsAt2 V c (t.val - 1) (Nat.lt_of_le_of_lt (Nat.sub_le _ _) t.isLt)).2.2 j).trans ?_
  exact congrArg _ (Finset.sum_congr rfl fun p _ => by rw [lin_blk V c t p j])

/-- The sum of `g` over the rows of block `t` (zero past the last block). -/
def blkSum (g : Fin 600000 → EReal) (t : ℕ) : EReal :=
  if ht : t < 120 then ∑ p : Fin 5000, g (rowOf t ht p) else 0

/-- The block sums over all 120 blocks add up to the sum over all 600000 rows. -/
theorem sum_blkSum (g : Fin 600000 → EReal) : ∑ t ∈ Finset.range 120, blkSum g t = ∑ i : Fin 600000, g i := by
  rw [sum_by_blocks (T := 120) (R := 5000) (N := 600000) rfl g, Finset.sum_range]
  refine Finset.sum_congr rfl fun t _ => ?_
  unfold blkSum
  rw [dif_pos t.isLt]
  rfl

/-- After the body at point `n` the column sums' buffer holds the column sums of blocks `0 … n`: by induction on the point. -/
theorem sum_upto (c : Dev nD) (j : Fin 128) : ∀ (n : ℕ) (h : n < cfg2.N),
    (outsAt2 V c n h).2.1 (ix2 0 j) = ∑ t ∈ Finset.range (n + 1), blkSum (fun r => hOf V c r j) t
  | 0, h => by
    rw [Finset.sum_range_one]
    unfold blkSum
    rw [dif_pos (by decide : 0 < 120)]
    exact sum_at_A V c ⟨0, h⟩ rfl j
  | n + 1, h => by
    have hn : n + 1 < 120 := lt_of_lt_of_eq h nPoints
    have hB : ¬(⟨n + 1, h⟩ : Fin cfg2.N).val % 120 = 0 := by dsimp only; omega
    rw [Finset.sum_range_succ, ← sum_upto c j n (Nat.lt_of_succ_lt h)]
    refine (sum_at_B V c ⟨n + 1, h⟩ hB j).trans ?_
    unfold blkSum
    rw [dif_pos hn]
    rfl

/-- The same for the column sums of squares. -/
theorem sumsq_upto (c : Dev nD) (j : Fin 128) : ∀ (n : ℕ) (h : n < cfg2.N),
    (outsAt2 V c n h).2.2 (ix2 0 j) = ∑ t ∈ Finset.range (n + 1), blkSum (fun r => hOf V c r j * hOf V c r j) t
  | 0, h => by
    rw [Finset.sum_range_one]
    unfold blkSum
    rw [dif_pos (by decide : 0 < 120)]
    exact sumsq_at_A V c ⟨0, h⟩ rfl j
  | n + 1, h => by
    have hn : n + 1 < 120 := lt_of_lt_of_eq h nPoints
    have hB : ¬(⟨n + 1, h⟩ : Fin cfg2.N).val % 120 = 0 := by dsimp only; omega
    rw [Finset.sum_range_succ, ← sumsq_upto c j n (Nat.lt_of_succ_lt h)]
    refine (sumsq_at_B V c ⟨n + 1, h⟩ hB j).trans ?_
    unfold blkSum
    rw [dif_pos hn]
    rfl

/-- The last grid point. -/
theorem last_lt : 119 < cfg2.N := lt_of_lt_of_eq (by decide : 119 < 120) nPoints.symm

/-- An index of the first result is in point `t`'s block iff each coordinate is in the block's range on its axis. -/
theorem mem_blk5 (t : Fin cfg2.N) (i : S600000x128.Idx) :
    i ∈ ((cfg2.win 5).blk t).view.set ↔ ∀ a : Fin 2, win2_5.index t a * S5000x128.size a ≤ (i a).val ∧ (i a).val < win2_5.index t a * S5000x128.size a + S5000x128.size a := by
  show i ∈ ((View.whole main_v14_0).slice (win2_5.rect t)).set ↔ _
  rw [View.set_slice_whole, Rect.mem_set_unit]
  exact Iff.rfl

/-- What point `t` writes back to the first result is block `t` of the two layers of the arrays. -/
theorem flushed5_eq (c : Dev nD) (t : Fin cfg2.N) :
    (dat2 V c).flushed 5 t = ((cfg2.win 5).blk t).view.read (Elt Ideal) (fun i : S600000x128.Idx => hOf V c (i 0) (i 1)) := by
  obtain ⟨-, -, -, -, -, -, -, -, -, -, e0, e1, -⟩ := idx_facts t
  show (cfg2.win 5).cut (grid2.coords t) ((dat2 V c).after 5 t) = _
  rw [after2_5]
  funext y
  obtain ⟨p, j, rfl⟩ : ∃ (p : Fin 5000) (j : Fin 128), y = ix2 p j := ⟨y 0, y 1, eq_ix2 y⟩
  show (outsAt2 V c t.val t.isLt).1 (ix2 p j) = hOf V c ((((cfg2.win 5).blk t).view.emb (ix2 p j)) 0) ((((cfg2.win 5).blk t).view.emb (ix2 p j)) 1)
  rw [h_at V c t p j]
  refine congrArg₂ (hOf V c) (Fin.ext ?_) (Fin.ext ?_)
  · show t.val * 5000 + p.val = win2_5.index t (0 : Fin 2) * 5000 + 1 * p.val; omega
  · show j.val = win2_5.index t (1 : Fin 2) * 128 + 1 * j.val; omega

/-- Row `r` of the first result is in the block of point `r / 5000`: the blocks tile the rows. -/
theorem cover5 (i : S600000x128.Idx) : ∃ t : Fin cfg2.N, (cfg2.win 5).flush t = true ∧ i ∈ ((cfg2.win 5).blk t).view.set := by
  have hi0 : (i 0).val < 600000 := (i 0).isLt
  have hi1 : (i 1).val < 128 := (i 1).isLt
  have hq : (i 0).val / 5000 < 120 := by omega
  have ht : (i 0).val / 5000 < cfg2.N := lt_of_lt_of_eq hq nPoints.symm
  obtain ⟨-, -, -, -, -, -, -, -, -, -, e0, e1, -⟩ := idx_facts ⟨(i 0).val / 5000, ht⟩
  have e0' : win2_5.index ⟨(i 0).val / 5000, ht⟩ (0 : Fin 2) = (i 0).val / 5000 := e0
  refine ⟨⟨(i 0).val / 5000, ht⟩, flush2_5 _, ?_⟩
  rw [mem_blk5]
  intro a
  match a with
  | ⟨0, _⟩ => show win2_5.index ⟨(i 0).val / 5000, ht⟩ (0 : Fin 2) * 5000 ≤ (i 0).val ∧ (i 0).val < win2_5.index ⟨(i 0).val / 5000, ht⟩ (0 : Fin 2) * 5000 + 5000; omega
  | ⟨1, _⟩ => show win2_5.index ⟨(i 0).val / 5000, ht⟩ (1 : Fin 2) * 128 ≤ (i 1).val ∧ (i 1).val < win2_5.index ⟨(i 0).val / 5000, ht⟩ (1 : Fin 2) * 128 + 128; omega

theorem mem_blk6 (t : Fin cfg2.N) (i : S1x128.Idx) :
    i ∈ ((cfg2.win 6).blk t).view.set ↔ ∀ a : Fin 2, win2_6.index t a * S1x128.size a ≤ (i a).val ∧ (i a).val < win2_6.index t a * S1x128.size a + S1x128.size a := by
  show i ∈ ((View.whole main_v14_1).slice (win2_6.rect t)).set ↔ _
  rw [View.set_slice_whole, Rect.mem_set_unit]
  exact Iff.rfl

/-- After the last point the running block holds the column sums over all rows. -/
theorem sum_last (c : Dev nD) (j : Fin 128) (t : Fin cfg2.N) (h119 : t.val = 119) :
    (outsAt2 V c t.val t.isLt).2.1 (ix2 0 j) = colSum (hOf V c) j := by
  rw [sum_upto V c j t.val t.isLt, h119]
  exact sum_blkSum fun r => hOf V c r j

/-- If after point `t` the running block holds the row `S`, then what point `t` writes back is the one-row array `S`. -/
theorem flushed6_of (c : Dev nD) (t : Fin cfg2.N) (S : Fin 128 → EReal)
    (key : ∀ j : Fin 128, (outsAt2 V c t.val t.isLt).2.1 (ix2 0 j) = S j) :
    (dat2 V c).flushed 6 t = ((cfg2.win 6).blk t).view.read (Elt Ideal) (fun i : S1x128.Idx => S (i 1)) := by
  obtain ⟨-, -, -, -, -, -, -, -, -, -, -, -, e0, e1, -⟩ := idx_facts t
  show (cfg2.win 6).cut (grid2.coords t) ((dat2 V c).after 6 t) = _
  rw [after2_6]
  funext y
  obtain ⟨u, j, rfl⟩ : ∃ (u : Fin 1) (j : Fin 128), y = ix2 u j := ⟨y 0, y 1, eq_ix2 y⟩
  obtain rfl : u = 0 := Subsingleton.elim _ _
  show (outsAt2 V c t.val t.isLt).2.1 (ix2 0 j) = S ((((cfg2.win 6).blk t).view.emb (ix2 0 j)) 1)
  rw [key j]
  refine congrArg S (Fin.ext ?_)
  show j.val = win2_6.index t (1 : Fin 2) * 128 + 1 * j.val
  omega

/-- The one write-back of the column sums, after the last point, writes the column sums over all rows. -/
theorem flushed6_eq (c : Dev nD) (t : Fin cfg2.N) (hf : (cfg2.win 6).flush t = true) :
    (dat2 V c).flushed 6 t = ((cfg2.win 6).blk t).view.read (Elt Ideal) (fun i : S1x128.Idx => colSum (hOf V c) (i 1)) := by
  have h119 : t.val = 119 := by
    have h1 : t.val % 120 = 119 := (flush2_6 t).mp hf
    have h2 : t.val < 120 := pt_lt t
    omega
  exact flushed6_of V c t (colSum (hOf V c)) (fun j => sum_last V c j t h119)

/-- The last point's block is the whole one-row array. -/
theorem cover6 (i : S1x128.Idx) : ∃ t : Fin cfg2.N, (cfg2.win 6).flush t = true ∧ i ∈ ((cfg2.win 6).blk t).view.set := by
  have hi0 : (i 0).val < 1 := (i 0).isLt
  have hi1 : (i 1).val < 128 := (i 1).isLt
  obtain ⟨t, h119⟩ : ∃ t : Fin cfg2.N, t.val = 119 := ⟨⟨119, last_lt⟩, rfl⟩
  obtain ⟨-, -, -, -, -, -, -, -, -, -, -, -, e0, e1, -⟩ := idx_facts t
  refine ⟨t, (flush2_6 t).mpr (by omega), ?_⟩
  rw [mem_blk6]
  intro a
  match a with
  | ⟨0, _⟩ => show win2_6.index t (0 : Fin 2) * 1 ≤ (i 0).val ∧ (i 0).val < win2_6.index t (0 : Fin 2) * 1 + 1; omega
  | ⟨1, _⟩ => show win2_6.index t (1 : Fin 2) * 128 ≤ (i 1).val ∧ (i 1).val < win2_6.index t (1 : Fin 2) * 128 + 128; omega

theorem mem_blk7 (t : Fin cfg2.N) (i : S1x128.Idx) :
    i ∈ ((cfg2.win 7).blk t).view.set ↔ ∀ a : Fin 2, win2_7.index t a * S1x128.size a ≤ (i a).val ∧ (i a).val < win2_7.index t a * S1x128.size a + S1x128.size a := by
  show i ∈ ((View.whole main_v14_2).slice (win2_7.rect t)).set ↔ _
  rw [View.set_slice_whole, Rect.mem_set_unit]
  exact Iff.rfl

/-- After the last point the running block holds the column sums of squares over all rows. -/
theorem sumsq_last (c : Dev nD) (j : Fin 128) (t : Fin cfg2.N) (h119 : t.val = 119) :
    (outsAt2 V c t.val t.isLt).2.2 (ix2 0 j) = colSumSq (hOf V c) j := by
  rw [sumsq_upto V c j t.val t.isLt, h119]
  exact sum_blkSum fun r => hOf V c r j * hOf V c r j

/-- If after point `t` the running block holds the row `S`, then what point `t` writes back is the one-row array `S`. -/
theorem flushed7_of (c : Dev nD) (t : Fin cfg2.N) (S : Fin 128 → EReal)
    (key : ∀ j : Fin 128, (outsAt2 V c t.val t.isLt).2.2 (ix2 0 j) = S j) :
    (dat2 V c).flushed 7 t = ((cfg2.win 7).blk t).view.read (Elt Ideal) (fun i : S1x128.Idx => S (i 1)) := by
  obtain ⟨-, -, -, -, -, -, -, -, -, -, -, -, -, -, e0, e1⟩ := idx_facts t
  show (cfg2.win 7).cut (grid2.coords t) ((dat2 V c).after 7 t) = _
  rw [after2_7]
  funext y
  obtain ⟨u, j, rfl⟩ : ∃ (u : Fin 1) (j : Fin 128), y = ix2 u j := ⟨y 0, y 1, eq_ix2 y⟩
  obtain rfl : u = 0 := Subsingleton.elim _ _
  show (outsAt2 V c t.val t.isLt).2.2 (ix2 0 j) = S ((((cfg2.win 7).blk t).view.emb (ix2 0 j)) 1)
  rw [key j]
  refine congrArg S (Fin.ext ?_)
  show j.val = win2_7.index t (1 : Fin 2) * 128 + 1 * j.val
  omega

/-- The one write-back of the column sums of squares, after the last point, writes the column sums of squares over all rows. -/
theorem flushed7_eq (c : Dev nD) (t : Fin cfg2.N) (hf : (cfg2.win 7).flush t = true) :
    (dat2 V c).flushed 7 t = ((cfg2.win 7).blk t).view.read (Elt Ideal) (fun i : S1x128.Idx => colSumSq (hOf V c) (i 1)) := by
  have h119 : t.val = 119 := by
    have h1 : t.val % 120 = 119 := (flush2_7 t).mp hf
    have h2 : t.val < 120 := pt_lt t
    omega
  exact flushed7_of V c t (colSumSq (hOf V c)) (fun j => sumsq_last V c j t h119)

/-- The last point's block is the whole one-row array. -/
theorem cover7 (i : S1x128.Idx) : ∃ t : Fin cfg2.N, (cfg2.win 7).flush t = true ∧ i ∈ ((cfg2.win 7).blk t).view.set := by
  have hi0 : (i 0).val < 1 := (i 0).isLt
  have hi1 : (i 1).val < 128 := (i 1).isLt
  obtain ⟨t, h119⟩ : ∃ t : Fin cfg2.N, t.val = 119 := ⟨⟨119, last_lt⟩, rfl⟩
  obtain ⟨-, -, -, -, -, -, -, -, -, -, -, -, -, -, e0, e1⟩ := idx_facts t
  refine ⟨t, (flush2_7 t).mpr (by omega), ?_⟩
  rw [mem_blk7]
  intro a
  match a with
  | ⟨0, _⟩ => show win2_7.index t (0 : Fin 2) * 1 ≤ (i 0).val ∧ (i 0).val < win2_7.index t (0 : Fin 2) * 1 + 1; omega
  | ⟨1, _⟩ => show win2_7.index t (1 : Fin 2) * 128 ≤ (i 1).val ∧ (i 1).val < win2_7.index t (1 : Fin 2) * 128 + 128; omega

/-- After the call its first result holds the two layers' output, -/
theorem arr_h (c : Dev nD) :
    (dat2 V c).arrAt 5 cfg2.N = (fun i : S600000x128.Idx => hOf V c (i 0) (i 1)) := by
  exact (dat2 V c).arrAt_eq_of_cover 5 (fun i : S600000x128.Idx => hOf V c (i 0) (i 1)) (fun t _ => flushed5_eq V c t) cover5

/-- its second the column sums over all rows, -/
theorem arr_sum (c : Dev nD) :
    (dat2 V c).arrAt 6 cfg2.N = (fun i : S1x128.Idx => colSum (hOf V c) (i 1)) := by
  exact (dat2 V c).arrAt_eq_of_cover 6 (fun i : S1x128.Idx => colSum (hOf V c) (i 1)) (flushed6_eq V c) cover6

/-- its third the column sums of squares. -/
theorem arr_sumsq (c : Dev nD) :
    (dat2 V c).arrAt 7 cfg2.N = (fun i : S1x128.Idx => colSumSq (hOf V c) (i 1)) := by
  exact (dat2 V c).arrAt_eq_of_cover 7 (fun i : S1x128.Idx => colSumSq (hOf V c) (i 1)) (flushed7_eq V c) cover7

end Cert.KernelIdeal.Stats2

end
-- ==== Proof.Norm3.lean ====
/-
  What the second call of the item type leaves in its result array.

  The call walks the `[600000, 128]` array of layer outputs in 120 blocks of 5000 consecutive rows; at block `t` it reads
  rows `5000 t … 5000 t + 4999` together with four one-row arrays (the column means, variances, scales and shifts, each
  read whole at every block), and writes back, for row `p` of the block and column `j`, the entry normalized by column
  `j`'s mean and variance, scaled, shifted and passed through the leaky rectifier: `Spec.act` of the five entries.

  The proof has three parts. The body's arithmetic read at one entry `(p, j)` is `act` of the block's entry and of
  the four rows' entries at column `j` (the row operands are broadcast down the rows, so only their column matters).
  Each block read off its array: entry `(p, j)` of block `t` of the large array is the array's entry
  `(5000 t + p, j)`, and the one-row blocks are their arrays. So what block `t` writes back is block `t` of one
  function of the whole arrays, the normalized array; and since row `r` lies in block `r / 5000`, the blocks cover every
  row, and the result array ends holding that function.
-/
import proofs.«174799_j19353122636427_1_alg».proof.Proof.Gen.KernelIdeal.Frame
import proofs.«174799_j19353122636427_1_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Norm3

open Cert.KernelIdeal Cert.KernelIdeal.Gen Cert.Spec Idealize.ShloMosaic.ValueIdx

variable (V : (c : Dev nD) → (b : Ref sig .tc) → Buf (Elt Ideal) ((c : Thread nD τ).loc b))

/-- The arrays the second item-type call finds: the layers' output, and the column means, variances, scales and
    shifts as one-row matrices. -/
abbrev hArr (c : Dev nD) : S600000x128.Idx → EReal := V c (Pipeline.arrRef spec3 0)
abbrev meanArr (c : Dev nD) : S1x128.Idx → EReal := V c (Pipeline.arrRef spec3 1)
abbrev varArr (c : Dev nD) : S1x128.Idx → EReal := V c (Pipeline.arrRef spec3 2)
abbrev gArr (c : Dev nD) : S1x128.Idx → EReal := V c (Pipeline.arrRef spec3 3)
abbrev bArr (c : Dev nD) : S1x128.Idx → EReal := V c (Pipeline.arrRef spec3 4)

/-! ## The body's arithmetic at one entry -/

/-- The reciprocal square root of a vector, read at an index, is the reciprocal square root of the entry. -/
private theorem rsqrt_at {s : Shape} (v : FVec Ideal s .f32) (i : s.Idx) : rsqrt v i = Ideal.rsqrt (v i) := rfl

/-- The body's value at row `p`, column `j` of a block: with `h` the block of layer outputs and `var`, `mean`, `g`, `b`
    the one-row operands, it is `((h p j − mean j) · rsqrt (var j + ε)) · g j + b j` passed through the leaky rectifier,
    that is, `act` of those five entries. -/
private theorem body_at (h : Vec Ideal S5000x128 .f32) (var mean g b : Vec Ideal S1x128 .f32) (p : Fin 5000) (j : Fin 128) :
    k3_pay1 (F := Ideal) h var mean g b (ix2 p j)
      = act (h (ix2 p j)) (mean (ix2 0 j)) (var (ix2 0 j)) (g (ix2 0 j)) (b (ix2 0 j)) := by
  unfold k3_pay1
  simp only [shapeCast_self]
  simp only [select_apply, cmpf_apply, mulf_apply, addf_apply, subf_apply, broadcast_apply]
  rw [broadcastTo_1b_ab_apply _ broadcasts_S1x128_S5000x128 p j, broadcastTo_1b_ab_apply _ broadcasts_S1x128_S5000x128 p j,
    broadcastTo_1b_ab_apply _ broadcasts_S1x128_S5000x128 p j, broadcastTo_1b_ab_apply _ broadcasts_S1x128_S5000x128 p j]
  rfl

/-- `act` respects equality in each of its five arguments. -/
private theorem act_congr {h h' μ μ' v v' g g' b b' : EReal} (e0 : h = h') (e1 : μ = μ') (e2 : v = v') (e3 : g = g')
    (e4 : b = b') : act h μ v g b = act h' μ' v' g' b' := by rw [e0, e1, e2, e3, e4]

/-! ## The blocks read off their arrays -/

/-- The block indices at point `t`: the layer outputs' window and the result's window are at block `(t, 0)`, the four
    one-row windows at block `(0, 0)`. Checked at each of the 120 points. -/
private theorem blockIndex_facts : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

/-- Entry `(p, j)` of the layer outputs' block at point `t` is the array's entry at row `5000 t + p`, column `j`. -/
private theorem rows_block_at (c : Dev nD) (t : Fin cfg3.N) (p : Fin 5000) (j : Fin 128) (k : S600000x128.Idx)
    (hk0 : (k 0).val = t.val * 5000 + p.val) (hk1 : (k 1).val = j.val) :
    (iblk3 V c 0 t : Vec Ideal S5000x128 .f32) (ix2 p j) = hArr V c k := by
  obtain ⟨e0, e1, -⟩ := blockIndex_facts t
  unfold iblk3
  rw [View.read_apply]
  show V c (Pipeline.arrRef spec3 0) _ = V c (Pipeline.arrRef spec3 0) _
  congr 1
  funext a
  apply Fin.ext
  match a with
  | ⟨0, _⟩ => show win3_0.index t (0 : Fin 2) * 5000 + 1 * p.val = (k 0).val; rw [e0, hk0]; omega
  | ⟨1, _⟩ => show win3_0.index t (1 : Fin 2) * 128 + 1 * j.val = (k 1).val; rw [e1, hk1]; omega

/-- The means' window's block at any point is the whole one-row array: at column `j` it reads the array's entry `(0, j)`. -/
private theorem mean_block_at (c : Dev nD) (t : Fin cfg3.N) (j : Fin 128) :
    (iblk3 V c 1 t : Vec Ideal S1x128 .f32) (ix2 0 j) = meanArr V c (ix2 0 j) := by
  obtain ⟨-, -, e0, e1, -⟩ := blockIndex_facts t
  unfold iblk3
  rw [View.read_apply]
  show V c (Pipeline.arrRef spec3 1) _ = V c (Pipeline.arrRef spec3 1) _
  congr 1
  funext a
  apply Fin.ext
  match a with
  | ⟨0, _⟩ => show win3_1.index t (0 : Fin 2) * 1 + 1 * 0 = 0; rw [e0]
  | ⟨1, _⟩ => show win3_1.index t (1 : Fin 2) * 128 + 1 * j.val = j.val; rw [e1]; omega

/-- The variances' window's block at any point is the whole one-row array: at column `j` it reads the array's entry `(0, j)`. -/
private theorem var_block_at (c : Dev nD) (t : Fin cfg3.N) (j : Fin 128) :
    (iblk3 V c 2 t : Vec Ideal S1x128 .f32) (ix2 0 j) = varArr V c (ix2 0 j) := by
  obtain ⟨-, -, -, -, e0, e1, -⟩ := blockIndex_facts t
  unfold iblk3
  rw [View.read_apply]
  show V c (Pipeline.arrRef spec3 2) _ = V c (Pipeline.arrRef spec3 2) _
  congr 1
  funext a
  apply Fin.ext
  match a with
  | ⟨0, _⟩ => show win3_2.index t (0 : Fin 2) * 1 + 1 * 0 = 0; rw [e0]
  | ⟨1, _⟩ => show win3_2.index t (1 : Fin 2) * 128 + 1 * j.val = j.val; rw [e1]; omega

/-- The scales' window's block at any point is the whole one-row array: at column `j` it reads the array's entry `(0, j)`. -/
private theorem scale_block_at (c : Dev nD) (t : Fin cfg3.N) (j : Fin 128) :
    (iblk3 V c 3 t : Vec Ideal S1x128 .f32) (ix2 0 j) = gArr V c (ix2 0 j) := by
  obtain ⟨-, -, -, -, -, -, e0, e1, -⟩ := blockIndex_facts t
  unfold iblk3
  rw [View.read_apply]
  show V c (Pipeline.arrRef spec3 3) _ = V c (Pipeline.arrRef spec3 3) _
  congr 1
  funext a
  apply Fin.ext
  match a with
  | ⟨0, _⟩ => show win3_3.index t (0 : Fin 2) * 1 + 1 * 0 = 0; rw [e0]
  | ⟨1, _⟩ => show win3_3.index t (1 : Fin 2) * 128 + 1 * j.val = j.val; rw [e1]; omega

/-- The shifts' window's block at any point is the whole one-row array: at column `j` it reads the array's entry `(0, j)`. -/
private theorem shift_block_at (c : Dev nD) (t : Fin cfg3.N) (j : Fin 128) :
    (iblk3 V c 4 t : Vec Ideal S1x128 .f32) (ix2 0 j) = bArr V c (ix2 0 j) := by
  obtain ⟨-, -, -, -, -, -, -, -, e0, e1, -⟩ := blockIndex_facts t
  unfold iblk3
  rw [View.read_apply]
  show V c (Pipeline.arrRef spec3 4) _ = V c (Pipeline.arrRef spec3 4) _
  congr 1
  funext a
  apply Fin.ext
  match a with
  | ⟨0, _⟩ => show win3_4.index t (0 : Fin 2) * 1 + 1 * 0 = 0; rw [e0]
  | ⟨1, _⟩ => show win3_4.index t (1 : Fin 2) * 128 + 1 * j.val = j.val; rw [e1]; omega

/-! ## From the blocks to the array -/

/-- The zero offsets of a whole-buffer access. -/
private theorem zero_offsets : (![0, 0] : Fin 2 → Nat) = fun _ => 0 := funext fun a => by fin_cases a <;> rfl

/-- The normalized array: every entry of the layer outputs normalized by its column's mean and variance, scaled,
    shifted and rectified. -/
private abbrev normalized (c : Dev nD) : S600000x128.Idx → EReal := fun i =>
  act (hArr V c (ix2 (i 0) (i 1))) (meanArr V c (ix2 0 (i 1))) (varArr V c (ix2 0 (i 1))) (gArr V c (ix2 0 (i 1)))
    (bArr V c (ix2 0 (i 1)))

/-- The body's value on the blocks of point `t`, at row `p` and column `j` of the block, is the normalized array's
    entry at row `5000 t + p`, column `j`. -/
private theorem body_on_blocks_at (c : Dev nD) (t : Fin cfg3.N) (p : Fin 5000) (j : Fin 128) (k0 : Fin 600000) (k1 : Fin 128)
    (hk0 : k0.val = t.val * 5000 + p.val) (hk1 : k1.val = j.val) :
    k3_pay1 (F := Ideal) (iblk3 V c 0 t) (iblk3 V c 2 t) (iblk3 V c 1 t) (iblk3 V c 3 t) (iblk3 V c 4 t) (ix2 p j)
      = normalized V c (ix2 k0 k1) := by
  obtain rfl : k1 = j := Fin.ext hk1
  exact (body_at (iblk3 V c 0 t) (iblk3 V c 2 t) (iblk3 V c 1 t) (iblk3 V c 3 t) (iblk3 V c 4 t) p k1).trans
    (act_congr (rows_block_at V c t p k1 (ix2 k0 k1) hk0 rfl) (mean_block_at V c t k1) (var_block_at V c t k1)
      (scale_block_at V c t k1) (shift_block_at V c t k1))

/-- What point `t` writes back is block `t` of the normalized array. -/
private theorem writeback_eq (c : Dev nD) (t : Fin cfg3.N) :
    (dat3 V c).flushed 5 t = ((cfg3.win 5).blk t).view.read (Elt Ideal) (normalized V c) := by
  show (cfg3.win 5).cut (grid3.coords t) ((dat3 V c).after 5 t) = _
  rw [after3_5]
  unfold out3_5
  rw [View.canon_unit_zero zero_offsets]
  simp only [View.ld_unit_zero (S := S5000x128) zero_offsets, View.ld_unit_zero (S := S1x128) zero_offsets]
  obtain ⟨-, -, -, -, -, -, -, -, -, -, e0, e1⟩ := blockIndex_facts t
  funext y
  obtain ⟨p, j, rfl⟩ : ∃ (p : Fin 5000) (j : Fin 128), y = ix2 p j := ⟨y 0, y 1, eq_ix2 y⟩
  show k3_pay1 (F := Ideal) (iblk3 V c 0 t) (iblk3 V c 2 t) (iblk3 V c 1 t) (iblk3 V c 3 t) (iblk3 V c 4 t) (ix2 p j)
    = normalized V c (((cfg3.win 5).blk t).view.emb (ix2 p j))
  refine (body_on_blocks_at V c t p j _ _ ?_ ?_).trans (congrArg (normalized V c) (eq_ix2 _).symm)
  · show win3_5.index t (0 : Fin 2) * 5000 + 1 * p.val = t.val * 5000 + p.val
    rw [e0]; omega
  · show win3_5.index t (1 : Fin 2) * 128 + 1 * j.val = j.val
    rw [e1]; omega

/-- An index of the result array lies in point `t`'s block exactly when, on each axis, its coordinate lies in the
    block's range. -/
private theorem mem_block_iff (t : Fin cfg3.N) (i : S600000x128.Idx) :
    i ∈ ((cfg3.win 5).blk t).view.set ↔ ∀ a : Fin 2, win3_5.index t a * S5000x128.size a ≤ (i a).val
      ∧ (i a).val < win3_5.index t a * S5000x128.size a + S5000x128.size a := by
  show i ∈ ((View.whole main_v23).slice (win3_5.rect t)).set ↔ _
  rw [View.set_slice_whole, Rect.mem_set_unit]
  exact Iff.rfl

/-- Every index of the result array lies in some point's block: row `r` lies in the block of point `r / 5000`, and
    every point writes its block back. -/
private theorem every_row_covered (i : S600000x128.Idx) :
    ∃ t : Fin cfg3.N, (cfg3.win 5).flush t = true ∧ i ∈ ((cfg3.win 5).blk t).view.set := by
  have hN : cfg3.N = 120 := N_3
  have hi0 : (i 0).val < 600000 := (i 0).isLt
  have hi1 : (i 1).val < 128 := (i 1).isLt
  obtain ⟨t, ht⟩ : ∃ t : Fin cfg3.N, t.val = (i 0).val / 5000 := ⟨⟨(i 0).val / 5000, by rw [hN]; omega⟩, rfl⟩
  obtain ⟨-, -, -, -, -, -, -, -, -, -, e0, e1⟩ := blockIndex_facts t
  refine ⟨t, flush3_5 t, ?_⟩
  rw [mem_block_iff]
  intro a
  match a with
  | ⟨0, _⟩ =>
    show win3_5.index t (0 : Fin 2) * 5000 ≤ (i 0).val ∧ (i 0).val < win3_5.index t (0 : Fin 2) * 5000 + 5000
    rw [e0, ht]; omega
  | ⟨1, _⟩ =>
    show win3_5.index t (1 : Fin 2) * 128 ≤ (i 1).val ∧ (i 1).val < win3_5.index t (1 : Fin 2) * 128 + 128
    rw [e1]; omega

/-- After the call its result holds every entry normalized by its column's statistics, scaled, shifted and rectified. -/
theorem arr_out (c : Dev nD) :
    (dat3 V c).arrAt 5 cfg3.N = (fun i : S600000x128.Idx =>
      act (hArr V c (ix2 (i 0) (i 1))) (meanArr V c (ix2 0 (i 1))) (varArr V c (ix2 0 (i 1))) (gArr V c (ix2 0 (i 1)))
        (bArr V c (ix2 0 (i 1)))) :=
  (dat3 V c).arrAt_eq_of_cover 5 (normalized V c) (fun t _ => writeback_eq V c t) every_row_covered

end Cert.KernelIdeal.Norm3

end
-- ==== Proof.Walk.lean ====
/-
  The program's buffers followed through its run: what each pallas_call finds in its operand arrays, and what the two
  results hold at the end, as functions of the launch memory.

  The run alternates stretches of host operations with the four calls. A buffer no later item writes keeps its
  contents; a call's operand that a host stretch computed is that stretch's term: a bias reshaped to one row, a column
  sum divided by the batch size (the mean), the mean of the squares less the square of the mean (the variance). Put
  together with what each call leaves in its results, each of the program's two results is the specification's
  kernel-side function of the arguments.
-/
import proofs.«174799_j19353122636427_1_alg».proof.Proof.Gen.KernelIdeal.Frame
import proofs.«174799_j19353122636427_1_alg».proof.Proof.Spec
import proofs.«174799_j19353122636427_1_alg».proof.Proof.Stats0
import proofs.«174799_j19353122636427_1_alg».proof.Proof.Norm1
import proofs.«174799_j19353122636427_1_alg».proof.Proof.Stats2
import proofs.«174799_j19353122636427_1_alg».proof.Proof.Norm3
import Idealize.ShloMosaic.Lib.StableHlo.Run
import Idealize.ShloMosaic.Lib.ValueIdx
import Idealize.ShloMosaic.Lib.ValueLayout
import Idealize.ShloMosaic.Lib.IdealHost

set_option maxRecDepth 16384

noncomputable section

namespace Cert.KernelIdeal.Walk

open Cert.KernelIdeal Cert.KernelIdeal.Gen Cert.Spec
open Idealize.ShloMosaic Idealize.ShloMosaic.TcCoe Idealize.SL.Sem Idealize.ShloMosaic.ValueIdx Idealize.ShloMosaic.StableHlo

variable (m : (ℓ : Loc nD τ sig) → Buf (Elt Ideal) ℓ) (ρ : Dev nD → PrngReg)

/-- No operation of a host stretch writes the buffer, so the stretch leaves it as it found it. -/
macro "kept_by " ops:ident : tactic => `(tactic|
  exact StableHlo.after_of_forall_not_mem _ _ (List.forall_iff_forall_mem.mp (by
    simp only [$ops:ident, List.Forall, StableHlo.nullary_writes, StableHlo.unary_writes, StableHlo.binary_writes,
      StableHlo.reshape_writes, Finset.mem_singleton]
    repeat' apply And.intro
    all_goals exact StableHlo.devRef_ne_of_ne (by decide))))

/-! ## The user type: what the first call finds -/

theorem W1_arg0 (c : Dev nD) : W1 m ρ c (Proc.devRef .tc main_arg0) = m ((c : Thread nD τ).loc main_arg0) :=
  calc W1 m ρ c (Proc.devRef .tc main_arg0) = W0 m ρ c (Proc.devRef .tc main_arg0) := by kept_by hostOps0
    _ = m ((c : Thread nD τ).loc main_arg0) := rfl
theorem W1_arg2 (c : Dev nD) : W1 m ρ c (Proc.devRef .tc main_arg2) = m ((c : Thread nD τ).loc main_arg2) :=
  calc W1 m ρ c (Proc.devRef .tc main_arg2) = W0 m ρ c (Proc.devRef .tc main_arg2) := by kept_by hostOps0
    _ = m ((c : Thread nD τ).loc main_arg2) := rfl
theorem W1_arg6 (c : Dev nD) : W1 m ρ c (Proc.devRef .tc main_arg6) = m ((c : Thread nD τ).loc main_arg6) :=
  calc W1 m ρ c (Proc.devRef .tc main_arg6) = W0 m ρ c (Proc.devRef .tc main_arg6) := by kept_by hostOps0
    _ = m ((c : Thread nD τ).loc main_arg6) := rfl

/-- The first bias as the one-row matrix the call reads. -/
theorem W1_v0 (c : Dev nD) : W1 m ρ c (Proc.devRef .tc main_v0)
    = shapeCast S1x256 (m ((c : Thread nD τ).loc main_arg3)) shapeCasts_S256_S1x256 := by
  show StableHlo.after hostOps0 (W0 m ρ c) (Proc.devRef .tc main_v0) = _
  after_results
  rfl
/-- The second bias likewise. -/
theorem W1_v1 (c : Dev nD) : W1 m ρ c (Proc.devRef .tc main_v1)
    = shapeCast S1x128 (m ((c : Thread nD τ).loc main_arg7)) shapeCasts_S128_S1x128 := by
  show StableHlo.after hostOps0 (W0 m ρ c) (Proc.devRef .tc main_v1) = _
  after_results
  rfl

/-- The two affine layers of the user type's launch arguments. -/
def hUser (c : Dev nD) : Fin 400000 → Fin 128 → EReal :=
  lin2 (fun r d => m ((c : Thread nD τ).loc main_arg0) (ix2 r d)) (fun d k => m ((c : Thread nD τ).loc main_arg2) (ix2 d k))
    (fun k => m ((c : Thread nD τ).loc main_arg3) (ix1 k)) (fun k j => m ((c : Thread nD τ).loc main_arg6) (ix2 k j))
    (fun j => m ((c : Thread nD τ).loc main_arg7) (ix1 j))

/-- What the first call computes from the arrays it finds is the two layers of the launch arguments: its operands are the
    arguments themselves and the two biases reshaped to one row. -/
theorem hOf_V1 (c : Dev nD) : Stats0.hOf (V1 m ρ) c = hUser m c := by
  have e0 : Stats0.xArr (V1 m ρ) c = m ((c : Thread nD τ).loc main_arg0) := W1_arg0 m ρ c
  have e1 : Stats0.w1Arr (V1 m ρ) c = m ((c : Thread nD τ).loc main_arg2) := W1_arg2 m ρ c
  have e2 : Stats0.b1Arr (V1 m ρ) c = shapeCast S1x256 (m ((c : Thread nD τ).loc main_arg3)) shapeCasts_S256_S1x256 := W1_v0 m ρ c
  have e3 : Stats0.w2Arr (V1 m ρ) c = m ((c : Thread nD τ).loc main_arg6) := W1_arg6 m ρ c
  have e4 : Stats0.b2Arr (V1 m ρ) c = shapeCast S1x128 (m ((c : Thread nD τ).loc main_arg7)) shapeCasts_S128_S1x128 := W1_v1 m ρ c
  unfold Stats0.hOf hUser
  rw [e0, e1, e2, e3, e4]
  have f1 : (fun k : Fin 256 => shapeCast S1x256 (m ((c : Thread nD τ).loc main_arg3)) shapeCasts_S256_S1x256 (ix2 0 k))
      = fun k => m ((c : Thread nD τ).loc main_arg3) (ix1 k) :=
    funext fun k => shapeCast_a_1a_apply _ _ 0 k
  have f2 : (fun j : Fin 128 => shapeCast S1x128 (m ((c : Thread nD τ).loc main_arg7)) shapeCasts_S128_S1x128 (ix2 0 j))
      = fun j => m ((c : Thread nD τ).loc main_arg7) (ix1 j) :=
    funext fun j => shapeCast_a_1a_apply _ _ 0 j
  rw [f1, f2]

/-! ## The user type: what the first call leaves -/

theorem W2_v2_0 (c : Dev nD) : W2 m ρ c (Proc.devRef .tc main_v2_0) = (fun i : S400000x128.Idx => hUser m c (i 0) (i 1)) := by
  rw [← hOf_V1 m ρ c]
  exact (W2_arr m ρ c 5).trans (Stats0.arr_h (V1 m ρ) c)
theorem W2_v2_1 (c : Dev nD) : W2 m ρ c (Proc.devRef .tc main_v2_1) = (fun i : S1x128.Idx => colSum (hUser m c) (i 1)) := by
  rw [← hOf_V1 m ρ c]
  exact (W2_arr m ρ c 6).trans (Stats0.arr_sum (V1 m ρ) c)
theorem W2_v2_2 (c : Dev nD) : W2 m ρ c (Proc.devRef .tc main_v2_2) = (fun i : S1x128.Idx => colSumSq (hUser m c) (i 1)) := by
  rw [← hOf_V1 m ρ c]
  exact (W2_arr m ρ c 7).trans (Stats0.arr_sumsq (V1 m ρ) c)

theorem W2_arg10 (c : Dev nD) : W2 m ρ c (Proc.devRef .tc main_arg10) = m ((c : Thread nD τ).loc main_arg10) :=
  calc W2 m ρ c (Proc.devRef .tc main_arg10) = W1 m ρ c (Proc.devRef .tc main_arg10) := W2_of_ne m ρ c main_arg10 (by decide)
    _ = W0 m ρ c (Proc.devRef .tc main_arg10) := by kept_by hostOps0
    _ = m ((c : Thread nD τ).loc main_arg10) := rfl
theorem W2_arg11 (c : Dev nD) : W2 m ρ c (Proc.devRef .tc main_arg11) = m ((c : Thread nD τ).loc main_arg11) :=
  calc W2 m ρ c (Proc.devRef .tc main_arg11) = W1 m ρ c (Proc.devRef .tc main_arg11) := W2_of_ne m ρ c main_arg11 (by decide)
    _ = W0 m ρ c (Proc.devRef .tc main_arg11) := by kept_by hostOps0
    _ = m ((c : Thread nD τ).loc main_arg11) := rfl

/-! ## The user type: what the second call finds -/

theorem W3_v2_0 (c : Dev nD) : W3 m ρ c (Proc.devRef .tc main_v2_0) = (fun i : S400000x128.Idx => hUser m c (i 0) (i 1)) :=
  calc W3 m ρ c (Proc.devRef .tc main_v2_0) = W2 m ρ c (Proc.devRef .tc main_v2_0) := by kept_by hostOps1
    _ = _ := W2_v2_0 m ρ c

/-- The column means: the column sums divided by the batch size. -/
theorem W3_v4 (c : Dev nD) (j : Fin 128) : W3 m ρ c (Proc.devRef .tc main_v4) (ix2 0 j) = mean nUser (hUser m c) j := by
  have e : W3 m ρ c (Proc.devRef .tc main_v4)
      = Host.divf (W2 m ρ c (Proc.devRef .tc main_v2_1)) (broadcastInDim S1x128 ![] bcast_S_S1x128 (constant (F := Ideal) S_ .f32 0x48C35000#32)) := by
    show StableHlo.after hostOps1 (W2 m ρ c) (Proc.devRef .tc main_v4) = _
    after_results
  rw [e, hostDivf_apply, W2_v2_1, broadcastInDim_scalar_apply, constant_apply]
  rfl

/-- The column variances: the mean of the squares less the square of the mean. -/
theorem W3_v8 (c : Dev nD) (j : Fin 128) : W3 m ρ c (Proc.devRef .tc main_v8) (ix2 0 j) = varK nUser (hUser m c) j := by
  have e : W3 m ρ c (Proc.devRef .tc main_v8)
      = (subf (Host.divf (W2 m ρ c (Proc.devRef .tc main_v2_2)) (broadcastInDim S1x128 ![] bcast_S_S1x128 (constant (F := Ideal) S_ .f32 0x48C35000#32)))
          (mulf (Host.divf (W2 m ρ c (Proc.devRef .tc main_v2_1)) (broadcastInDim S1x128 ![] bcast_S_S1x128 (constant (F := Ideal) S_ .f32 0x48C35000#32)))
            (Host.divf (W2 m ρ c (Proc.devRef .tc main_v2_1)) (broadcastInDim S1x128 ![] bcast_S_S1x128 (constant (F := Ideal) S_ .f32 0x48C35000#32)))) : FVec Ideal S1x128 .f32) := by
    show StableHlo.after hostOps1 (W2 m ρ c) (Proc.devRef .tc main_v8) = _
    after_results
  rw [e, subf_apply, mulf_apply, hostDivf_apply, hostDivf_apply, W2_v2_2, W2_v2_1, broadcastInDim_scalar_apply, constant_apply]
  rfl

/-- The scale and the shift as the one-row matrices the call reads. -/
theorem W3_v9 (c : Dev nD) (j : Fin 128) : W3 m ρ c (Proc.devRef .tc main_v9) (ix2 0 j) = m ((c : Thread nD τ).loc main_arg10) (ix1 j) := by
  have e : W3 m ρ c (Proc.devRef .tc main_v9) = shapeCast S1x128 (W2 m ρ c (Proc.devRef .tc main_arg10)) shapeCasts_S128_S1x128 := by
    show StableHlo.after hostOps1 (W2 m ρ c) (Proc.devRef .tc main_v9) = _
    after_results
    rfl
  rw [e, W2_arg10]
  exact shapeCast_a_1a_apply _ _ 0 j
theorem W3_v10 (c : Dev nD) (j : Fin 128) : W3 m ρ c (Proc.devRef .tc main_v10) (ix2 0 j) = m ((c : Thread nD τ).loc main_arg11) (ix1 j) := by
  have e : W3 m ρ c (Proc.devRef .tc main_v10) = shapeCast S1x128 (W2 m ρ c (Proc.devRef .tc main_arg11)) shapeCasts_S128_S1x128 := by
    show StableHlo.after hostOps1 (W2 m ρ c) (Proc.devRef .tc main_v10) = _
    after_results
    rfl
  rw [e, W2_arg11]
  exact shapeCast_a_1a_apply _ _ 0 j

/-! ## The user type's result -/

/-- The program's first result: the specification's kernel-side function of the user type's arguments. -/
theorem user_result (c : Dev nD) : W8 m ρ c (Proc.devRef .tc main_v11)
    = (fun i : S400000x128.Idx => outK nUser (hUser m c) (fun j => m ((c : Thread nD τ).loc main_arg10) (ix1 j))
        (fun j => m ((c : Thread nD τ).loc main_arg11) (ix1 j)) (i 0) (i 1)) := by
  have e : W8 m ρ c (Proc.devRef .tc main_v11) = (dat1 (V3 m ρ) c).arrAt 5 cfg1.N :=
    calc W8 m ρ c (Proc.devRef .tc main_v11) = W7 m ρ c (Proc.devRef .tc main_v11) := W8_of_ne m ρ c main_v11 (by decide)
      _ = W6 m ρ c (Proc.devRef .tc main_v11) := by kept_by hostOps3
      _ = W5 m ρ c (Proc.devRef .tc main_v11) := W6_of_ne m ρ c main_v11 (by decide)
      _ = W4 m ρ c (Proc.devRef .tc main_v11) := by kept_by hostOps2
      _ = _ := W4_arr m ρ c 5
  rw [e, Norm1.arr_out (V3 m ρ) c]
  funext i
  have e0 : Norm1.hArr (V3 m ρ) c = (fun i : S400000x128.Idx => hUser m c (i 0) (i 1)) := W3_v2_0 m ρ c
  have e1 : Norm1.meanArr (V3 m ρ) c (ix2 0 (i 1)) = mean nUser (hUser m c) (i 1) := W3_v4 m ρ c (i 1)
  have e2 : Norm1.varArr (V3 m ρ) c (ix2 0 (i 1)) = varK nUser (hUser m c) (i 1) := W3_v8 m ρ c (i 1)
  have e3 : Norm1.gArr (V3 m ρ) c (ix2 0 (i 1)) = m ((c : Thread nD τ).loc main_arg10) (ix1 (i 1)) := W3_v9 m ρ c (i 1)
  have e4 : Norm1.bArr (V3 m ρ) c (ix2 0 (i 1)) = m ((c : Thread nD τ).loc main_arg11) (ix1 (i 1)) := W3_v10 m ρ c (i 1)
  rw [e0, e1, e2, e3, e4]
  rfl

/-! ## The item type: what the third call finds -/

theorem W4_arg5 (c : Dev nD) : W4 m ρ c (Proc.devRef .tc main_arg5) = m ((c : Thread nD τ).loc main_arg5) :=
  calc W4 m ρ c (Proc.devRef .tc main_arg5) = W3 m ρ c (Proc.devRef .tc main_arg5) := W4_of_ne m ρ c main_arg5 (by decide)
    _ = W2 m ρ c (Proc.devRef .tc main_arg5) := by kept_by hostOps1
    _ = W1 m ρ c (Proc.devRef .tc main_arg5) := W2_of_ne m ρ c main_arg5 (by decide)
    _ = W0 m ρ c (Proc.devRef .tc main_arg5) := by kept_by hostOps0
    _ = m ((c : Thread nD τ).loc main_arg5) := rfl
theorem W4_arg9 (c : Dev nD) : W4 m ρ c (Proc.devRef .tc main_arg9) = m ((c : Thread nD τ).loc main_arg9) :=
  calc W4 m ρ c (Proc.devRef .tc main_arg9) = W3 m ρ c (Proc.devRef .tc main_arg9) := W4_of_ne m ρ c main_arg9 (by decide)
    _ = W2 m ρ c (Proc.devRef .tc main_arg9) := by kept_by hostOps1
    _ = W1 m ρ c (Proc.devRef .tc main_arg9) := W2_of_ne m ρ c main_arg9 (by decide)
    _ = W0 m ρ c (Proc.devRef .tc main_arg9) := by kept_by hostOps0
    _ = m ((c : Thread nD τ).loc main_arg9) := rfl
theorem W5_arg1 (c : Dev nD) : W5 m ρ c (Proc.devRef .tc main_arg1) = m ((c : Thread nD τ).loc main_arg1) :=
  calc W5 m ρ c (Proc.devRef .tc main_arg1) = W4 m ρ c (Proc.devRef .tc main_arg1) := by kept_by hostOps2
    _ = W3 m ρ c (Proc.devRef .tc main_arg1) := W4_of_ne m ρ c main_arg1 (by decide)
    _ = W2 m ρ c (Proc.devRef .tc main_arg1) := by kept_by hostOps1
    _ = W1 m ρ c (Proc.devRef .tc main_arg1) := W2_of_ne m ρ c main_arg1 (by decide)
    _ = W0 m ρ c (Proc.devRef .tc main_arg1) := by kept_by hostOps0
    _ = m ((c : Thread nD τ).loc main_arg1) := rfl
theorem W5_arg4 (c : Dev nD) : W5 m ρ c (Proc.devRef .tc main_arg4) = m ((c : Thread nD τ).loc main_arg4) :=
  calc W5 m ρ c (Proc.devRef .tc main_arg4) = W4 m ρ c (Proc.devRef .tc main_arg4) := by kept_by hostOps2
    _ = W3 m ρ c (Proc.devRef .tc main_arg4) := W4_of_ne m ρ c main_arg4 (by decide)
    _ = W2 m ρ c (Proc.devRef .tc main_arg4) := by kept_by hostOps1
    _ = W1 m ρ c (Proc.devRef .tc main_arg4) := W2_of_ne m ρ c main_arg4 (by decide)
    _ = W0 m ρ c (Proc.devRef .tc main_arg4) := by kept_by hostOps0
    _ = m ((c : Thread nD τ).loc main_arg4) := rfl
theorem W5_arg8 (c : Dev nD) : W5 m ρ c (Proc.devRef .tc main_arg8) = m ((c : Thread nD τ).loc main_arg8) :=
  calc W5 m ρ c (Proc.devRef .tc main_arg8) = W4 m ρ c (Proc.devRef .tc main_arg8) := by kept_by hostOps2
    _ = W3 m ρ c (Proc.devRef .tc main_arg8) := W4_of_ne m ρ c main_arg8 (by decide)
    _ = W2 m ρ c (Proc.devRef .tc main_arg8) := by kept_by hostOps1
    _ = W1 m ρ c (Proc.devRef .tc main_arg8) := W2_of_ne m ρ c main_arg8 (by decide)
    _ = W0 m ρ c (Proc.devRef .tc main_arg8) := by kept_by hostOps0
    _ = m ((c : Thread nD τ).loc main_arg8) := rfl

/-- The item type's first bias as the one-row matrix the call reads. -/
theorem W5_v12 (c : Dev nD) : W5 m ρ c (Proc.devRef .tc main_v12)
    = shapeCast S1x256 (m ((c : Thread nD τ).loc main_arg5)) shapeCasts_S256_S1x256 := by
  have e : W5 m ρ c (Proc.devRef .tc main_v12) = shapeCast S1x256 (W4 m ρ c (Proc.devRef .tc main_arg5)) shapeCasts_S256_S1x256 := by
    show StableHlo.after hostOps2 (W4 m ρ c) (Proc.devRef .tc main_v12) = _
    after_results
    rfl
  rw [e, W4_arg5]
/-- Its second bias likewise. -/
theorem W5_v13 (c : Dev nD) : W5 m ρ c (Proc.devRef .tc main_v13)
    = shapeCast S1x128 (m ((c : Thread nD τ).loc main_arg9)) shapeCasts_S128_S1x128 := by
  have e : W5 m ρ c (Proc.devRef .tc main_v13) = shapeCast S1x128 (W4 m ρ c (Proc.devRef .tc main_arg9)) shapeCasts_S128_S1x128 := by
    show StableHlo.after hostOps2 (W4 m ρ c) (Proc.devRef .tc main_v13) = _
    after_results
    rfl
  rw [e, W4_arg9]

/-- The two affine layers of the item type's launch arguments. -/
def hItem (c : Dev nD) : Fin 600000 → Fin 128 → EReal :=
  lin2 (fun r d => m ((c : Thread nD τ).loc main_arg1) (ix2 r d)) (fun d k => m ((c : Thread nD τ).loc main_arg4) (ix2 d k))
    (fun k => m ((c : Thread nD τ).loc main_arg5) (ix1 k)) (fun k j => m ((c : Thread nD τ).loc main_arg8) (ix2 k j))
    (fun j => m ((c : Thread nD τ).loc main_arg9) (ix1 j))

/-- What the third call computes from the arrays it finds is the two layers of the item type's launch arguments. -/
theorem hOf_V5 (c : Dev nD) : Stats2.hOf (V5 m ρ) c = hItem m c := by
  have e0 : Stats2.xArr (V5 m ρ) c = m ((c : Thread nD τ).loc main_arg1) := W5_arg1 m ρ c
  have e1 : Stats2.w1Arr (V5 m ρ) c = m ((c : Thread nD τ).loc main_arg4) := W5_arg4 m ρ c
  have e2 : Stats2.b1Arr (V5 m ρ) c = shapeCast S1x256 (m ((c : Thread nD τ).loc main_arg5)) shapeCasts_S256_S1x256 := W5_v12 m ρ c
  have e3 : Stats2.w2Arr (V5 m ρ) c = m ((c : Thread nD τ).loc main_arg8) := W5_arg8 m ρ c
  have e4 : Stats2.b2Arr (V5 m ρ) c = shapeCast S1x128 (m ((c : Thread nD τ).loc main_arg9)) shapeCasts_S128_S1x128 := W5_v13 m ρ c
  unfold Stats2.hOf hItem
  rw [e0, e1, e2, e3, e4]
  have f1 : (fun k : Fin 256 => shapeCast S1x256 (m ((c : Thread nD τ).loc main_arg5)) shapeCasts_S256_S1x256 (ix2 0 k))
      = fun k => m ((c : Thread nD τ).loc main_arg5) (ix1 k) :=
    funext fun k => shapeCast_a_1a_apply _ _ 0 k
  have f2 : (fun j : Fin 128 => shapeCast S1x128 (m ((c : Thread nD τ).loc main_arg9)) shapeCasts_S128_S1x128 (ix2 0 j))
      = fun j => m ((c : Thread nD τ).loc main_arg9) (ix1 j) :=
    funext fun j => shapeCast_a_1a_apply _ _ 0 j
  rw [f1, f2]

/-! ## The item type: what the third call leaves -/

theorem W6_v14_0 (c : Dev nD) : W6 m ρ c (Proc.devRef .tc main_v14_0) = (fun i : S600000x128.Idx => hItem m c (i 0) (i 1)) := by
  rw [← hOf_V5 m ρ c]
  exact (W6_arr m ρ c 5).trans (Stats2.arr_h (V5 m ρ) c)
theorem W6_v14_1 (c : Dev nD) : W6 m ρ c (Proc.devRef .tc main_v14_1) = (fun i : S1x128.Idx => colSum (hItem m c) (i 1)) := by
  rw [← hOf_V5 m ρ c]
  exact (W6_arr m ρ c 6).trans (Stats2.arr_sum (V5 m ρ) c)
theorem W6_v14_2 (c : Dev nD) : W6 m ρ c (Proc.devRef .tc main_v14_2) = (fun i : S1x128.Idx => colSumSq (hItem m c) (i 1)) := by
  rw [← hOf_V5 m ρ c]
  exact (W6_arr m ρ c 7).trans (Stats2.arr_sumsq (V5 m ρ) c)

theorem W6_arg12 (c : Dev nD) : W6 m ρ c (Proc.devRef .tc main_arg12) = m ((c : Thread nD τ).loc main_arg12) :=
  calc W6 m ρ c (Proc.devRef .tc main_arg12) = W5 m ρ c (Proc.devRef .tc main_arg12) := W6_of_ne m ρ c main_arg12 (by decide)
    _ = W4 m ρ c (Proc.devRef .tc main_arg12) := by kept_by hostOps2
    _ = W3 m ρ c (Proc.devRef .tc main_arg12) := W4_of_ne m ρ c main_arg12 (by decide)
    _ = W2 m ρ c (Proc.devRef .tc main_arg12) := by kept_by hostOps1
    _ = W1 m ρ c (Proc.devRef .tc main_arg12) := W2_of_ne m ρ c main_arg12 (by decide)
    _ = W0 m ρ c (Proc.devRef .tc main_arg12) := by kept_by hostOps0
    _ = m ((c : Thread nD τ).loc main_arg12) := rfl
theorem W6_arg13 (c : Dev nD) : W6 m ρ c (Proc.devRef .tc main_arg13) = m ((c : Thread nD τ).loc main_arg13) :=
  calc W6 m ρ c (Proc.devRef .tc main_arg13) = W5 m ρ c (Proc.devRef .tc main_arg13) := W6_of_ne m ρ c main_arg13 (by decide)
    _ = W4 m ρ c (Proc.devRef .tc main_arg13) := by kept_by hostOps2
    _ = W3 m ρ c (Proc.devRef .tc main_arg13) := W4_of_ne m ρ c main_arg13 (by decide)
    _ = W2 m ρ c (Proc.devRef .tc main_arg13) := by kept_by hostOps1
    _ = W1 m ρ c (Proc.devRef .tc main_arg13) := W2_of_ne m ρ c main_arg13 (by decide)
    _ = W0 m ρ c (Proc.devRef .tc main_arg13) := by kept_by hostOps0
    _ = m ((c : Thread nD τ).loc main_arg13) := rfl

/-! ## The item type: what the fourth call finds -/

theorem W7_v14_0 (c : Dev nD) : W7 m ρ c (Proc.devRef .tc main_v14_0) = (fun i : S600000x128.Idx => hItem m c (i 0) (i 1)) :=
  calc W7 m ρ c (Proc.devRef .tc main_v14_0) = W6 m ρ c (Proc.devRef .tc main_v14_0) := by kept_by hostOps3
    _ = _ := W6_v14_0 m ρ c

/-- The item type's column means. -/
theorem W7_v16 (c : Dev nD) (j : Fin 128) : W7 m ρ c (Proc.devRef .tc main_v16) (ix2 0 j) = mean nItem (hItem m c) j := by
  have e : W7 m ρ c (Proc.devRef .tc main_v16)
      = Host.divf (W6 m ρ c (Proc.devRef .tc main_v14_1)) (broadcastInDim S1x128 ![] bcast_S_S1x128 (constant (F := Ideal) S_ .f32 0x49127C00#32)) := by
    show StableHlo.after hostOps3 (W6 m ρ c) (Proc.devRef .tc main_v16) = _
    after_results
  rw [e, hostDivf_apply, W6_v14_1, broadcastInDim_scalar_apply, constant_apply]
  rfl

/-- The item type's column variances. -/
theorem W7_v20 (c : Dev nD) (j : Fin 128) : W7 m ρ c (Proc.devRef .tc main_v20) (ix2 0 j) = varK nItem (hItem m c) j := by
  have e : W7 m ρ c (Proc.devRef .tc main_v20)
      = (subf (Host.divf (W6 m ρ c (Proc.devRef .tc main_v14_2)) (broadcastInDim S1x128 ![] bcast_S_S1x128 (constant (F := Ideal) S_ .f32 0x49127C00#32)))
          (mulf (Host.divf (W6 m ρ c (Proc.devRef .tc main_v14_1)) (broadcastInDim S1x128 ![] bcast_S_S1x128 (constant (F := Ideal) S_ .f32 0x49127C00#32)))
            (Host.divf (W6 m ρ c (Proc.devRef .tc main_v14_1)) (broadcastInDim S1x128 ![] bcast_S_S1x128 (constant (F := Ideal) S_ .f32 0x49127C00#32)))) : FVec Ideal S1x128 .f32) := by
    show StableHlo.after hostOps3 (W6 m ρ c) (Proc.devRef .tc main_v20) = _
    after_results
  rw [e, subf_apply, mulf_apply, hostDivf_apply, hostDivf_apply, W6_v14_2, W6_v14_1, broadcastInDim_scalar_apply, constant_apply]
  rfl

/-- The item type's scale and shift as the one-row matrices the call reads. -/
theorem W7_v21 (c : Dev nD) (j : Fin 128) : W7 m ρ c (Proc.devRef .tc main_v21) (ix2 0 j) = m ((c : Thread nD τ).loc main_arg12) (ix1 j) := by
  have e : W7 m ρ c (Proc.devRef .tc main_v21) = shapeCast S1x128 (W6 m ρ c (Proc.devRef .tc main_arg12)) shapeCasts_S128_S1x128 := by
    show StableHlo.after hostOps3 (W6 m ρ c) (Proc.devRef .tc main_v21) = _
    after_results
    rfl
  rw [e, W6_arg12]
  exact shapeCast_a_1a_apply _ _ 0 j
theorem W7_v22 (c : Dev nD) (j : Fin 128) : W7 m ρ c (Proc.devRef .tc main_v22) (ix2 0 j) = m ((c : Thread nD τ).loc main_arg13) (ix1 j) := by
  have e : W7 m ρ c (Proc.devRef .tc main_v22) = shapeCast S1x128 (W6 m ρ c (Proc.devRef .tc main_arg13)) shapeCasts_S128_S1x128 := by
    show StableHlo.after hostOps3 (W6 m ρ c) (Proc.devRef .tc main_v22) = _
    after_results
    rfl
  rw [e, W6_arg13]
  exact shapeCast_a_1a_apply _ _ 0 j

/-! ## The item type's result -/

/-- The program's second result: the specification's kernel-side function of the item type's arguments. -/
theorem item_result (c : Dev nD) : W8 m ρ c (Proc.devRef .tc main_v23)
    = (fun i : S600000x128.Idx => outK nItem (hItem m c) (fun j => m ((c : Thread nD τ).loc main_arg12) (ix1 j))
        (fun j => m ((c : Thread nD τ).loc main_arg13) (ix1 j)) (i 0) (i 1)) := by
  rw [W8_arr m ρ c 5, Norm3.arr_out (V7 m ρ) c]
  funext i
  have e0 : Norm3.hArr (V7 m ρ) c = (fun i : S600000x128.Idx => hItem m c (i 0) (i 1)) := W7_v14_0 m ρ c
  have e1 : Norm3.meanArr (V7 m ρ) c (ix2 0 (i 1)) = mean nItem (hItem m c) (i 1) := W7_v16 m ρ c (i 1)
  have e2 : Norm3.varArr (V7 m ρ) c (ix2 0 (i 1)) = varK nItem (hItem m c) (i 1) := W7_v20 m ρ c (i 1)
  have e3 : Norm3.gArr (V7 m ρ) c (ix2 0 (i 1)) = m ((c : Thread nD τ).loc main_arg12) (ix1 (i 1)) := W7_v21 m ρ c (i 1)
  have e4 : Norm3.bArr (V7 m ρ) c (ix2 0 (i 1)) = m ((c : Thread nD τ).loc main_arg13) (ix1 (i 1)) := W7_v22 m ρ c (i 1)
  rw [e0, e1, e2, e3, e4]
  rfl

end Cert.KernelIdeal.Walk

end
-- ==== Proof.lean ====
/-
  The certificate: a two-type batch-normalized perceptron, the kernel against its reference.

  Per node type the kernel makes two passes over the rows. The first computes the two affine layers block by block and
  accumulates, in two one-row results that stay resident across the grid, each column's sum and sum of squares; the host
  turns these into the column mean and the variance `(∑ h²) / n − mean²`; the second pass normalizes every entry, scales,
  shifts and applies the leaky rectifier. The reference computes the same layers, the same mean, the variance as
  `(∑ (h − mean)²) / n`, and the same final expression.

  Frames: the kernel's two programs by their generated frame certificates; the reference's by its generated run.
  `preserves`: the idealization rewrote nothing. `algebraic`: the kernel's results are the specification's `outK` of the
  arguments (the run read through the fold of host stretches and calls), the reference's are `outR`; the inputs are real
  numbers by the precondition, so the layers' output is real, and over the reals the two variances are one number.
-/
import proofs.«174799_j19353122636427_1_alg».proof.Defs
import proofs.«174799_j19353122636427_1_alg».proof.Proof.Gen.Kernel
import proofs.«174799_j19353122636427_1_alg».proof.Proof.Gen.Kernel.Frame
import proofs.«174799_j19353122636427_1_alg».proof.Proof.Gen.KernelIdeal
import proofs.«174799_j19353122636427_1_alg».proof.Proof.Gen.KernelIdeal.Frame
import proofs.«174799_j19353122636427_1_alg».proof.Proof.Gen.ReferenceIdeal
import proofs.«174799_j19353122636427_1_alg».proof.Proof.Gen.ReferenceIdeal.Run
import proofs.«174799_j19353122636427_1_alg».proof.Proof.Gen.ReferenceIdeal.Read
import proofs.«174799_j19353122636427_1_alg».proof.Proof.Gen.Pre_finite_inputs
import proofs.«174799_j19353122636427_1_alg».proof.Proof.Spec
import proofs.«174799_j19353122636427_1_alg».proof.Proof.Algebra
import proofs.«174799_j19353122636427_1_alg».proof.Proof.Finite
import proofs.«174799_j19353122636427_1_alg».proof.Proof.RefValue
import proofs.«174799_j19353122636427_1_alg».proof.Proof.RunNamed
import proofs.«174799_j19353122636427_1_alg».proof.Proof.Walk
import Idealize.ShloMosaic.Adequacy
import Idealize.ShloMosaic.Init

noncomputable section

namespace Cert.Proof

open Idealize.ShloMosaic Idealize.ShloMosaic.TcCoe Idealize.SL.Sem Idealize.ShloMosaic.ValueIdx Cert.Spec

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

/-- The batch sizes are the row counts, as natural numbers read in the reals. -/
theorem nUser_cast : nUser = (((400000 : ℕ) : ℝ) : EReal) := by rw [nUser_eq]; norm_cast
theorem nItem_cast : nItem = (((600000 : ℕ) : ℝ) : EReal) := by rw [nItem_eq]; norm_cast

/-- Both programs run; the kernel's two results are the specification's kernel-side functions of the arguments, the
    reference's its reference-side functions of arguments that agree, and the two are equal entry by entry because every
    argument entry is a real number. -/
theorem algebraic : Cert.algebraic_KernelIdeal_ReferenceIdeal := by
  intro m ρ m' ρ' hpre hagree
  refine ⟨fun c => Cert.KernelIdeal.Gen.W8 m ρ c (Proc.devRef .tc Cert.KernelIdeal.main_v11),
    fun c => Cert.KernelIdeal.Gen.W8 m ρ c (Proc.devRef .tc Cert.KernelIdeal.main_v23),
    Cert.KernelIdeal.Named.run_named (F := Ideal) m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · -- the user type
    show Cert.ReferenceIdeal.Value.res_main_v37 m' c = Cert.KernelIdeal.Gen.W8 m ρ c (Proc.devRef .tc Cert.KernelIdeal.main_v11)
    have hR := Cert.Pre_finite_inputs.Finite.allReal_of_fn _ _ _ _ _ _ _ _ _ _ _ _ _ _ (hpre c)
    obtain ⟨a0, a1, a2, a3, a4, a5, a6, a7, a8, a9, a10, a11, a12, a13⟩ := hagree c
    rw [Cert.ReferenceIdeal.Read.val_main_v37_eq, Cert.ReferenceIdeal.RefValue.user_value, Cert.KernelIdeal.Walk.user_result,
      a0, a2, a3, a6, a7, a10, a11]
    funext i
    exact (outK_eq_outR nUser nUser_cast (by norm_num) (Cert.KernelIdeal.Walk.hUser m c)
      (lin2_isReal _ _ _ _ _ (fun r d => hR.h0 _) (fun d k => hR.h2 _) (fun k => hR.h3 _) (fun k j => hR.h6 _) (fun j => hR.h7 _))
      _ _ (i 0) (i 1)).symm
  · -- the item type
    show Cert.ReferenceIdeal.Value.res_main_v75 m' c = Cert.KernelIdeal.Gen.W8 m ρ c (Proc.devRef .tc Cert.KernelIdeal.main_v23)
    have hR := Cert.Pre_finite_inputs.Finite.allReal_of_fn _ _ _ _ _ _ _ _ _ _ _ _ _ _ (hpre c)
    obtain ⟨a0, a1, a2, a3, a4, a5, a6, a7, a8, a9, a10, a11, a12, a13⟩ := hagree c
    rw [Cert.ReferenceIdeal.Read.val_main_v75_eq, Cert.ReferenceIdeal.RefValue.item_value, Cert.KernelIdeal.Walk.item_result,
      a1, a4, a5, a8, a9, a12, a13]
    funext i
    exact (outK_eq_outR nItem nItem_cast (by norm_num) (Cert.KernelIdeal.Walk.hItem m c)
      (lin2_isReal _ _ _ _ _ (fun r d => hR.h1 _) (fun d k => hR.h4 _) (fun k => hR.h5 _) (fun k j => hR.h8 _) (fun j => hR.h9 _))
      _ _ (i 0) (i 1)).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
